-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![512, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S512x4096 : Shape := ⟨2, ![512, 4096]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel

variable [Facts]

def fn {F : FTy → Type} [FloatOps F] (main_arg0 : FVec F S512x4096 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  main_v3
-- ==== Kernel.lean ====
abbrev S512x256 : Shape := ⟨2, ![512, 256]⟩
abbrev S16x8x128 : Shape := ⟨3, ![16, 8, 128]⟩
abbrev S16 : Shape := ⟨1, ![16]⟩
abbrev S_ : Shape := ⟨0, ![]⟩
abbrev S128x256 : Shape := ⟨2, ![128, 256]⟩
abbrev S128 : Shape := ⟨1, ![128]⟩
abbrev S128x1 : Shape := ⟨2, ![128, 1]⟩
abbrev S128x8 : Shape := ⟨2, ![128, 8]⟩
abbrev S8x128 : Shape := ⟨2, ![8, 128]⟩
abbrev S1x8x128 : Shape := ⟨3, ![1, 8, 128]⟩
abbrev S1 : Shape := ⟨1, ![1]⟩
abbrev S16x4x128 : Shape := ⟨3, ![16, 4, 128]⟩
abbrev S4x128 : Shape := ⟨2, ![4, 128]⟩
abbrev S1x4x128 : Shape := ⟨3, ![1, 4, 128]⟩

abbrev nBuf : Space → Nat
  | .hbm => 2
  | .vmem => 3
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S16x8x128, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v100 : Index := Scalar.indexCast v2
  let c0_68 : Index := 0#32
  let c0_69 : Index := 0#32
  ![v100.toNat, 0, 0]
def k0_off2 (d0 : Dev nD) (c1_i32_71 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v104 : BitVec 32 := Scalar.addi v2 c1_i32_71
  let c16_i32_72 : BitVec 32 := 16#32
  let v105 : BitVec 32 := Scalar.remsi v104 c16_i32_72
  ![v105.toNat]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_75 : BitVec 32 := 0#32
  let c0_i32_76 : BitVec 32 := 0#32
  ![v2.toNat, 0, 0]
def k0_dev16 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_71 : BitVec 32 := 1#32
  let v104 : BitVec 32 := Scalar.addi v2 c1_i32_71
  let c16_i32_72 : BitVec 32 := 16#32
  let v105 : BitVec 32 := Scalar.remsi v104 c16_i32_72
  let c1_i32_73 : BitVec 32 := 1#32
  let v106 : BitVec 32 := Scalar.muli v105 c1_i32_73
  let v107 : BitVec 32 := Scalar.addi c0_i32_74 v106
  v107.toNat
def k0_dev17 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_79 : BitVec 32 := 2#32
  let v116 : BitVec 32 := Scalar.addi v2 c2_i32_79
  let c16_i32_80 : BitVec 32 := 16#32
  let v117 : BitVec 32 := Scalar.remsi v116 c16_i32_80
  let c1_i32_81 : BitVec 32 := 1#32
  let v118 : BitVec 32 := Scalar.muli v117 c1_i32_81
  let v119 : BitVec 32 := Scalar.addi c0_i32_82 v118
  v119.toNat
def k0_dev18 (d0 : Dev nD) : Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_87 : BitVec 32 := 3#32
  let v128 : BitVec 32 := Scalar.addi v2 c3_i32_87
  let c16_i32_88 : BitVec 32 := 16#32
  let v129 : BitVec 32 := Scalar.remsi v128 c16_i32_88
  let c1_i32_89 : BitVec 32 := 1#32
  let v130 : BitVec 32 := Scalar.muli v129 c1_i32_89
  let v131 : BitVec 32 := Scalar.addi c0_i32_90 v130
  v131.toNat
def k0_dev19 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_95 : BitVec 32 := 4#32
  let v140 : BitVec 32 := Scalar.addi v2 c4_i32_95
  let c16_i32_96 : BitVec 32 := 16#32
  let v141 : BitVec 32 := Scalar.remsi v140 c16_i32_96
  let c1_i32_97 : BitVec 32 := 1#32
  let v142 : BitVec 32 := Scalar.muli v141 c1_i32_97
  let v143 : BitVec 32 := Scalar.addi c0_i32_98 v142
  v143.toNat
def k0_dev20 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_103 : BitVec 32 := 5#32
  let v152 : BitVec 32 := Scalar.addi v2 c5_i32_103
  let c16_i32_104 : BitVec 32 := 16#32
  let v153 : BitVec 32 := Scalar.remsi v152 c16_i32_104
  let c1_i32_105 : BitVec 32 := 1#32
  let v154 : BitVec 32 := Scalar.muli v153 c1_i32_105
  let v155 : BitVec 32 := Scalar.addi c0_i32_106 v154
  v155.toNat
def k0_dev21 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_111 : BitVec 32 := 6#32
  let v164 : BitVec 32 := Scalar.addi v2 c6_i32_111
  let c16_i32_112 : BitVec 32 := 16#32
  let v165 : BitVec 32 := Scalar.remsi v164 c16_i32_112
  let c1_i32_113 : BitVec 32 := 1#32
  let v166 : BitVec 32 := Scalar.muli v165 c1_i32_113
  let v167 : BitVec 32 := Scalar.addi c0_i32_114 v166
  v167.toNat
def k0_dev22 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_119 : BitVec 32 := 7#32
  let v176 : BitVec 32 := Scalar.addi v2 c7_i32_119
  let c16_i32_120 : BitVec 32 := 16#32
  let v177 : BitVec 32 := Scalar.remsi v176 c16_i32_120
  let c1_i32_121 : BitVec 32 := 1#32
  let v178 : BitVec 32 := Scalar.muli v177 c1_i32_121
  let v179 : BitVec 32 := Scalar.addi c0_i32_122 v178
  v179.toNat
def k0_dev23 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_127 : BitVec 32 := 8#32
  let v188 : BitVec 32 := Scalar.addi v2 c8_i32_127
  let c16_i32_128 : BitVec 32 := 16#32
  let v189 : BitVec 32 := Scalar.remsi v188 c16_i32_128
  let c1_i32_129 : BitVec 32 := 1#32
  let v190 : BitVec 32 := Scalar.muli v189 c1_i32_129
  let v191 : BitVec 32 := Scalar.addi c0_i32_130 v190
  v191.toNat
def k0_dev24 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_135 : BitVec 32 := 9#32
  let v200 : BitVec 32 := Scalar.addi v2 c9_i32_135
  let c16_i32_136 : BitVec 32 := 16#32
  let v201 : BitVec 32 := Scalar.remsi v200 c16_i32_136
  let c1_i32_137 : BitVec 32 := 1#32
  let v202 : BitVec 32 := Scalar.muli v201 c1_i32_137
  let v203 : BitVec 32 := Scalar.addi c0_i32_138 v202
  v203.toNat
def k0_dev25 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_143 : BitVec 32 := 10#32
  let v212 : BitVec 32 := Scalar.addi v2 c10_i32_143
  let c16_i32_144 : BitVec 32 := 16#32
  let v213 : BitVec 32 := Scalar.remsi v212 c16_i32_144
  let c1_i32_145 : BitVec 32 := 1#32
  let v214 : BitVec 32 := Scalar.muli v213 c1_i32_145
  let v215 : BitVec 32 := Scalar.addi c0_i32_146 v214
  v215.toNat
def k0_dev26 (d0 : Dev nD) : Nat :=
  let c0_i32_154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_151 : BitVec 32 := 11#32
  let v224 : BitVec 32 := Scalar.addi v2 c11_i32_151
  let c16_i32_152 : BitVec 32 := 16#32
  let v225 : BitVec 32 := Scalar.remsi v224 c16_i32_152
  let c1_i32_153 : BitVec 32 := 1#32
  let v226 : BitVec 32 := Scalar.muli v225 c1_i32_153
  let v227 : BitVec 32 := Scalar.addi c0_i32_154 v226
  v227.toNat
def k0_dev27 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_159 : BitVec 32 := 12#32
  let v236 : BitVec 32 := Scalar.addi v2 c12_i32_159
  let c16_i32_160 : BitVec 32 := 16#32
  let v237 : BitVec 32 := Scalar.remsi v236 c16_i32_160
  let c1_i32_161 : BitVec 32 := 1#32
  let v238 : BitVec 32 := Scalar.muli v237 c1_i32_161
  let v239 : BitVec 32 := Scalar.addi c0_i32_162 v238
  v239.toNat
def k0_dev28 (d0 : Dev nD) : Nat :=
  let c0_i32_170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_167 : BitVec 32 := 13#32
  let v248 : BitVec 32 := Scalar.addi v2 c13_i32_167
  let c16_i32_168 : BitVec 32 := 16#32
  let v249 : BitVec 32 := Scalar.remsi v248 c16_i32_168
  let c1_i32_169 : BitVec 32 := 1#32
  let v250 : BitVec 32 := Scalar.muli v249 c1_i32_169
  let v251 : BitVec 32 := Scalar.addi c0_i32_170 v250
  v251.toNat
def k0_dev29 (d0 : Dev nD) : Nat :=
  let c0_i32_178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_175 : BitVec 32 := 14#32
  let v260 : BitVec 32 := Scalar.addi v2 c14_i32_175
  let c16_i32_176 : BitVec 32 := 16#32
  let v261 : BitVec 32 := Scalar.remsi v260 c16_i32_176
  let c1_i32_177 : BitVec 32 := 1#32
  let v262 : BitVec 32 := Scalar.muli v261 c1_i32_177
  let v263 : BitVec 32 := Scalar.addi c0_i32_178 v262
  v263.toNat
def k0_dev30 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_183 : BitVec 32 := 15#32
  let v272 : BitVec 32 := Scalar.addi v2 c15_i32_183
  let c16_i32_184 : BitVec 32 := 16#32
  let v273 : BitVec 32 := Scalar.remsi v272 c16_i32_184
  let c1_i32_185 : BitVec 32 := 1#32
  let v274 : BitVec 32 := Scalar.muli v273 c1_i32_185
  let v275 : BitVec 32 := Scalar.addi c0_i32_186 v274
  v275.toNat
def k0_off5 (d0 : Dev nD) (c1_i32_191 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v300 : BitVec 32 := Scalar.addi v2 c1_i32_191
  let c16_i32_192 : BitVec 32 := 16#32
  let v301 : BitVec 32 := Scalar.remsi v300 c16_i32_192
  let c0_i32_195 : BitVec 32 := 0#32
  let c0_i32_196 : BitVec 32 := 0#32
  ![v301.toNat, 0, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  slices_S512x256_o0_0_S128x256 : S512x256.Slices ![0, 0] S128x256
  reduces_S128x256_S128 : S128x256.Reduces [1] S128
  shapeCasts_S128_S128x1 : S128.ShapeCasts S128x1
  broadcasts_S128x1_S128x256 : S128x1.Broadcasts S128x256
  slices_S512x256_o128_0_S128x256 : S512x256.Slices ![128, 0] S128x256
  slices_S512x256_o256_0_S128x256 : S512x256.Slices ![256, 0] S128x256
  slices_S512x256_o384_0_S128x256 : S512x256.Slices ![384, 0] S128x256
  concatenates_S128x1_S128x1_S128x1_S128x1_S128x1_S128x1_S128x1_S128x1_S128x8_d1 : Shape.Concatenates [S128x1, S128x1, S128x1, S128x1, S128x1, S128x1, S128x1, S128x1] S128x8 1
  transposes_S128x8_p1_0_S8x128 : S128x8.Transposes [1, 0] S8x128
  h_S1x8x128 : 0 < S1x8x128.numel
  shapeCasts_S1x8x128_S8x128 : S1x8x128.ShapeCasts S8x128
  shapeCasts_S8x128_S1x8x128 : S8x128.ShapeCasts S1x8x128
  hamt_15 : (15#32 : BitVec 32).msb = false
  squeezes_S1_S_ : S1.Squeezes S_
  squeezes_S1x8x128_S8x128 : S1x8x128.Squeezes S8x128
  inb_S16x8x128_S16x8x128_0_0_0 : ∀ a, (![0, 0, 0] : Fin 3 → Nat) a + S16x8x128.size a ≤ S16x8x128.size a
  h_S16x8x128 : 0 < S16x8x128.numel
  slices_S16x8x128_o0_0_0_S16x4x128 : S16x8x128.Slices ![0, 0, 0] S16x4x128
  slices_S16x8x128_o0_4_0_S16x4x128 : S16x8x128.Slices ![0, 4, 0] S16x4x128
  reduces_S16x4x128_S4x128 : S16x4x128.Reduces [0] S4x128
  shapeCasts_S4x128_S1x4x128 : S4x128.ShapeCasts S1x4x128
  broadcasts_S1x4x128_S16x4x128 : S1x4x128.Broadcasts S16x4x128
  concatenates_S4x128_S4x128_S8x128_d0 : Shape.Concatenates [S4x128, S4x128] S8x128 0
  transposes_S8x128_p1_0_S128x8 : S8x128.Transposes [1, 0] S128x8
  slices_S128x8_o0_0_S128x1 : S128x8.Slices ![0, 0] S128x1
  slices_S128x8_o0_4_S128x1 : S128x8.Slices ![0, 4] S128x1
  inb_S512x256_S128x256_0_0 : ∀ a, (![0, 0] : Fin 2 → Nat) a + S128x256.size a ≤ S512x256.size a
  h_S128x256 : 0 < S128x256.numel
  slices_S128x8_o0_1_S128x1 : S128x8.Slices ![0, 1] S128x1
  slices_S128x8_o0_5_S128x1 : S128x8.Slices ![0, 5] S128x1
  inb_S512x256_S128x256_128_0 : ∀ a, (![128, 0] : Fin 2 → Nat) a + S128x256.size a ≤ S512x256.size a
  slices_S128x8_o0_2_S128x1 : S128x8.Slices ![0, 2] S128x1
  slices_S128x8_o0_6_S128x1 : S128x8.Slices ![0, 6] S128x1
  inb_S512x256_S128x256_256_0 : ∀ a, (![256, 0] : Fin 2 → Nat) a + S128x256.size a ≤ S512x256.size a
  slices_S128x8_o0_3_S128x1 : S128x8.Slices ![0, 3] S128x1
  slices_S128x8_o0_7_S128x1 : S128x8.Slices ![0, 7] S128x1
  inb_S512x256_S128x256_384_0 : ∀ a, (![384, 0] : Fin 2 → Nat) a + S128x256.size a ≤ S512x256.size a
  hcc0_scratch1 : 2 + S16.numel ≤ 34
  hcc0_scratch2 : 18 + S16.numel ≤ 34
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off1_inb : ∀ d0 : Dev nD, ∀ a, (k0_off1 d0) a + S1x8x128.size a ≤ S16x8x128.size a
  k0_off2_inb : ∀ d0 : Dev nD, ∀ (r : Fin 15), ∀ a, (k0_off2 d0 (BitVec.ofNat 32 (1 + r.val))) a + S1.size a ≤ S16.size a
  k0_off3_inb : ∀ d0 : Dev nD, ∀ a, (k0_off3 d0) a + S1.size a ≤ S16.size a
  k0_off4_inb : ∀ d0 : Dev nD, ∀ a, (k0_off4 d0) a + S1x8x128.size a ≤ S16x8x128.size a
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_off5_inb : ∀ d0 : Dev nD, ∀ (r : Fin 15), ∀ a, (k0_off5 d0 (BitVec.ofNat 32 (1 + r.val))) a + S1x8x128.size a ≤ S16x8x128.size a
  hstage0_0 : ∀ j, (stage0_0 j).IsWhole
  hstage0_1 : ∀ j, (stage0_1 j).IsWhole

variable [Facts₀]

abbrev cc0_scratch1 : DmaSems sig S16 := SemArray.consecutive 2 S16 hcc0_scratch1
abbrev cc0_scratch2 : DmaSems sig S16 := SemArray.consecutive 18 S16 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x4096 : Shape := ⟨2, ![512, 4096]⟩
abbrev S_ : Shape := ⟨0, ![]⟩
abbrev S512 : Shape := ⟨1, ![512]⟩
abbrev S512x1 : Shape := ⟨2, ![512, 1]⟩

abbrev nBuf : Space → Nat
  | .hbm => 12
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S_, .f32⟩
  | .hbm, ⟨2, _⟩ => ⟨S512, .f32⟩
  | .hbm, ⟨3, _⟩ => ⟨S512x1, .f32⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S512x4096, .f32⟩
  | .hbm, ⟨11, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  reducesTo_S512x4096_S512_d1 : S512x4096.ReducesTo [1] S512
  h_S_ : 0 < S_.numel
  bcast_S512_S512x1_0 : S512.BroadcastsInDim S512x1 (![0] : Fin 1 → Fin S512x1.rank)
  bcast_S512x1_S512x4096_0_1 : S512x1.BroadcastsInDim S512x4096 (![0, 1] : Fin 2 → Fin S512x4096.rank)

variable [Facts₀]

class Facts : Prop extends Facts₀ where

variable [Facts]
-- ==== Proof.KernelIdeal.Spec.lean ====
/-
  The two formulas of the claim, over plain finite index types on the extended reals, and the law that
  joins them.

  `x p r j` is entry `(r, j)` of device `p`'s `[512, 256]` block, `X r J` entry `(r, J)` of the whole
  `[512, 4096]` array, `J = 256 p + j`.
  The kernel forms per device and row the block maximum `m` and `s = Σ_j exp (x - m)`, then over the
  sixteen devices `M = max_p m_p` and `S = Σ_p s_p · exp (m_p - M)`, and writes
  `exp (x - m) · (exp (m - M) / S)`. The reference takes the row maximum `RM` of all 4096 entries and writes
  `exp (X - RM) / (0 + Σ_J exp (X - RM))` (the host's sum starts from its initial value `0`).
  For finite entries the two agree: a maximum of maxima is the maximum, `exp a · exp b = exp (a + b)` on
  reals, the sum over 4096 columns splits into sixteen sums over 256, and `a · (b / S) = (a · b) / S` for a
  real `S ≠ 0` (it is a sum of positive reals). At an infinite entry the laws used fail, which is why the
  claim carries the finiteness precondition.
-/
import Idealize.ShloMosaic.PureOps.Ideal
import Mathlib.Algebra.BigOperators.Fin

noncomputable section

namespace Cert.KernelIdeal.Spec

open Idealize.ShloMosaic

/-- The maximum of a finite family of extended reals, from `-∞`. -/
def fmax {n : ℕ} (f : Fin n → EReal) : EReal := (Finset.univ : Finset (Fin n)).fold max ⊥ f

section Kernel
variable (x : Fin 16 → Fin 512 → Fin 256 → EReal)

/-- device `p`'s block maximum of row `r` -/
def m (p : Fin 16) (r : Fin 512) : EReal := fmax fun j => x p r j
/-- device `p`'s sum of exponentials of row `r` against its own maximum -/
def s (p : Fin 16) (r : Fin 512) : EReal := ∑ j : Fin 256, Ideal.exp (x p r j - m x p r)
/-- the maximum over the devices -/
def M (r : Fin 512) : EReal := fmax fun p => m x p r
/-- the devices' sums brought to the common maximum -/
def S (r : Fin 512) : EReal := ∑ p : Fin 16, s x p r * Ideal.exp (m x p r - M x r)
/-- what device `c` writes at `(r, j)` -/
def kout (c : Fin 16) (r : Fin 512) (j : Fin 256) : EReal :=
  Ideal.exp (x c r j - m x c r) * Ideal.div (Ideal.exp (m x c r - M x r)) (S x r)
end Kernel

section Reference
variable (X : Fin 512 → Fin 4096 → EReal)
def RM (r : Fin 512) : EReal := fmax fun J => X r J
/-- what the reference writes at `(r, J)` -/
def rout (r : Fin 512) (J : Fin 4096) : EReal :=
  Ideal.div (Ideal.exp (X r J - RM X r)) (0 + ∑ J' : Fin 4096, Ideal.exp (X r J' - RM X r))
end Reference

/-- Column `j` of device `p`'s block is column `256 p + j` of the whole array. -/
def col (p : Fin 16) (j : Fin 256) : Fin 4096 := ⟨256 * p.val + j.val, by have := p.isLt; have := j.isLt; omega⟩

/-! ### Finite maxima -/

/-- The fold of max from -∞ is the finite supremum. -/
theorem fmax_eq_sup {n : ℕ} (f : Fin n → EReal) : fmax f = Finset.univ.sup f := rfl

/-- Over a nonempty index type the maximum is attained. -/
theorem fmax_attained {n : ℕ} [NeZero n] (f : Fin n → EReal) : ∃ i, fmax f = f i := by
  obtain ⟨i, -, h⟩ := Finset.exists_mem_eq_sup Finset.univ Finset.univ_nonempty f
  exact ⟨i, h⟩

/-- Every whole-array column is a column of exactly one device's block. -/
theorem col_div_mod (J : Fin 4096) :
    col ⟨J.val / 256, by have := J.isLt; omega⟩ ⟨J.val % 256, Nat.mod_lt _ (by norm_num)⟩ = J := by
  apply Fin.ext
  simp only [col]
  omega

/-- The maximum of the sixteen block maxima is the maximum over all 4096 columns. -/
theorem fmax_col (g : Fin 4096 → EReal) :
    (fmax fun p : Fin 16 => fmax fun j : Fin 256 => g (col p j)) = fmax g := by
  simp only [fmax_eq_sup]
  apply le_antisymm
  · exact Finset.sup_le fun p _ => Finset.sup_le fun j _ => Finset.le_sup (f := g) (Finset.mem_univ _)
  · refine Finset.sup_le fun J _ => ?_
    rw [← col_div_mod J]
    exact le_trans
      (Finset.le_sup (f := fun j : Fin 256 => g (col _ j)) (Finset.mem_univ _))
      (Finset.le_sup (f := fun p : Fin 16 => Finset.univ.sup fun j : Fin 256 => g (col p j)) (Finset.mem_univ _))

/-! ### Finite sums -/

/-- The columns of the whole array are the pairs (device, block column). -/
def colEquiv : Fin 16 × Fin 256 ≃ Fin 4096 where
  toFun pj := col pj.1 pj.2
  invFun J := (⟨J.val / 256, by have := J.isLt; omega⟩, ⟨J.val % 256, Nat.mod_lt _ (by norm_num)⟩)
  left_inv := by
    rintro ⟨p, j⟩
    have := p.isLt; have := j.isLt
    refine Prod.ext (Fin.ext ?_) (Fin.ext ?_) <;> simp only [col] <;> omega
  right_inv J := col_div_mod J

/-- A sum over the 4096 columns is the sum over the devices of the sums over their 256 columns. -/
theorem sum_col {A : Type*} [AddCommMonoid A] (g : Fin 4096 → A) :
    ∑ J, g J = ∑ p : Fin 16, ∑ j : Fin 256, g (col p j) := by
  rw [← Fintype.sum_prod_type']
  exact (Fintype.sum_equiv colEquiv (fun pj => g (col pj.1 pj.2)) g fun _ => rfl).symm

/-- The inclusion of the reals commutes with finite sums. -/
theorem coe_finsum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- THE LAW: for finite entries, what the kernel writes is what the reference writes. -/
theorem kout_eq_rout (X : Fin 512 → Fin 4096 → EReal) (hfin : ∀ r J, ∃ y : ℝ, X r J = (y : EReal))
    (c : Fin 16) (r : Fin 512) (j : Fin 256) :
    kout (fun p r j => X r (col p j)) c r j = rout X r (col c j) := by
  -- real witnesses of row r
  choose y hy using hfin r
  -- each block maximum is one of the entries, hence real
  have hm : ∀ p : Fin 16, ∃ a : ℝ, m (fun p r j => X r (col p j)) p r = (a : EReal) := fun p => by
    obtain ⟨j0, h⟩ := fmax_attained fun j : Fin 256 => X r (col p j)
    exact ⟨y (col p j0), by rw [← hy]; exact h⟩
  choose mp hmp using hm
  -- the maximum of the maxima is the row maximum, and it is real
  have hMRM : M (fun p r j => X r (col p j)) r = RM X r := fmax_col fun J => X r J
  obtain ⟨Mr, hMr⟩ : ∃ a : ℝ, RM X r = (a : EReal) := by
    obtain ⟨J0, h⟩ := fmax_attained fun J : Fin 4096 => X r J
    exact ⟨y J0, by rw [← hy]; exact h⟩
  -- the reference's sum of exponentials is a real
  have hT : ∑ J' : Fin 4096, Ideal.exp (X r J' - RM X r)
      = ((∑ J' : Fin 4096, Real.exp (y J' - Mr) : ℝ) : EReal) := by
    rw [coe_finsum]
    refine Finset.sum_congr rfl fun J' _ => ?_
    rw [hy, hMr, ← EReal.coe_sub, Ideal.exp_coe]
  -- each device's sum of exponentials is a real
  have hs : ∀ p : Fin 16, s (fun p r j => X r (col p j)) p r
      = ((∑ j : Fin 256, Real.exp (y (col p j) - mp p) : ℝ) : EReal) := fun p => by
    rw [coe_finsum]
    unfold s
    refine Finset.sum_congr rfl fun j _ => ?_
    show Ideal.exp (X r (col p j) - m _ p r) = _
    rw [hy, hmp, ← EReal.coe_sub, Ideal.exp_coe]
  -- brought to the common maximum, the devices' sums add up to the same real:
  -- exp (x - m) * exp (m - M) = exp (x - M), and the 4096 columns are the 16 × 256 columns
  have hS : S (fun p r j => X r (col p j)) r
      = ((∑ J' : Fin 4096, Real.exp (y J' - Mr) : ℝ) : EReal) := by
    rw [sum_col, coe_finsum]
    unfold S
    refine Finset.sum_congr rfl fun p _ => ?_
    rw [hs, hmp, hMRM, hMr, ← EReal.coe_sub, Ideal.exp_coe, ← EReal.coe_mul, Finset.sum_mul]
    congr 1
    refine Finset.sum_congr rfl fun j _ => ?_
    rw [← Real.exp_add]
    congr 1
    ring
  -- that real is positive, so the division is a multiplication by its reciprocal
  have hpos : (0 : ℝ) < ∑ J' : Fin 4096, Real.exp (y J' - Mr) :=
    Finset.sum_pos (fun _ _ => Real.exp_pos _) Finset.univ_nonempty
  show Ideal.exp (X r (col c j) - m _ c r) * Ideal.div (Ideal.exp (m _ c r - M _ r)) (S _ r)
      = Ideal.div (Ideal.exp (X r (col c j) - RM X r)) (0 + ∑ J' : Fin 4096, Ideal.exp (X r J' - RM X r))
  rw [hS, hT, zero_add, hy, hmp, hMRM, hMr, Ideal.div_coe hpos.ne', Ideal.div_coe hpos.ne']
  simp only [← EReal.coe_sub, Ideal.exp_coe, ← EReal.coe_mul]
  have hadd : y (col c j) - mp c + (mp c - Mr) = y (col c j) - Mr := by ring
  rw [← mul_assoc, ← Real.exp_add, hadd]

end Cert.KernelIdeal.Spec

end

/-- info: 'Cert.KernelIdeal.Spec.kout_eq_rout' depends on axioms: [propext, Classical.choice, Quot.sound] -/
#guard_msgs in #print axioms Cert.KernelIdeal.Spec.kout_eq_rout
-- ==== Proof.KernelIdeal.Contents.lean ====
/-
  What each device computes, as pure functions of the sixteen devices' input blocks, at any float
  instance.

  Device `c` holds the column block `x c : [512, 256]` of the whole `[512, 4096]` array. Its rows come in
  four groups of 128. For a row it computes the maximum `m` of its 256 entries and the sum `s` of
  `exp (entry - m)`; the eight vectors (four maxima, four sums) are laid out as one `[8, 128]` slot: row
  `a < 4` the maxima of group `a`, row `4 + a` the sums of group `a`. After the exchange every device
  holds all sixteen slots: `gathered`. From them it forms, per row, the maximum `M` of the sixteen
  maxima and `S = Σ_p s_p · exp (m_p - M)`, and writes `exp (x - m) · (exp (m - M) / S)`.
-/
import proofs.«900603_g7700000000000604_dist_softmax_colshard_i_m512_n256_v7x_i16_bf16_1_alg».proof.Proof.Gen.KernelIdeal.Skeleton
import Idealize.ShloMosaic.Lib.ValueIdx

noncomputable section

namespace Cert.KernelIdeal.Hand

open Cert.KernelIdeal Cert.KernelIdeal.Gen
open Idealize.ShloMosaic Idealize.SL.Sem
open Idealize.ShloMosaic.ValueIdx

variable {F : FTy → Type} [FloatOps F]

/-- A device's slot: its four groups' row maxima and row sums of exponentials, as `[1, 8, 128]`. -/
def stats (x : Vec F S512x256 .f32) : FVec F S1x8x128 .f32 :=
  k0_pay12 (k0_pay1 x) (k0_pay3 x) (k0_pay4 x) (k0_pay6 x) (k0_pay7 x)

/-- The sixteen slots side by side: slot `p` is device `p`'s. The same array on every device. -/
def gathered (xs : Dev nD → Vec F S512x256 .f32) : Vec F S16x8x128 .f32 :=
  fun i => stats (xs (⟨(i 0).val, (i 0).isLt⟩ : Dev nD)) (ix3 (0 : Fin 1) (i 1) (i 2))

/-- The four row groups of the result block, from the device's own block and the gathered slots. -/
def piece0 (x : Vec F S512x256 .f32) (g : Vec F S16x8x128 .f32) : FVec F S128x256 .f32 :=
  k0_pay22 (k0_pay3 x) (k0_pay13 (k0_pay1 x) (k0_pay3 x)) (k0_pay18 g) (k0_pay19 g) (k0_pay20 g)
def piece1 (x : Vec F S512x256 .f32) (g : Vec F S16x8x128 .f32) : FVec F S128x256 .f32 :=
  k0_pay23 (k0_pay6 x) (k0_pay14 (k0_pay1 x) (k0_pay6 x)) (k0_pay18 g) (k0_pay19 g) (k0_pay20 g)
def piece2 (x : Vec F S512x256 .f32) (g : Vec F S16x8x128 .f32) : FVec F S128x256 .f32 :=
  k0_pay24 (k0_pay9 (k0_pay1 x)) (k0_pay15 (k0_pay1 x) (k0_pay9 (k0_pay1 x))) (k0_pay18 g) (k0_pay19 g) (k0_pay20 g)
def piece3 (x : Vec F S512x256 .f32) (g : Vec F S16x8x128 .f32) : FVec F S128x256 .f32 :=
  k0_pay25 (k0_pay11 (k0_pay1 x)) (k0_pay16 (k0_pay1 x) (k0_pay11 (k0_pay1 x))) (k0_pay18 g) (k0_pay19 g) (k0_pay20 g)

/-- The result block: rows `128 a … 128 a + 127` are piece `a`. -/
def outBlk (x : Vec F S512x256 .f32) (g : Vec F S16x8x128 .f32) : Vec F S512x256 .f32 := fun i =>
  if h0 : (i 0).val < 128 then piece0 x g (ix2 (⟨(i 0).val, h0⟩ : Fin 128) (i 1))
  else if h1 : (i 0).val < 256 then piece1 x g (ix2 (⟨(i 0).val - 128, by omega⟩ : Fin 128) (i 1))
  else if h2 : (i 0).val < 384 then piece2 x g (ix2 (⟨(i 0).val - 256, by omega⟩ : Fin 128) (i 1))
  else piece3 x g (ix2 (⟨(i 0).val - 384, by have h3 : (i 0).val < 512 := (i 0).isLt; omega⟩ : Fin 128) (i 1))

end Cert.KernelIdeal.Hand

end
-- ==== Proof.KernelIdeal.KValueOps.lean ====
/-
  Layout operations and one-axis reductions read at an index given by coordinates, at the ranks and axes the
  softmax block uses: the keepdims column forms of a cast and a broadcast, a row of a stack broadcast over the
  stack, a row maximum and a row sum of a matrix, the maximum and the sum over the leading axis of a stack.
-/
import proofs.«900603_g7700000000000604_dist_softmax_colshard_i_m512_n256_v7x_i16_bf16_1_alg».proof.Proof.KernelIdeal.Spec
import Idealize.ShloMosaic.Lib.ValueLayout
import Idealize.ShloMosaic.PureOps.Ideal.Laws

noncomputable section

namespace Cert.KernelIdeal.Hand

open Idealize.ShloMosaic Idealize.SL.Sem
open Idealize.ShloMosaic.ValueIdx

variable {α : Type}

/-! ### Keepdims forms -/

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, a, b]` array broadcast to `[m, a, b]` reads, at `(p, i, j)`, the operand at `(0, i, j)`. -/
theorem broadcastTo_1ab_mab_apply {m a b : ℕ} (v : (⟨3, ![1, a, b]⟩ : Shape).Idx → α)
    (h : (⟨3, ![1, a, b]⟩ : Shape).Broadcasts ⟨3, ![m, a, b]⟩) (p : Fin m) (i : Fin a) (j : Fin b) :
    broadcastTo ⟨3, ![m, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-! ### Reductions over one axis -/

/-- The pattern of f32's `-∞` is the extended reals' `⊥`. -/
theorem ofBits_neg_inf_f32 : Ideal.ofBits .f32 0xFF800000#32 = ⊥ := by simp [Ideal.ofBits, Ideal.ieee]

/-- The maximum over the columns of a matrix, from `-∞`, at row `p`. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = Spec.fmax fun q : Fin b => src (ix2 p q) := by
  refine (Ideal.multiReduction_maximumf_single src 0xFF800000#32 h hφ hacc (ix1 p)).trans ?_
  have hl : (src ∘ h.lift (ix1 p)) = fun q : Fin b => src (ix2 p q) := by
    funext q
    show src _ = src _
    congr 1
    funext d
    match d with
    | ⟨0, _⟩ => rfl
    | ⟨1, _⟩ => rfl
  show (Finset.univ : Finset (Fin b)).fold max (Ideal.ofBits .f32 0xFF800000#32) _ = _
  rw [hl, ofBits_neg_inf_f32]
  rfl

/-- The sum over the columns of a matrix at row `p`. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p)
      = ∑ q : Fin b, src (ix2 p q) := by
  refine (Ideal.multiReduction_add_single src 0x00000000#32 h hφ hacc (ix1 p)).trans ?_
  show ∑ q : Fin b, src (h.lift (ix1 p) q) = _
  refine Finset.sum_congr rfl fun q _ => ?_
  congr 1
  funext d
  match d with
  | ⟨0, _⟩ => rfl
  | ⟨1, _⟩ => rfl

/-- The maximum over the leading axis of a stack of matrices, from `-∞`, at `(i, j)`. -/
theorem stackMax_apply {m a b : ℕ} (src : FVec Ideal ⟨3, ![m, a, b]⟩ .f32)
    (h : Shape.Reduces ⟨3, ![m, a, b]⟩ [0] ⟨2, ![a, b]⟩) (hφ : FKind.Formats .f32)
    (hacc : (0xFF800000#32 : BitVec 32) = FKind.maximumf.neutral .f32 hφ) (i : Fin a) (j : Fin b) :
    multiReduction .maximumf [0] ⟨2, ![a, b]⟩ src 0xFF800000#32 h hφ hacc (ix2 i j)
      = Spec.fmax fun p : Fin m => src (ix3 p i j) := by
  refine (Ideal.multiReduction_maximumf_single src 0xFF800000#32 h hφ hacc (ix2 i j)).trans ?_
  have hl : (src ∘ h.lift (ix2 i j)) = fun p : Fin m => src (ix3 p i j) := by
    funext p
    show src _ = src _
    congr 1
    funext d
    match d with
    | ⟨0, _⟩ => rfl
    | ⟨1, _⟩ => rfl
    | ⟨2, _⟩ => rfl
  show (Finset.univ : Finset (Fin m)).fold max (Ideal.ofBits .f32 0xFF800000#32) _ = _
  rw [hl, ofBits_neg_inf_f32]
  rfl

/-- The sum over the leading axis of a stack of matrices at `(i, j)`. -/
theorem stackSum_apply {m a b : ℕ} (src : FVec Ideal ⟨3, ![m, a, b]⟩ .f32)
    (h : Shape.Reduces ⟨3, ![m, a, b]⟩ [0] ⟨2, ![a, b]⟩) (hφ : FKind.Formats .f32)
    (hacc : (0x00000000#32 : BitVec 32) = FKind.add.neutral .f32 hφ) (i : Fin a) (j : Fin b) :
    multiReduction .add [0] ⟨2, ![a, b]⟩ src 0x00000000#32 h hφ hacc (ix2 i j)
      = ∑ p : Fin m, src (ix3 p i j) := by
  refine (Ideal.multiReduction_add_single src 0x00000000#32 h hφ hacc (ix2 i j)).trans ?_
  show ∑ p : Fin m, src (h.lift (ix2 i j) p) = _
  refine Finset.sum_congr rfl fun p _ => ?_
  congr 1
  funext d
  match d with
  | ⟨0, _⟩ => rfl
  | ⟨1, _⟩ => rfl
  | ⟨2, _⟩ => rfl

/-! ### Columns side by side -/

/-- Pieces concatenated along axis 1 into `[n, w]`, of which piece `k` is an `[n, 1]` column with `k` unit
    columns before it, read at `(i, k)`: that column at row `i`. -/
theorem concat_cols_piece {n w : ℕ} (xs : List ((s : Shape) × (s.Idx → α)))
    (h : Shape.Concatenates (xs.map (·.1)) ⟨2, ![n, w]⟩ (1 : Fin 2)) (i : Fin n) (k : Nat) (hk : k < w)
    (hkl : k < xs.length) (c : (⟨2, ![n, 1]⟩ : Shape).Idx → α) (hxk : xs[k] = ⟨⟨2, ![n, 1]⟩, c⟩)
    (hpre : (((xs.take k).map (·.1)).map fun s : Shape =>
      if h : s.rank = (⟨2, ![n, w]⟩ : Shape).rank then s.size ((1 : Fin 2).cast h.symm) else 0).sum = k) :
    concatenate ⟨2, ![n, w]⟩ (1 : Fin 2) xs h (ix2 i ⟨k, hk⟩) = c (ix2 i (0 : Fin 1)) :=
  concatenate_apply_piece (t := ⟨2, ![n, w]⟩) (1 : Fin 2) xs h (ix2 i ⟨k, hk⟩) k hkl ⟨2, ![n, 1]⟩ c hxk rfl k hpre
    (ix2 i (0 : Fin 1))
    (fun b hb => by
      match b with
      | ⟨0, _⟩ => rfl
      | ⟨1, _⟩ => exact absurd rfl hb)
    (Nat.add_zero k)

end Cert.KernelIdeal.Hand

end
-- ==== Proof.KernelIdeal.KValueStats.lean ====
/-
  A device's slot read at an index: row `g` of the slot holds the row maxima of group `g` of the block, row
  `4 + g` the row sums of `exp (entry - maximum)`.
-/
import proofs.«900603_g7700000000000604_dist_softmax_colshard_i_m512_n256_v7x_i16_bf16_1_alg».proof.Proof.KernelIdeal.Contents
import proofs.«900603_g7700000000000604_dist_softmax_colshard_i_m512_n256_v7x_i16_bf16_1_alg».proof.Proof.KernelIdeal.KValueOps

noncomputable section

namespace Cert.KernelIdeal.Hand

open Cert.KernelIdeal Cert.KernelIdeal.Gen
open Idealize.ShloMosaic Idealize.SL.Sem
open Idealize.ShloMosaic.ValueIdx

/-- Row `p` of group `g` is row `128 g + p` of the block. -/
def grow (g : Fin 4) (p : Fin 128) : Fin 512 := ⟨128 * g.val + p.val, by have := g.isLt; have := p.isLt; omega⟩

/-- The maximum of row `r` of a block. -/
def mrow (x : FVec Ideal S512x256 .f32) (r : Fin 512) : EReal := Spec.fmax fun q : Fin 256 => x (ix2 r q)
/-- The sum over row `r` of a block of `exp (entry - row maximum)`. -/
def srow (x : FVec Ideal S512x256 .f32) (r : Fin 512) : EReal := ∑ q : Fin 256, Ideal.exp (x (ix2 r q) - mrow x r)

/-! ### One group of 128 rows, at row offset `o` -/

/-- rows `o … o + 127` -/
def gSlice (o : Nat) (h : S512x256.Slices ![o, 0] S128x256) (X : FVec Ideal S512x256 .f32) : FVec Ideal S128x256 .f32 :=
  extractStridedSlice S128x256 ![o, 0] X h
/-- their maxima, as a column -/
def gMax (o : Nat) (h : S512x256.Slices ![o, 0] S128x256) (X : FVec Ideal S512x256 .f32) : FVec Ideal S128x1 .f32 :=
  shapeCast S128x1 (multiReduction .maximumf [1] S128 (gSlice o h X) 0xFF800000#32 reduces_S128x256_S128 (.inl rfl) rfl)
    shapeCasts_S128_S128x1
/-- `exp (entry - column)` -/
def gExp (o : Nat) (h : S512x256.Slices ![o, 0] S128x256) (X : FVec Ideal S512x256 .f32) (mc : FVec Ideal S128x1 .f32) :
    FVec Ideal S128x256 .f32 :=
  exp (subf (gSlice o h X) (broadcastTo S128x256 mc broadcasts_S128x1_S128x256))
/-- the row sums of `exp (entry - row maximum)` -/
def gSum (o : Nat) (h : S512x256.Slices ![o, 0] S128x256) (X : FVec Ideal S512x256 .f32) : FVec Ideal S128 .f32 :=
  multiReduction .add [1] S128 (gExp o h X (gMax o h X)) 0x00000000#32 reduces_S128x256_S128 (.inl rfl) rfl

theorem gSlice_apply (o : Nat) (h : S512x256.Slices ![o, 0] S128x256) (X : FVec Ideal S512x256 .f32)
    (p : Fin 128) (q : Fin 256) (k : Fin 512) (hk : k.val = o + p.val) : gSlice o h X (ix2 p q) = X (ix2 k q) :=
  slice2_axis0_apply o X h p q k hk

theorem gMax_apply (o : Nat) (h : S512x256.Slices ![o, 0] S128x256) (X : FVec Ideal S512x256 .f32)
    (p : Fin 128) (u : Fin 1) (k : Fin 512) (hk : k.val = o + p.val) : gMax o h X (ix2 p u) = mrow X k := by
  unfold gMax
  refine (shapeCast_a_a1_apply _ _ p u).trans ?_
  refine (rowMax_apply _ _ _ _ p).trans ?_
  unfold mrow
  congr 1
  funext q
  exact gSlice_apply o h X p q k hk

theorem gExp_apply (o : Nat) (h : S512x256.Slices ![o, 0] S128x256) (X : FVec Ideal S512x256 .f32)
    (mc : FVec Ideal S128x1 .f32) (p : Fin 128) (q : Fin 256) (k : Fin 512) (hk : k.val = o + p.val) :
    gExp o h X mc (ix2 p q) = Ideal.exp (X (ix2 k q) - mc (ix2 p (0 : Fin 1))) := by
  show Ideal.exp (gSlice o h X (ix2 p q) - broadcastTo S128x256 mc broadcasts_S128x1_S128x256 (ix2 p q)) = _
  rw [gSlice_apply o h X p q k hk, broadcastTo_a1_ab_apply]

theorem gSum_apply (o : Nat) (h : S512x256.Slices ![o, 0] S128x256) (X : FVec Ideal S512x256 .f32)
    (p : Fin 128) (k : Fin 512) (hk : k.val = o + p.val) : gSum o h X (ix1 p) = srow X k := by
  unfold gSum
  refine (rowSum_apply _ _ _ _ p).trans ?_
  unfold srow
  refine Finset.sum_congr rfl fun q _ => ?_
  rw [gExp_apply o h X _ p q k hk, gMax_apply o h X p 0 k hk]

/-! ### The slot -/

/-- The block as loaded is the block. -/
theorem pay1_eq (x : Vec Ideal S512x256 .f32) : k0_pay1 x = x := shapeCast_self x _

/-! The generated payloads of the four groups are the group operations above. -/
theorem pay3_eq (x : Vec Ideal S512x256 .f32) : k0_pay3 x = gMax 0 slices_S512x256_o0_0_S128x256 (k0_pay1 x) := rfl
theorem pay4_eq (x : Vec Ideal S512x256 .f32) :
    k0_pay4 x = shapeCast S128x1 (gSum 0 slices_S512x256_o0_0_S128x256 (k0_pay1 x)) shapeCasts_S128_S128x1 := rfl
theorem pay6_eq (x : Vec Ideal S512x256 .f32) : k0_pay6 x = gMax 128 slices_S512x256_o128_0_S128x256 (k0_pay1 x) := rfl
theorem pay7_eq (x : Vec Ideal S512x256 .f32) : k0_pay7 x = gSum 128 slices_S512x256_o128_0_S128x256 (k0_pay1 x) := rfl
theorem pay9_eq (v65 : FVec Ideal S512x256 .f32) : k0_pay9 v65 = gMax 256 slices_S512x256_o256_0_S128x256 v65 := rfl
theorem pay11_eq (v65 : FVec Ideal S512x256 .f32) : k0_pay11 v65 = gMax 384 slices_S512x256_o384_0_S128x256 v65 := rfl

/-- The slot read at `(u, k, i)`: column `k` of the eight concatenated columns, at row `i`. -/
theorem pay12_col (v65 : FVec Ideal S512x256 .f32) (v68 v73 v76 : FVec Ideal S128x1 .f32) (v80 : FVec Ideal S128 .f32)
    (u : Fin 1) (i : Fin 128) (k : Nat) (hk : k < 8) (c : FVec Ideal S128x1 .f32)
    (hxk : ([⟨S128x1, v68⟩, ⟨S128x1, v76⟩, ⟨S128x1, k0_pay9 v65⟩, ⟨S128x1, k0_pay11 v65⟩, ⟨S128x1, v73⟩,
        ⟨S128x1, shapeCast S128x1 v80 shapeCasts_S128_S128x1⟩,
        ⟨S128x1, shapeCast S128x1 (gSum 256 slices_S512x256_o256_0_S128x256 v65) shapeCasts_S128_S128x1⟩,
        ⟨S128x1, shapeCast S128x1 (gSum 384 slices_S512x256_o384_0_S128x256 v65) shapeCasts_S128_S128x1⟩] :
          List ((s : Shape) × (s.Idx → Ideal .f32)))[k]? = some ⟨S128x1, c⟩) :
    k0_pay12 v65 v68 v73 v76 v80 (ix3 u (⟨k, hk⟩ : Fin 8) i) = c (ix2 i (0 : Fin 1)) := by
  obtain ⟨hkl, hx⟩ := List.getElem?_eq_some_iff.1 hxk
  unfold k0_pay12
  refine (shapeCast_ab_1ab_apply _ _ u _ i).trans ?_
  refine (transpose_ix2_apply _ _ _ i).trans ?_
  refine concat_cols_piece (w := 8) _ _ i k hk hkl c hx ?_
  interval_cases k <;> rfl

/-- Row `g` of the slot: the row maxima of group `g`. -/
theorem stats_max (x : Vec Ideal S512x256 .f32) (u : Fin 1) (g : Fin 4) (i : Fin 128) :
    stats x (ix3 u (⟨g.val, by have := g.isLt; omega⟩ : Fin 8) i) = mrow x (grow g i) := by
  unfold stats
  match g with
  | ⟨0, hg⟩ =>
    refine (pay12_col _ _ _ _ _ u i 0 (by omega) (k0_pay3 x) rfl).trans ?_
    rw [pay3_eq, pay1_eq]
    exact gMax_apply 0 _ x i 0 (grow ⟨0, hg⟩ i) (by simp [grow])
  | ⟨1, hg⟩ =>
    refine (pay12_col _ _ _ _ _ u i 1 (by omega) (k0_pay6 x) rfl).trans ?_
    rw [pay6_eq, pay1_eq]
    exact gMax_apply 128 _ x i 0 (grow ⟨1, hg⟩ i) (by simp [grow])
  | ⟨2, hg⟩ =>
    refine (pay12_col _ _ _ _ _ u i 2 (by omega) (k0_pay9 (k0_pay1 x)) rfl).trans ?_
    rw [pay9_eq, pay1_eq]
    exact gMax_apply 256 _ x i 0 (grow ⟨2, hg⟩ i) (by simp [grow])
  | ⟨3, hg⟩ =>
    refine (pay12_col _ _ _ _ _ u i 3 (by omega) (k0_pay11 (k0_pay1 x)) rfl).trans ?_
    rw [pay11_eq, pay1_eq]
    exact gMax_apply 384 _ x i 0 (grow ⟨3, hg⟩ i) (by simp [grow])

/-- Row `4 + g` of the slot: the row sums of group `g`. -/
theorem stats_sum (x : Vec Ideal S512x256 .f32) (u : Fin 1) (g : Fin 4) (i : Fin 128) :
    stats x (ix3 u (⟨4 + g.val, by have := g.isLt; omega⟩ : Fin 8) i) = srow x (grow g i) := by
  unfold stats
  match g with
  | ⟨0, hg⟩ =>
    refine (pay12_col _ _ _ _ _ u i 4 (by omega) (k0_pay4 x) rfl).trans ?_
    rw [pay4_eq, pay1_eq]
    exact (shapeCast_a_a1_apply _ _ i 0).trans (gSum_apply 0 _ x i (grow ⟨0, hg⟩ i) (by simp [grow]))
  | ⟨1, hg⟩ =>
    refine (pay12_col _ _ _ _ _ u i 5 (by omega) (shapeCast S128x1 (k0_pay7 x) shapeCasts_S128_S128x1) rfl).trans ?_
    rw [pay7_eq, pay1_eq]
    exact (shapeCast_a_a1_apply _ _ i 0).trans (gSum_apply 128 _ x i (grow ⟨1, hg⟩ i) (by simp [grow]))
  | ⟨2, hg⟩ =>
    refine (pay12_col _ _ _ _ _ u i 6 (by omega) _ rfl).trans ?_
    rw [pay1_eq]
    exact (shapeCast_a_a1_apply _ _ i 0).trans (gSum_apply 256 _ x i (grow ⟨2, hg⟩ i) (by simp [grow]))
  | ⟨3, hg⟩ =>
    refine (pay12_col _ _ _ _ _ u i 7 (by omega) _ rfl).trans ?_
    rw [pay1_eq]
    exact (shapeCast_a_a1_apply _ _ i 0).trans (gSum_apply 384 _ x i (grow ⟨3, hg⟩ i) (by simp [grow]))

end Cert.KernelIdeal.Hand

end
-- ==== Proof.KernelIdeal.KValueGather.lean ====
/-
  The exchange's result read at an index: of the sixteen gathered slots, the maxima and the sums, the maximum
  over the devices, the maxima less it, and the `[128, 8]` table whose column `g` is the common maximum of
  group `g` and whose column `4 + g` is the sum of the devices' sums brought to it; and one group of the
  result block from that table.
-/
import proofs.«900603_g7700000000000604_dist_softmax_colshard_i_m512_n256_v7x_i16_bf16_1_alg».proof.Proof.KernelIdeal.Contents
import proofs.«900603_g7700000000000604_dist_softmax_colshard_i_m512_n256_v7x_i16_bf16_1_alg».proof.Proof.KernelIdeal.KValueOps

noncomputable section

namespace Cert.KernelIdeal.Hand

open Cert.KernelIdeal Cert.KernelIdeal.Gen
open Idealize.ShloMosaic Idealize.SL.Sem
open Idealize.ShloMosaic.ValueIdx

/-- Rows `0 … 3` of every slot. -/
theorem pay17_apply (G : Vec Ideal S16x8x128 .f32) (p : Fin 16) (a : Fin 4) (i : Fin 128) :
    k0_pay17 G (ix3 p a i) = G (ix3 p (⟨a.val, by have := a.isLt; omega⟩ : Fin 8) i) := by
  unfold k0_pay17
  exact slice3_axis1_apply 0 G _ p a i _ (Nat.zero_add _).symm

/-- Rows `4 … 7` of every slot. -/
theorem pay18_apply (G : Vec Ideal S16x8x128 .f32) (p : Fin 16) (a : Fin 4) (i : Fin 128) :
    k0_pay18 G (ix3 p a i) = G (ix3 p (⟨4 + a.val, by have := a.isLt; omega⟩ : Fin 8) i) := by
  unfold k0_pay18
  exact slice3_axis1_apply 4 G _ p a i _ rfl

/-- The maximum over the sixteen slots of row `a`, lane `i`. -/
theorem pay19_apply (G : Vec Ideal S16x8x128 .f32) (a : Fin 4) (i : Fin 128) :
    k0_pay19 G (ix2 a i)
      = Spec.fmax fun p : Fin 16 => G (ix3 p (⟨a.val, by have := a.isLt; omega⟩ : Fin 8) i) := by
  unfold k0_pay19
  refine (stackMax_apply _ _ _ _ a i).trans ?_
  congr 1
  funext p
  exact pay17_apply G p a i

/-- Each slot's maxima less the maximum over the slots. -/
theorem pay20_apply (G : Vec Ideal S16x8x128 .f32) (p : Fin 16) (a : Fin 4) (i : Fin 128) :
    k0_pay20 G (ix3 p a i)
      = G (ix3 p (⟨a.val, by have := a.isLt; omega⟩ : Fin 8) i) - k0_pay19 G (ix2 a i) := by
  unfold k0_pay20
  show k0_pay17 G (ix3 p a i)
      - broadcastTo S16x4x128 (shapeCast S1x4x128 (k0_pay19 G) shapeCasts_S4x128_S1x4x128)
          broadcasts_S1x4x128_S16x4x128 (ix3 p a i) = _
  rw [pay17_apply, broadcastTo_1ab_mab_apply, shapeCast_ab_1ab_apply]

/-- Column `a < 4` of the table: the maxima it was given. -/
theorem pay21_max (v452 : FVec Ideal S16x4x128 .f32) (v453 : FVec Ideal S4x128 .f32) (v456 : FVec Ideal S16x4x128 .f32)
    (i : Fin 128) (a : Fin 4) :
    k0_pay21 v452 v453 v456 (ix2 i (⟨a.val, by have := a.isLt; omega⟩ : Fin 8)) = v453 (ix2 a i) := by
  unfold k0_pay21
  refine (transpose_ix2_apply _ _ i _).trans ?_
  exact concatenate_pair_apply_left (t := S8x128) (s₁ := S4x128) (s₂ := S4x128) (0 : Fin 2) v453 _ _
    (ix2 (⟨a.val, by have := a.isLt; omega⟩ : Fin 8) i) rfl (ix2 a i) fun b => by
    match b with
    | ⟨0, _⟩ => rfl
    | ⟨1, _⟩ => rfl

/-- Column `4 + a` of the table: the sum over the slots of `sum · exp (difference)`. -/
theorem pay21_sum (v452 : FVec Ideal S16x4x128 .f32) (v453 : FVec Ideal S4x128 .f32) (v456 : FVec Ideal S16x4x128 .f32)
    (i : Fin 128) (a : Fin 4) :
    k0_pay21 v452 v453 v456 (ix2 i (⟨4 + a.val, by have := a.isLt; omega⟩ : Fin 8))
      = ∑ p : Fin 16, v452 (ix3 p a i) * Ideal.exp (v456 (ix3 p a i)) := by
  unfold k0_pay21
  refine (transpose_ix2_apply _ _ i _).trans ?_
  refine (concatenate_pair_apply_right (t := S8x128) (s₁ := S4x128) (s₂ := S4x128) (0 : Fin 2) v453 _ _
    (ix2 (⟨4 + a.val, by have := a.isLt; omega⟩ : Fin 8) i) rfl rfl (ix2 a i) (fun b hb => by
    match b with
    | ⟨0, _⟩ => exact absurd rfl hb
    | ⟨1, _⟩ => rfl) (Nat.add_comm a.val 4)).trans ?_
  exact stackSum_apply _ _ _ _ a i

/-! ### One group of the result block -/

/-- `e · (exp (column - table column o1) / table column o2)`, the quotient broadcast over the 256 columns. -/
def gOut (o1 o2 : Nat) (h1 : S128x8.Slices ![0, o1] S128x1) (h2 : S128x8.Slices ![0, o2] S128x1)
    (mc : FVec Ideal S128x1 .f32) (e : FVec Ideal S128x256 .f32) (T : FVec Ideal S128x8 .f32) : FVec Ideal S128x256 .f32 :=
  mulf e (broadcastTo S128x256
    (divf (exp (subf mc (extractStridedSlice S128x1 ![0, o1] T h1))) (extractStridedSlice S128x1 ![0, o2] T h2))
    broadcasts_S128x1_S128x256)

theorem gOut_apply (o1 o2 : Nat) (h1 : S128x8.Slices ![0, o1] S128x1) (h2 : S128x8.Slices ![0, o2] S128x1)
    (mc : FVec Ideal S128x1 .f32) (e : FVec Ideal S128x256 .f32) (T : FVec Ideal S128x8 .f32)
    (p : Fin 128) (q : Fin 256) (k1 k2 : Fin 8) (hk1 : k1.val = o1) (hk2 : k2.val = o2) :
    gOut o1 o2 h1 h2 mc e T (ix2 p q)
      = e (ix2 p q) * Ideal.div (Ideal.exp (mc (ix2 p (0 : Fin 1)) - T (ix2 p k1))) (T (ix2 p k2)) := by
  show e (ix2 p q) * broadcastTo S128x256
      (divf (exp (subf mc (extractStridedSlice S128x1 ![0, o1] T h1))) (extractStridedSlice S128x1 ![0, o2] T h2))
      broadcasts_S128x1_S128x256 (ix2 p q) = _
  rw [broadcastTo_a1_ab_apply]
  show e (ix2 p q) * Ideal.div
      (Ideal.exp (mc (ix2 p (0 : Fin 1)) - extractStridedSlice S128x1 ![0, o1] T h1 (ix2 p (0 : Fin 1))))
      (extractStridedSlice S128x1 ![0, o2] T h2 (ix2 p (0 : Fin 1))) = _
  rw [slice2_axis1_apply o1 T h1 p 0 k1 (by rw [hk1]; rfl), slice2_axis1_apply o2 T h2 p 0 k2 (by rw [hk2]; rfl)]

/-! The generated payloads of the four result groups are that operation on the table. -/
theorem pay22_eq (v68 : FVec Ideal S128x1 .f32) (v287 : FVec Ideal S128x256 .f32) (v452 : FVec Ideal S16x4x128 .f32)
    (v453 : FVec Ideal S4x128 .f32) (v456 : FVec Ideal S16x4x128 .f32) :
    k0_pay22 v68 v287 v452 v453 v456
      = gOut 0 4 slices_S128x8_o0_0_S128x1 slices_S128x8_o0_4_S128x1 v68 v287 (k0_pay21 v452 v453 v456) := rfl
theorem pay23_eq (v76 : FVec Ideal S128x1 .f32) (v291 : FVec Ideal S128x256 .f32) (v452 : FVec Ideal S16x4x128 .f32)
    (v453 : FVec Ideal S4x128 .f32) (v456 : FVec Ideal S16x4x128 .f32) :
    k0_pay23 v76 v291 v452 v453 v456
      = gOut 1 5 slices_S128x8_o0_1_S128x1 slices_S128x8_o0_5_S128x1 v76 v291 (k0_pay21 v452 v453 v456) := rfl
theorem pay24_eq (v84 : FVec Ideal S128x1 .f32) (v295 : FVec Ideal S128x256 .f32) (v452 : FVec Ideal S16x4x128 .f32)
    (v453 : FVec Ideal S4x128 .f32) (v456 : FVec Ideal S16x4x128 .f32) :
    k0_pay24 v84 v295 v452 v453 v456
      = gOut 2 6 slices_S128x8_o0_2_S128x1 slices_S128x8_o0_6_S128x1 v84 v295 (k0_pay21 v452 v453 v456) := rfl
theorem pay25_eq (v92 : FVec Ideal S128x1 .f32) (v299 : FVec Ideal S128x256 .f32) (v452 : FVec Ideal S16x4x128 .f32)
    (v453 : FVec Ideal S4x128 .f32) (v456 : FVec Ideal S16x4x128 .f32) :
    k0_pay25 v92 v299 v452 v453 v456
      = gOut 3 7 slices_S128x8_o0_3_S128x1 slices_S128x8_o0_7_S128x1 v92 v299 (k0_pay21 v452 v453 v456) := rfl

end Cert.KernelIdeal.Hand

end
-- ==== Proof.KernelIdeal.KValue.lean ====
/-
  The kernel's result block read at an index, at the ideal instance: the formula `Spec.kout`.

  The block's 512 rows are four groups of 128. For group `g` the kernel forms the row maxima and the row sums
  of `exp (entry - maximum)`; the slot a device sends holds them as rows `g` and `4 + g`. From the sixteen
  gathered slots it forms the maximum `M` over the devices and `S = Σ_p s_p · exp (m_p - M)`, and writes
  `exp (entry - m) · (exp (m - M) / S)` on the group's rows.
-/
import proofs.«900603_g7700000000000604_dist_softmax_colshard_i_m512_n256_v7x_i16_bf16_1_alg».proof.Proof.KernelIdeal.Contents
import proofs.«900603_g7700000000000604_dist_softmax_colshard_i_m512_n256_v7x_i16_bf16_1_alg».proof.Proof.KernelIdeal.Spec
import proofs.«900603_g7700000000000604_dist_softmax_colshard_i_m512_n256_v7x_i16_bf16_1_alg».proof.Proof.KernelIdeal.KValueStats
import proofs.«900603_g7700000000000604_dist_softmax_colshard_i_m512_n256_v7x_i16_bf16_1_alg».proof.Proof.KernelIdeal.KValueGather

noncomputable section

namespace Cert.KernelIdeal.Hand

open Cert.KernelIdeal Cert.KernelIdeal.Gen
open Idealize.ShloMosaic Idealize.SL.Sem
open Idealize.ShloMosaic.ValueIdx

/-- The sixteen blocks as a plain family of extended reals. -/
abbrev fam (xs : Dev nD → Vec Ideal S512x256 .f32) : Fin 16 → Fin 512 → Fin 256 → EReal :=
  fun p r j => (xs p (ix2 r j) : EReal)

/-! ### The gathered slots -/

/-- Row `g` of device `p`'s slot: its maxima of group `g`. -/
theorem gathered_max (xs : Dev nD → Vec Ideal S512x256 .f32) (p : Fin 16) (g : Fin 4) (i : Fin 128) :
    gathered xs (ix3 p (⟨g.val, by have := g.isLt; omega⟩ : Fin 8) i) = Spec.m (fam xs) p (grow g i) :=
  stats_max (xs p) 0 g i

/-- Row `4 + g` of device `p`'s slot: its sums of group `g`. -/
theorem gathered_sum (xs : Dev nD → Vec Ideal S512x256 .f32) (p : Fin 16) (g : Fin 4) (i : Fin 128) :
    gathered xs (ix3 p (⟨4 + g.val, by have := g.isLt; omega⟩ : Fin 8) i) = Spec.s (fam xs) p (grow g i) :=
  stats_sum (xs p) 0 g i

/-- The maximum over the devices. -/
theorem M_apply (xs : Dev nD → Vec Ideal S512x256 .f32) (g : Fin 4) (i : Fin 128) :
    k0_pay19 (gathered xs) (ix2 g i) = Spec.M (fam xs) (grow g i) := by
  rw [pay19_apply]
  unfold Spec.M
  congr 1
  funext p
  exact gathered_max xs p g i

/-- Column `g` of the table: the common maximum. -/
theorem table_max (xs : Dev nD → Vec Ideal S512x256 .f32) (g : Fin 4) (i : Fin 128) :
    k0_pay21 (k0_pay18 (gathered xs)) (k0_pay19 (gathered xs)) (k0_pay20 (gathered xs))
        (ix2 i (⟨g.val, by have := g.isLt; omega⟩ : Fin 8)) = Spec.M (fam xs) (grow g i) := by
  rw [pay21_max, M_apply]

/-- Column `4 + g` of the table: the devices' sums brought to the common maximum, added up. -/
theorem table_sum (xs : Dev nD → Vec Ideal S512x256 .f32) (g : Fin 4) (i : Fin 128) :
    k0_pay21 (k0_pay18 (gathered xs)) (k0_pay19 (gathered xs)) (k0_pay20 (gathered xs))
        (ix2 i (⟨4 + g.val, by have := g.isLt; omega⟩ : Fin 8)) = Spec.S (fam xs) (grow g i) := by
  rw [pay21_sum]
  unfold Spec.S
  refine Finset.sum_congr rfl fun p _ => ?_
  rw [pay18_apply, pay20_apply, gathered_sum, gathered_max, M_apply]

/-! ### One group of the result -/

/-- Group `g` of the result at `(p, q)` is the formula at row `128 g + p`. -/
theorem group_apply (xs : Dev nD → Vec Ideal S512x256 .f32) (c : Dev nD) (g : Fin 4) (p : Fin 128) (q : Fin 256)
    (o : Nat) (ho : o = 128 * g.val) (h : S512x256.Slices ![o, 0] S128x256)
    (o1 o2 : Nat) (ho1 : o1 = g.val) (ho2 : o2 = 4 + g.val)
    (h1 : S128x8.Slices ![0, o1] S128x1) (h2 : S128x8.Slices ![0, o2] S128x1) :
    gOut o1 o2 h1 h2 (gMax o h (xs c)) (gExp o h (xs c) (gMax o h (xs c)))
        (k0_pay21 (k0_pay18 (gathered xs)) (k0_pay19 (gathered xs)) (k0_pay20 (gathered xs))) (ix2 p q)
      = Spec.kout (fam xs) c (grow g p) q := by
  subst ho ho1 ho2
  have hk : (grow g p).val = 128 * g.val + p.val := rfl
  rw [gOut_apply _ _ h1 h2 _ _ _ p q (⟨g.val, by have := g.isLt; omega⟩ : Fin 8)
      (⟨4 + g.val, by have := g.isLt; omega⟩ : Fin 8) rfl rfl,
    gExp_apply _ h (xs c) _ p q (grow g p) hk, gMax_apply _ h (xs c) p 0 (grow g p) hk, table_max, table_sum]
  rfl

/-! The generated payloads `exp (entry - maximum)` of the four groups are the group operation. -/
theorem pay13_eq (v65 : FVec Ideal S512x256 .f32) (v68 : FVec Ideal S128x1 .f32) :
    k0_pay13 v65 v68 = gExp 0 slices_S512x256_o0_0_S128x256 v65 v68 := rfl
theorem pay14_eq (v65 : FVec Ideal S512x256 .f32) (v76 : FVec Ideal S128x1 .f32) :
    k0_pay14 v65 v76 = gExp 128 slices_S512x256_o128_0_S128x256 v65 v76 := rfl
theorem pay15_eq (v65 : FVec Ideal S512x256 .f32) (v84 : FVec Ideal S128x1 .f32) :
    k0_pay15 v65 v84 = gExp 256 slices_S512x256_o256_0_S128x256 v65 v84 := rfl
theorem pay16_eq (v65 : FVec Ideal S512x256 .f32) (v92 : FVec Ideal S128x1 .f32) :
    k0_pay16 v65 v92 = gExp 384 slices_S512x256_o384_0_S128x256 v65 v92 := rfl

theorem piece0_apply (xs : Dev nD → Vec Ideal S512x256 .f32) (c : Dev nD) (p : Fin 128) (q : Fin 256) :
    piece0 (xs c) (gathered xs) (ix2 p q) = Spec.kout (fam xs) c (grow 0 p) q := by
  unfold piece0
  rw [pay22_eq, pay13_eq, pay3_eq, pay1_eq]
  exact group_apply xs c 0 p q 0 rfl _ 0 4 rfl rfl _ _

theorem piece1_apply (xs : Dev nD → Vec Ideal S512x256 .f32) (c : Dev nD) (p : Fin 128) (q : Fin 256) :
    piece1 (xs c) (gathered xs) (ix2 p q) = Spec.kout (fam xs) c (grow 1 p) q := by
  unfold piece1
  rw [pay23_eq, pay14_eq, pay6_eq, pay1_eq]
  exact group_apply xs c 1 p q 128 rfl _ 1 5 rfl rfl _ _

theorem piece2_apply (xs : Dev nD → Vec Ideal S512x256 .f32) (c : Dev nD) (p : Fin 128) (q : Fin 256) :
    piece2 (xs c) (gathered xs) (ix2 p q) = Spec.kout (fam xs) c (grow 2 p) q := by
  unfold piece2
  rw [pay24_eq, pay15_eq, pay9_eq, pay1_eq]
  exact group_apply xs c 2 p q 256 rfl _ 2 6 rfl rfl _ _

theorem piece3_apply (xs : Dev nD → Vec Ideal S512x256 .f32) (c : Dev nD) (p : Fin 128) (q : Fin 256) :
    piece3 (xs c) (gathered xs) (ix2 p q) = Spec.kout (fam xs) c (grow 3 p) q := by
  unfold piece3
  rw [pay25_eq, pay16_eq, pay11_eq, pay1_eq]
  exact group_apply xs c 3 p q 384 rfl _ 3 7 rfl rfl _ _

/-! ### The block -/

/-- Entry `(r, j)` of device `c`'s result block is `exp (x - m) · (exp (m - M) / S)` of the sixteen blocks. -/
theorem outBlk_apply (xs : Dev nD → Vec Ideal S512x256 .f32) (c : Dev nD) (r : Fin 512) (j : Fin 256) :
    outBlk (F := Ideal) (xs c) (gathered xs) (ix2 r j)
      = Spec.kout (fun p r j => (xs p (ix2 r j) : EReal)) c r j := by
  have hr := r.isLt
  show (if h0 : r.val < 128 then piece0 (xs c) (gathered xs) (ix2 (⟨r.val, h0⟩ : Fin 128) j)
      else if h1 : r.val < 256 then piece1 (xs c) (gathered xs) (ix2 (⟨r.val - 128, by omega⟩ : Fin 128) j)
      else if h2 : r.val < 384 then piece2 (xs c) (gathered xs) (ix2 (⟨r.val - 256, by omega⟩ : Fin 128) j)
      else piece3 (xs c) (gathered xs) (ix2 (⟨r.val - 384, by omega⟩ : Fin 128) j))
    = Spec.kout (fam xs) c r j
  split_ifs with h0 h1 h2
  · have e : grow 0 (⟨r.val, h0⟩ : Fin 128) = r := Fin.ext (by show 128 * 0 + r.val = r.val; omega)
    rw [piece0_apply, e]
  · have e : grow 1 (⟨r.val - 128, by omega⟩ : Fin 128) = r :=
      Fin.ext (by show 128 * 1 + (r.val - 128) = r.val; omega)
    rw [piece1_apply, e]
  · have e : grow 2 (⟨r.val - 256, by omega⟩ : Fin 128) = r :=
      Fin.ext (by show 128 * 2 + (r.val - 256) = r.val; omega)
    rw [piece2_apply, e]
  · have e : grow 3 (⟨r.val - 384, by omega⟩ : Fin 128) = r :=
      Fin.ext (by show 128 * 3 + (r.val - 384) = r.val; omega)
    rw [piece3_apply, e]

end Cert.KernelIdeal.Hand

end

/-- info: 'Cert.KernelIdeal.Hand.outBlk_apply' depends on axioms: [propext, Classical.choice, Quot.sound] -/
#guard_msgs in #print axioms Cert.KernelIdeal.Hand.outBlk_apply
-- ==== Proof.RefValue.lean ====
/-
  The reference's side of the claim, and the bridge to the kernel's.

  The reference runs on one device over the whole `[512, 4096]` array `X`: row maximum, `exp (X - max)`,
  row sum, quotient. Read at an index this is `Spec.rout`. Device `c`'s block of `X` is columns
  `256 c … 256 c + 255`; the precondition says every entry of every block is finite, hence every entry of
  `X`; so by the law `Spec.kout_eq_rout` device `c`'s result block is its block of the reference's result.
-/
import proofs.«900603_g7700000000000604_dist_softmax_colshard_i_m512_n256_v7x_i16_bf16_1_alg».proof.Defs
import proofs.«900603_g7700000000000604_dist_softmax_colshard_i_m512_n256_v7x_i16_bf16_1_alg».proof.Proof.Gen.ReferenceIdeal.Run
import proofs.«900603_g7700000000000604_dist_softmax_colshard_i_m512_n256_v7x_i16_bf16_1_alg».proof.Proof.Gen.ReferenceIdeal.Read
import proofs.«900603_g7700000000000604_dist_softmax_colshard_i_m512_n256_v7x_i16_bf16_1_alg».proof.Proof.Gen.Pre_finite_inputs_Kernel
import proofs.«900603_g7700000000000604_dist_softmax_colshard_i_m512_n256_v7x_i16_bf16_1_alg».proof.Proof.Gen.Pre_finite_inputs_ReferenceIdeal
import proofs.«900603_g7700000000000604_dist_softmax_colshard_i_m512_n256_v7x_i16_bf16_1_alg».proof.Proof.KernelIdeal.Spec
import proofs.«900603_g7700000000000604_dist_softmax_colshard_i_m512_n256_v7x_i16_bf16_1_alg».proof.Proof.KernelIdeal.KValue
import Idealize.ShloMosaic.Lib.ReduceAll
import Idealize.ShloMosaic.Lib.ValueIdx

noncomputable section

namespace Cert.RefValue

open Idealize.ShloMosaic Idealize.ShloMosaic.TcCoe Idealize.SL.Sem Idealize.ShloMosaic.StableHlo
open Idealize.ShloMosaic.ValueIdx
open Cert.KernelIdeal.Hand

/-! ### The reference's stages at an index -/

section Reference

open Cert.ReferenceIdeal Cert.ReferenceIdeal.Gen Cert.ReferenceIdeal.Read

/-- Row index `r` with column `k` put back on the reduced axis is `(r, k)`. -/
theorem lift_row (h : S512x4096.Reduces [1] S512) (r : Fin 512) (k : Fin (S512x4096.size 1)) :
    h.lift (ix1 r) k = ix2 r (⟨k.val, k.isLt⟩ : Fin 4096) := by
  funext c; apply Fin.ext
  fin_cases c <;> rfl

/-- The reference's row maximum: the maximum, from `-∞`, of the 4096 entries of the row. -/
theorem rowmax_apply (X : FVec Ideal S512x4096 .f32) (r : Fin 512) :
    (val_main_v0 (F := Ideal) X (ix1 r) : EReal) = Cert.KernelIdeal.Spec.fmax fun J : Fin 4096 => (X (ix2 r J) : EReal) := by
  have h : S512x4096.Reduces [1] S512 := by decide
  unfold val_main_v0
  rw [Host.reduce_eq_fold_single FloatOps.maximumf X _ reducesTo_S512x4096_S512_d1 h h_S_]
  -- the initial value is -∞
  have hb : val_main_cst (F := Ideal) (Shape.Idx.first h_S_) = (⊥ : EReal) := by
    rw [val_main_cst_apply]; simp [Ideal.ofBits, Ideal.ieee]
  rw [hb]
  have hf : (X ∘ h.lift (ix1 r)) = fun J : Fin 4096 => X (ix2 r J) := funext fun k => congrArg X (lift_row h r k)
  exact congrArg (fun f => Finset.fold max (⊥ : EReal) f (Finset.univ : Finset (Fin 4096))) hf

/-- The reference's result at `(r, J)`: `exp (X r J - RM r) / (0 + Σ_J' exp (X r J' - RM r))`. -/
theorem ref_apply (X : FVec Ideal S512x4096 .f32) (r : Fin 512) (J : Fin 4096) :
    (val_main_v8 (F := Ideal) X (ix2 r J) : EReal) = Cert.KernelIdeal.Spec.rout (fun r J => (X (ix2 r J) : EReal)) r J := by
  -- where the broadcasts and the sum read their operands
  have e21 : ∀ J : Fin 4096, idx_main_v1 (idx_main_v2 (ix2 r J)) = ix1 r := fun J =>
    funext fun a => Fin.ext (by match a with | ⟨0, _⟩ => rfl)
  have e76 : idx_main_v6 (idx_main_v7 (ix2 r J)) = ix1 r :=
    funext fun a => Fin.ext (by match a with | ⟨0, _⟩ => rfl)
  have e5 : ∀ k : Fin 4096, idx_main_v5 (ix1 r) k = ix2 r k := fun k =>
    funext fun a => Fin.ext (by match a with | ⟨0, _⟩ => rfl | ⟨1, _⟩ => rfl)
  -- the exponential of an entry against its row's maximum
  have h4 : ∀ J : Fin 4096, (val_main_v4 (F := Ideal) X (ix2 r J) : EReal)
      = Ideal.exp ((X (ix2 r J) : EReal) - Cert.KernelIdeal.Spec.RM (fun r J => (X (ix2 r J) : EReal)) r) := fun J => by
    rw [val_main_v4_apply, val_main_v3_apply, val_main_v2_apply, val_main_v1_apply, e21, rowmax_apply]
    rfl
  -- the quotient by the row's sum, which starts from the initial value 0
  rw [val_main_v8_apply, val_main_v7_apply, val_main_v6_apply, e76, val_main_v5_apply, h4]
  simp only [e5, h4, val_main_cst_0_apply]
  rw [Ideal.hostDivf_def, Ideal.ofBits_def, Ideal.ofBits_zero_f32]
  rfl

/-- The reference's run: its result ends at `val_main_v8` of its argument, the argument unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r =>
      r.2.mem (((0 : Dev nD).tc : Thread nD τ).loc main_v8)
          = val_main_v8 (F := Ideal) (m' (((0 : Dev nD).tc : Thread nD τ).loc main_arg0))
      ∧ r.2.mem (((0 : Dev nD).tc : Thread nD τ).loc main_arg0) = m' (((0 : Dev nD).tc : Thread nD τ).loc main_arg0)) :=
  (θ_run defs _ _).mono (fun _ h => ⟨(h 0).1.trans (val_main_v8_eq _), (h 0).2⟩)
    (Cert.ReferenceIdeal.Value.run (F := Ideal) m' ρ')

/-- The reference runs and leaves its argument unchanged: its run with the result dropped. -/
theorem frame_ref : Cert.frame_ReferenceIdeal := fun m ρ _ =>
  (θ_run defs _ _).mono (fun _ h c => (h c).2) (Cert.ReferenceIdeal.Value.run (F := Ideal) m ρ)

end Reference

/-! ### Finiteness -/

/-- A rank-0 array has one index. -/
instance : Subsingleton Cert.Pre_finite_inputs_Kernel.S_.Idx := ⟨fun a b => funext fun d => d.elim0⟩

/-- An extended real whose absolute value is below `+∞` is a real. -/
theorem real_of_abs_lt_top (a : EReal) (h : max a (-a) < ⊤) : ∃ y : ℝ, a = (y : EReal) := by
  induction a using EReal.rec with
  | bot => simp at h
  | coe y => exact ⟨y, rfl⟩
  | top => simp at h

/-- The precondition of a block says each of its entries is a real. -/
theorem finite_of_pre (x : FVec Ideal Cert.KernelIdeal.S512x256 .f32)
    (h : Cert.Pre_finite_inputs_Kernel.fn (F := Ideal) x = fun _ => 1#1) (i : Cert.KernelIdeal.S512x256.Idx) :
    ∃ y : ℝ, (x i : EReal) = (y : EReal) := by
  have h0 := congrFun h ix0
  dsimp only [Cert.Pre_finite_inputs_Kernel.fn] at h0
  have hi := Host.reduce_andi_all _ _ _ _ _ h0 i
  -- the element fact: |x i| < +∞
  have hc : Ideal.cmp .olt (max (x i : EReal) (-(x i : EReal))) (Ideal.ofBits .f32 0x7F800000#32) = 1#1 := hi
  have hT : Ideal.ofBits .f32 0x7F800000#32 = (⊤ : EReal) := by simp [Ideal.ofBits, Ideal.ieee]
  rw [hT] at hc
  have hlt : max (x i : EReal) (-(x i : EReal)) < ⊤ := by
    by_contra hn
    have h0 : Ideal.cmp .olt (max (x i : EReal) (-(x i : EReal))) ⊤ = 0#1 := by
      show BitVec.ofBool (decide (_ < _)) = 0#1
      rw [decide_eq_false hn]; rfl
    rw [h0] at hc
    exact absurd hc (by decide)
  exact real_of_abs_lt_top _ hlt

/-! ### Blocks -/

/-- Entry `(r, j)` of device `c`'s block of a whole array is its entry `(r, 256 c + j)`. -/
theorem block_apply (X : FVec Ideal Cert.ReferenceIdeal.S512x4096 .f32) (c : Fin 16) (r : Fin 512) (j : Fin 256) :
    (Layout.block ⟨2, ![512, 256]⟩ ⟨2, ![512, 4096]⟩ 1 16 c X) (ix2 r j) = X (ix2 r (Cert.KernelIdeal.Spec.col c j)) := by
  show X _ = X _
  refine congrArg X (funext fun b => Fin.ext ?_)
  match b with
  | ⟨0, _⟩ => rfl
  | ⟨1, _⟩ => show c.val * 256 + j.val = 256 * c.val + j.val; omega

/-- THE BRIDGE: where each device's block is its part of `X` and finite, device `c`'s result block is its
    part of the reference's result. -/
theorem bridge (X : FVec Ideal Cert.ReferenceIdeal.S512x4096 .f32) (xs : Dev Cert.KernelIdeal.nD → Vec Ideal Cert.KernelIdeal.S512x256 .f32)
    (hblk : ∀ c, xs c = Layout.block ⟨2, ![512, 256]⟩ ⟨2, ![512, 4096]⟩ 1 16 c X)
    (hpre : ∀ c, Cert.Pre_finite_inputs_Kernel.fn (F := Ideal) (xs c) = fun _ => 1#1) (c : Dev Cert.KernelIdeal.nD) :
    outBlk (F := Ideal) (xs c) (gathered xs)
      = Layout.block ⟨2, ![512, 256]⟩ ⟨2, ![512, 4096]⟩ 1 16 c (Cert.ReferenceIdeal.Read.val_main_v8 (F := Ideal) X) := by
  -- an entry of a block is the entry of `X` in that device's columns
  have hx : ∀ (p : Fin 16) (r : Fin 512) (j : Fin 256),
      (xs p (ix2 r j) : EReal) = X (ix2 r (Cert.KernelIdeal.Spec.col p j)) := fun p r j => by
    rw [hblk p]; exact block_apply X p r j
  -- every column of `X` is a column of one device's block, so every entry of `X` is a real
  have hfin : ∀ (r : Fin 512) (J : Fin 4096), ∃ y : ℝ, (X (ix2 r J) : EReal) = (y : EReal) := fun r J => by
    rw [← Cert.KernelIdeal.Spec.col_div_mod J, ← hx]
    exact finite_of_pre _ (hpre _) _
  funext i
  obtain ⟨r, j, rfl⟩ : ∃ (r : Fin 512) (j : Fin 256), i = ix2 r j := ⟨i 0, i 1, eq_ix2 i⟩
  rw [outBlk_apply, block_apply (Cert.ReferenceIdeal.Read.val_main_v8 (F := Ideal) X) c r j, ref_apply]
  have hxs : (fun (p : Dev Cert.KernelIdeal.nD) (r : Fin 512) (j : Fin 256) => (xs p (ix2 r j) : EReal))
      = fun p r j => (fun (r : Fin 512) (J : Fin 4096) => (X (ix2 r J) : EReal)) r (Cert.KernelIdeal.Spec.col p j) :=
    funext fun p => funext fun r => funext fun j => hx p r j
  rw [hxs]
  exact Cert.KernelIdeal.Spec.kout_eq_rout _ hfin c r j

end Cert.RefValue

end

/-- info: 'Cert.RefValue.ref_apply' depends on axioms: [propext, Classical.choice, Quot.sound] -/
#guard_msgs in #print axioms Cert.RefValue.ref_apply
/-- info: 'Cert.RefValue.finite_of_pre' depends on axioms: [propext, Classical.choice, Quot.sound] -/
#guard_msgs in #print axioms Cert.RefValue.finite_of_pre
/-- info: 'Cert.RefValue.block_apply' depends on axioms: [propext, Classical.choice, Quot.sound] -/
#guard_msgs in #print axioms Cert.RefValue.block_apply
/-- info: 'Cert.RefValue.ref_run' depends on axioms: [propext, Classical.choice, Quot.sound] -/
#guard_msgs in #print axioms Cert.RefValue.ref_run
/-- info: 'Cert.RefValue.frame_ref' depends on axioms: [propext, Classical.choice, Quot.sound] -/
#guard_msgs in #print axioms Cert.RefValue.frame_ref
-- ==== Proof.KernelIdeal.Proto.lean ====
/-
  The exchange of the sixteen slots, as a protocol of rounds.

  Every device `c` has three kinds of semaphore cells. Its BARRIER cell receives one unit from each of
  the other fifteen devices; the unit from device `p` (duty `p`) hands `c` device `p`'s slot `c` of its gather
  buffer — the place `c`'s own slot will be copied to. Its RECEIVE cell `i` (`i ≠ c`)
  is paid once, by device `i`'s copy, and hands `c` its slot `i` holding device `i`'s statistics. Its
  SEND cell `i` (`i ≠ c`) is paid once, when the copy to device `i` has read its source, and hands back
  the share of `c`'s own slot that copy was lent. One round each.
  A device first signals (owing the fifteen copies), waits on its barrier, copies, waits on its receive
  cells owing nothing, and on its send cells last: barrier cells lie below receive cells in the order of
  levels, which is the whole deadlock argument.
-/
import proofs.«900603_g7700000000000604_dist_softmax_colshard_i_m512_n256_v7x_i16_bf16_1_alg».proof.Proof.KernelIdeal.Contents
import proofs.«900603_g7700000000000604_dist_softmax_colshard_i_m512_n256_v7x_i16_bf16_1_alg».proof.Proof.Gen.KernelIdeal.Launch
import proofs.«900603_g7700000000000604_dist_softmax_colshard_i_m512_n256_v7x_i16_bf16_1_alg».proof.Proof.Gen.KernelIdeal.Points
import Idealize.ShloMosaic.Lib.Pipeline.Launch
import Idealize.ShloMosaic.Lib.Pipeline.Kit
import Idealize.ShloMosaic.Lib.Ring
import Idealize.ShloMosaic.Lib.Transfers
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties named by `Fin 16`) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def st₀ : MemSt nD τ sig (Elt F) := ⟨m, fun _ => 0, ρ⟩

/-! ## The devices -/

/-- The device `k` places after `c` around the sixteen. -/
def peer (c : Dev nD) (k : ℕ) : Dev nD := ⟨(c.val + k) % 16, Nat.mod_lt _ (by decide)⟩

theorem peer_peer (c : Dev nD) (j k : ℕ) : peer (peer c j) k = peer c (j + k) :=
  Fin.ext (by show ((c.val + j) % 16 + k) % 16 = (c.val + (j + k)) % 16; omega)
theorem peer_16 (c : Dev nD) : peer c 16 = c := Fin.ext (by have h : c.val < 16 := c.isLt; show (c.val + 16) % 16 = c.val; omega)
theorem peer_0 (c : Dev nD) : peer c 0 = c := Fin.ext (by have h : c.val < 16 := c.isLt; show (c.val + 0) % 16 = c.val; omega)

/-- The kernel's `device_id` chains: signal `k` and copy `k` both name the device `k` places on. -/
theorem dev1_eq (c : Dev nD) : (⟨k0_dev1 c, k0_dev1_lt c⟩ : Dev nD) = peer c 1 := Fin.ext (k0_dev1_eq c)
theorem dev2_eq (c : Dev nD) : (⟨k0_dev2 c, k0_dev2_lt c⟩ : Dev nD) = peer c 2 := Fin.ext (k0_dev2_eq c)
theorem dev3_eq (c : Dev nD) : (⟨k0_dev3 c, k0_dev3_lt c⟩ : Dev nD) = peer c 3 := Fin.ext (k0_dev3_eq c)
theorem dev4_eq (c : Dev nD) : (⟨k0_dev4 c, k0_dev4_lt c⟩ : Dev nD) = peer c 4 := Fin.ext (k0_dev4_eq c)
theorem dev5_eq (c : Dev nD) : (⟨k0_dev5 c, k0_dev5_lt c⟩ : Dev nD) = peer c 5 := Fin.ext (k0_dev5_eq c)
theorem dev6_eq (c : Dev nD) : (⟨k0_dev6 c, k0_dev6_lt c⟩ : Dev nD) = peer c 6 := Fin.ext (k0_dev6_eq c)
theorem dev7_eq (c : Dev nD) : (⟨k0_dev7 c, k0_dev7_lt c⟩ : Dev nD) = peer c 7 := Fin.ext (k0_dev7_eq c)
theorem dev8_eq (c : Dev nD) : (⟨k0_dev8 c, k0_dev8_lt c⟩ : Dev nD) = peer c 8 := Fin.ext (k0_dev8_eq c)
theorem dev9_eq (c : Dev nD) : (⟨k0_dev9 c, k0_dev9_lt c⟩ : Dev nD) = peer c 9 := Fin.ext (k0_dev9_eq c)
theorem dev10_eq (c : Dev nD) : (⟨k0_dev10 c, k0_dev10_lt c⟩ : Dev nD) = peer c 10 := Fin.ext (k0_dev10_eq c)
theorem dev11_eq (c : Dev nD) : (⟨k0_dev11 c, k0_dev11_lt c⟩ : Dev nD) = peer c 11 := Fin.ext (k0_dev11_eq c)
theorem dev12_eq (c : Dev nD) : (⟨k0_dev12 c, k0_dev12_lt c⟩ : Dev nD) = peer c 12 := Fin.ext (k0_dev12_eq c)
theorem dev13_eq (c : Dev nD) : (⟨k0_dev13 c, k0_dev13_lt c⟩ : Dev nD) = peer c 13 := Fin.ext (k0_dev13_eq c)
theorem dev14_eq (c : Dev nD) : (⟨k0_dev14 c, k0_dev14_lt c⟩ : Dev nD) = peer c 14 := Fin.ext (k0_dev14_eq c)
theorem dev15_eq (c : Dev nD) : (⟨k0_dev15 c, k0_dev15_lt c⟩ : Dev nD) = peer c 15 := Fin.ext (k0_dev15_eq c)
theorem dev16_eq (c : Dev nD) : (⟨k0_dev16 c, k0_dev16_lt c⟩ : Dev nD) = peer c 1 := Fin.ext (k0_dev16_eq c)
theorem dev17_eq (c : Dev nD) : (⟨k0_dev17 c, k0_dev17_lt c⟩ : Dev nD) = peer c 2 := Fin.ext (k0_dev17_eq c)
theorem dev18_eq (c : Dev nD) : (⟨k0_dev18 c, k0_dev18_lt c⟩ : Dev nD) = peer c 3 := Fin.ext (k0_dev18_eq c)
theorem dev19_eq (c : Dev nD) : (⟨k0_dev19 c, k0_dev19_lt c⟩ : Dev nD) = peer c 4 := Fin.ext (k0_dev19_eq c)
theorem dev20_eq (c : Dev nD) : (⟨k0_dev20 c, k0_dev20_lt c⟩ : Dev nD) = peer c 5 := Fin.ext (k0_dev20_eq c)
theorem dev21_eq (c : Dev nD) : (⟨k0_dev21 c, k0_dev21_lt c⟩ : Dev nD) = peer c 6 := Fin.ext (k0_dev21_eq c)
theorem dev22_eq (c : Dev nD) : (⟨k0_dev22 c, k0_dev22_lt c⟩ : Dev nD) = peer c 7 := Fin.ext (k0_dev22_eq c)
theorem dev23_eq (c : Dev nD) : (⟨k0_dev23 c, k0_dev23_lt c⟩ : Dev nD) = peer c 8 := Fin.ext (k0_dev23_eq c)
theorem dev24_eq (c : Dev nD) : (⟨k0_dev24 c, k0_dev24_lt c⟩ : Dev nD) = peer c 9 := Fin.ext (k0_dev24_eq c)
theorem dev25_eq (c : Dev nD) : (⟨k0_dev25 c, k0_dev25_lt c⟩ : Dev nD) = peer c 10 := Fin.ext (k0_dev25_eq c)
theorem dev26_eq (c : Dev nD) : (⟨k0_dev26 c, k0_dev26_lt c⟩ : Dev nD) = peer c 11 := Fin.ext (k0_dev26_eq c)
theorem dev27_eq (c : Dev nD) : (⟨k0_dev27 c, k0_dev27_lt c⟩ : Dev nD) = peer c 12 := Fin.ext (k0_dev27_eq c)
theorem dev28_eq (c : Dev nD) : (⟨k0_dev28 c, k0_dev28_lt c⟩ : Dev nD) = peer c 13 := Fin.ext (k0_dev28_eq c)
theorem dev29_eq (c : Dev nD) : (⟨k0_dev29 c, k0_dev29_lt c⟩ : Dev nD) = peer c 14 := Fin.ext (k0_dev29_eq c)
theorem dev30_eq (c : Dev nD) : (⟨k0_dev30 c, k0_dev30_lt c⟩ : Dev nD) = peer c 15 := Fin.ext (k0_dev30_eq c)

/-! ## Semaphores, cells, views -/

/-- The runtime's barrier semaphore of collective id 0 (unscoped). -/
abbrev barS : Sem sig := (SemArray.scalar (sig.barrier 0 rfl) : Sems sig S_).sem
/-- The send semaphore for the copy to device `i`, the receive semaphore for the copy from device `i`. -/
def sendSem (i : Dev nD) : DmaSem sig := ⟨2 + i.val, by have h : i.val < 16 := i.isLt; show 2 + i.val < 34; omega⟩
def recvSem (i : Dev nD) : DmaSem sig := ⟨18 + i.val, by have h : i.val < 16 := i.isLt; show 18 + i.val < 34; omega⟩

abbrev barCell (c : Dev nD) : GSem nD τ sig := ((c : Thread nD τ), .reg barS)
abbrev sendCell (c i : Dev nD) : GSem nD τ sig := ((c : Thread nD τ), .dma (sendSem i))
abbrev recvCell (c i : Dev nD) : GSem nD τ sig := ((c : Thread nD τ), .dma (recvSem i))

/-- The gather buffer, and slot `i` of it as the kernel names a device's own slot. -/
abbrev scrM : Memref sig .tc .vmem S16x8x128 .f32 := Memref.whole cc0_scratch0
abbrev slotR (i : Dev nD) : Rect S16x8x128 := Rect.unit (s := S16x8x128) (k0_off4 i) S1x8x128.size (k0_off4_inb i)
abbrev slotM (i : Dev nD) : Memref sig .tc .vmem S8x128 .f32 :=
  (scrM.slice (slotR i) (fun _ => rfl)).squeeze S8x128 squeezes_S1x8x128_S8x128

/-- What one copy of a slot credits. -/
abbrev N : ℕ := (slotM (0 : Dev nD)).view.dmaCredit

/-! ## Contents -/

/-- Device `p`'s input block at launch, as its kernel's input window stages it (the window is the whole array). -/
def xin (p : Dev nD) : Vec F S512x256 .f32 :=
  (win0_0.blk (0 : Fin 1)).view.read (Elt F) (m ((p : Thread nD τ).loc main_arg0))
/-- The gather buffer once every slot has landed: the same on every device. -/
def Gall (c : Dev nD) : Buf (Elt F) ((c : Thread nD τ).loc cc0_scratch0) := gathered (xin m)

/-! ## The schedule -/

/-- Which read token of its own slot device `c` lends the copy to device `i`: token `k - 1` for `i` the device `k` places on. -/
def tokIx (c i : Dev nD) : ℕ := (i.val + 15 - c.val) % 16

/-- What device `p`'s unit (duty `p` of `o`'s barrier cell) hands `o`: device `p`'s slot `o`, whatever it holds. -/
def barPay (o p : Dev nD) : sProp 𝕄 :=
  iprop(∃ f, (slotM o).view.loc (p : Thread nD τ) ↦[(slotM o).view.set]{fullShare} f)
/-- What device `i`'s copy hands `c`: `c`'s slot `i` holding device `i`'s statistics. -/
def recvPay (c i : Dev nD) : sProp 𝕄 :=
  (slotM i).view.loc (c : Thread nD τ) ↦[(slotM i).view.set]{fullShare} Gall m c
/-- What the copy to device `i` hands back to `c` once its source is read: the share of `c`'s own slot it was lent. -/
def sendPay (c i : Dev nD) : sProp 𝕄 :=
  (slotM c).view.loc (c : Thread nD τ) ↦[(slotM c).view.set]{Transfers.shareTokN fullShare (tokIx c i)} Gall m c

abbrev IsBar (g : GSem nD τ sig) : Prop := g.1.2 = .tc ∧ g.2 = .reg barS
abbrev IsSend (g : GSem nD τ sig) : Prop := g.1.2 = .tc ∧ ∃ i : Dev nD, g.2 = .dma (sendSem i) ∧ i ≠ g.1.1
abbrev IsRecv (g : GSem nD τ sig) : Prop := g.1.2 = .tc ∧ ∃ i : Dev nD, g.2 = .dma (recvSem i) ∧ i ≠ g.1.1

/-- One round, round 0: a barrier cell has one unit duty per OTHER device, named by it; a send or receive cell for another device
    the one duty `0` of a slot's credit; the two cells a device has for itself, and every other cell, none. -/
def Rd : Rounds.Schedule (GSem nD τ sig) (Fin 16) 𝕄 where
  duties g r := if r = 0 ∧ IsBar g then Finset.univ.erase g.1.1 else if r = 0 ∧ (IsSend g ∨ IsRecv g) then {0} else ∅
  unitless _ := False
  amount g _ _ := match g.2 with | .reg _ => 1 | .dma _ => N
  payload g _ d := match g.2 with
    | .reg _ => barPay g.1.1 d
    | .dma q =>
      if h : 18 ≤ q.val then recvPay m g.1.1 ⟨q.val - 18, by have hq : q.val < 34 := q.isLt; show q.val - 18 < 16; omega⟩
      else if h2 : 2 ≤ q.val then sendPay m g.1.1 ⟨q.val - 2, by show q.val - 2 < 16; omega⟩
      else iprop(emp)
  amount_pos g _ _ _ := by
    rcases hg : g.2 with s | q
    · exact Nat.one_pos
    · exact View.dmaCredit_pos _ (by decide)

instance Rd_payload_storable (g : GSem nD τ sig) (r : ℕ) (d : Fin 16) :
    BI.Storable (upEmb : UEmb _ 𝕄) ((Rd (F := F) m).payload g r d) := by
  rcases g with ⟨th, s | q⟩
  · show BI.Storable upEmb (barPay th.1 d); unfold barPay; infer_instance
  · show BI.Storable upEmb (if h : 18 ≤ q.val then recvPay m th.1 _ else if h2 : 2 ≤ q.val then sendPay m th.1 _ else iprop(emp))
    unfold recvPay sendPay
    (repeat' split) <;> infer_instance

section Sched
variable (c i : Dev nD)

theorem send_ne_bar : (SemLoc.dma (sendSem i) : SemLoc sig) ≠ .reg barS := fun h => by cases h
theorem recv_ne_bar : (SemLoc.dma (recvSem i) : SemLoc sig) ≠ .reg barS := fun h => by cases h
theorem sendSem_inj {a b : Dev nD} (h : sendSem a = sendSem b) : a = b :=
  Fin.ext (by have := congrArg Fin.val h; simp only [sendSem] at this; omega)
theorem recvSem_inj {a b : Dev nD} (h : recvSem a = recvSem b) : a = b :=
  Fin.ext (by have := congrArg Fin.val h; simp only [recvSem] at this; omega)
theorem send_ne_recv (a b : Dev nD) : sendSem a ≠ recvSem b := fun h => by
  have := congrArg Fin.val h; simp only [sendSem, recvSem] at this; have hb : a.val < 16 := a.isLt; omega

theorem not_bar_send : ¬ IsBar (sendCell c i) := fun h => send_ne_bar i h.2
theorem not_bar_recv : ¬ IsBar (recvCell c i) := fun h => recv_ne_bar i h.2

theorem duties_bar : (Rd (F := F) m).duties (barCell c) 0 = Finset.univ.erase c := by dsimp only [Rd]; exact if_pos ⟨rfl, rfl, rfl⟩
theorem duties_send (h : i ≠ c) : (Rd (F := F) m).duties (sendCell c i) 0 = {0} := by
  dsimp only [Rd]; rw [if_neg (fun h' => not_bar_send c i h'.2)]; exact if_pos ⟨rfl, .inl ⟨rfl, i, rfl, h⟩⟩
theorem duties_recv (h : i ≠ c) : (Rd (F := F) m).duties (recvCell c i) 0 = {0} := by
  dsimp only [Rd]; rw [if_neg (fun h' => not_bar_recv c i h'.2)]; exact if_pos ⟨rfl, .inr ⟨rfl, i, rfl, h⟩⟩
theorem duties_later (g : GSem nD τ sig) : ∀ r, 1 ≤ r → (Rd (F := F) m).duties g r = ∅ :=
  fun r hr => by dsimp only [Rd]; rw [if_neg fun h => by omega, if_neg fun h => by omega]
/-- The cells a device has for itself are never paid. -/
theorem duties_send_self : ∀ r, 0 ≤ r → (Rd (F := F) m).duties (sendCell c c) r = ∅ := fun r _ => by
  dsimp only [Rd]
  rw [if_neg (fun h' => not_bar_send c c h'.2), if_neg]
  rintro ⟨-, (⟨-, j, hj, hne⟩ | ⟨-, j, hj, hne⟩)⟩
  · exact hne (sendSem_inj (SemLoc.dma.inj hj)).symm
  · exact send_ne_recv _ _ (SemLoc.dma.inj hj)
theorem duties_recv_self : ∀ r, 0 ≤ r → (Rd (F := F) m).duties (recvCell c c) r = ∅ := fun r _ => by
  dsimp only [Rd]
  rw [if_neg (fun h' => not_bar_recv c c h'.2), if_neg]
  rintro ⟨-, (⟨-, j, hj, hne⟩ | ⟨-, j, hj, hne⟩)⟩
  · exact send_ne_recv _ _ (SemLoc.dma.inj hj).symm
  · exact hne (recvSem_inj (SemLoc.dma.inj hj)).symm

theorem amount_bar (d : Fin 16) : (Rd (F := F) m).amount (barCell c) 0 d = 1 := rfl
theorem amount_send (d : Fin 16) : (Rd (F := F) m).amount (sendCell c i) 0 d = N := rfl
theorem amount_recv (d : Fin 16) : (Rd (F := F) m).amount (recvCell c i) 0 d = N := rfl

theorem payload_bar (p : Dev nD) : (Rd (F := F) m).payload (barCell c) 0 p = barPay c p := rfl
theorem payload_recv (d : Fin 16) : (Rd (F := F) m).payload (recvCell c i) 0 d = recvPay m c i := by
  show (if h : 18 ≤ (recvSem i).val then recvPay m c ⟨(recvSem i).val - 18, _⟩ else _) = _
  rw [dif_pos (by simp only [recvSem]; omega)]
  congr 1; exact Fin.ext (by simp only [recvSem]; omega)
theorem payload_send (d : Fin 16) : (Rd (F := F) m).payload (sendCell c i) 0 d = sendPay m c i := by
  show (if h : 18 ≤ (sendSem i).val then _ else if h2 : 2 ≤ (sendSem i).val then sendPay m c ⟨(sendSem i).val - 2, _⟩ else _) = _
  rw [dif_neg (by simp only [sendSem]; have hb : i.val < 16 := i.isLt; omega), dif_pos (by simp only [sendSem]; omega)]
  congr 1; exact Fin.ext (by simp only [sendSem]; omega)

theorem expect_bar : (Rd (F := F) m).expect (barCell c) 0 = 15 := by
  unfold Schedule.expect Schedule.amountOf
  rw [duties_bar, Finset.sum_congr rfl fun d _ => amount_bar m c d, Finset.sum_const, smul_eq_mul, Nat.mul_one, Finset.card_erase_of_mem (Finset.mem_univ _), Finset.card_univ, Fintype.card_fin]
theorem expect_send (h : i ≠ c) : (Rd (F := F) m).expect (sendCell c i) 0 = N := by
  unfold Schedule.expect Schedule.amountOf; rw [duties_send m c i h, Finset.sum_singleton, amount_send]
theorem expect_recv (h : i ≠ c) : (Rd (F := F) m).expect (recvCell c i) 0 = N := by
  unfold Schedule.expect Schedule.amountOf; rw [duties_recv m c i h, Finset.sum_singleton, amount_recv]

end Sched

/-! ## What each device owes at launch; the levels -/

/-- The receive credit still owed once the copies to the devices `1 … 15 - j` places on are issued. -/
def owedR (c : Dev nD) : ℕ → CellTallies nD τ sig Unit
  | 0 => 0
  | j + 1 => owedR c j + tallyAt (recvCell (peer c (15 - j)) c) () N
/-- … and, over all the receive credit, the barrier units still owed once the devices `1 … 15 - j` places on are signalled. -/
def owedB (c : Dev nD) : ℕ → CellTallies nD τ sig Unit
  | 0 => owedR c 15
  | j + 1 => owedB c j + tallyAt (barCell (peer c (15 - j))) () 1
/-- At launch: everything. The first signal peels the outermost summand. -/
def O₀ (c : Dev nD) : CellTallies nD τ sig Unit := owedB c 15

def L (g : GSem nD τ sig) : Finset Unit := if g.1.2 = .tc then {()} else ∅
/-- barrier cells at 1, receive cells at 2, everything else (staging, send) at 0. -/
def lv (g : GSem nD τ sig) (_ : Unit) : ℕ := match g.2 with | .reg _ => 1 | .dma q => if 18 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem owedR_pos {c : Dev nD} {g : GSem nD τ sig} {u : Unit} : ∀ j, 0 < owedR c j g u → ∃ k, g = recvCell (peer c k) c
  | 0, h => absurd h (Nat.lt_irrefl 0)
  | j + 1, h => by
    unfold owedR at h
    rw [Pi.add_apply, Finsupp.add_apply, tallyAt_apply] at h
    by_cases hg : g = recvCell (peer c (15 - j)) c ∧ u = ()
    · exact ⟨_, hg.1⟩
    · rw [if_neg hg, Nat.add_zero] at h; exact owedR_pos j h

theorem owedB_pos {c : Dev nD} {g : GSem nD τ sig} {u : Unit} : ∀ j, 0 < owedB c j g u → (∃ k, g = recvCell (peer c k) c) ∨ ∃ k, g = barCell (peer c k)
  | 0, h => .inl (owedR_pos 15 h)
  | j + 1, h => by
    unfold owedB at h
    rw [Pi.add_apply, Finsupp.add_apply, tallyAt_apply] at h
    by_cases hg : g = barCell (peer c (15 - j)) ∧ u = ()
    · exact .inr ⟨_, hg.1⟩
    · rw [if_neg hg, Nat.add_zero] at h; exact owedB_pos j h

theorem lv_recv (c i : Dev nD) (u : Unit) : lv (recvCell c i) u = 2 := by
  show (if 18 ≤ (recvSem i).val then 2 else 0) = 2; rw [if_pos (by simp only [recvSem]; omega)]
theorem lv_bar (c : Dev nD) (u : Unit) : lv (barCell c) u = 1 := rfl

/-- A wait on a cell at level 0 (a staging cell, a send cell) is below everything a device can owe. -/
theorem mayWait_low (c : Dev nD) (q : DmaSem sig) (hq : q.val < 18) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedB_pos 15 hg with ⟨k, rfl⟩ | ⟨k, rfl⟩ <;> exact Finset.mem_singleton_self _)
      (fun p hp => by
        rw [Finset.mem_singleton.mp hp]
        show (if 18 ≤ q.val then 2 else 0) ≤ 0
        rw [if_neg (by omega)])
      (fun g u hg => by
        rcases owedB_pos 15 hg with ⟨k, rfl⟩ | ⟨k, rfl⟩
        · rw [lv_recv]; decide
        · rw [lv_bar]; decide)
  · rw [MayWait_zero]; iintro -; iempintro

/-- At its barrier wait a device owes receive credit only: receive cells lie above its barrier cell. -/
theorem mayWait_bar (c : Dev nD) :
    (levAts L lv : sProp 𝕄) ⊢ MayWait (c : Thread nD τ) (.reg barS) () (owedR c 15) :=
  MayOwe.of_cut (L := L) (lev := lv) 1 (fun p hp => by rw [Finset.mem_singleton.mp hp, L_tc]; exact Finset.mem_singleton_self _)
    (fun g u hg => by rcases owedR_pos 15 hg with ⟨k, rfl⟩; exact Finset.mem_singleton_self _)
    (fun p hp => by rw [Finset.mem_singleton.mp hp]; exact Nat.le_refl 1)
    (fun g u hg => by rcases owedR_pos 15 hg with ⟨k, rfl⟩; rw [lv_recv]; decide)

end Cert.KernelIdeal.Hand

end
-- ==== Proof.KernelIdeal.Data.lean ====
/-
  The proof data of the exchange: what each device holds when its body starts and when it ends.

  A device starts with every cell's invariant and first-round mark (they are persistent: each device gets them
  all), its own thirty-three cells' positions, the tokens of the forty-five duties IT pays — a unit on each
  other device's barrier cell, its fifteen copies' send duties on its own send cells and their receive duties
  on the other devices' receive cells —, the credit for its barrier wait (fifteen units) and for its
  fifteen receive waits, and its gather buffer at arbitrary contents. It ends with its gather buffer whole
  again and its thirty-two scoped semaphores at zero; its result block is `outBlk` of its own block and
  the sixteen gathered slots.
-/
import proofs.«900603_g7700000000000604_dist_softmax_colshard_i_m512_n256_v7x_i16_bf16_1_alg».proof.Proof.KernelIdeal.Proto

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A device's cells, indexed -/

/-- `none`: the barrier cell; `some (false, i)`: the send cell for device `i`; `some (true, i)`: the receive cell for device `i`. -/
abbrev CellIx : Type := Option (Bool × Dev nD)
def csem : CellIx → SemLoc sig
  | none => .reg barS
  | some (false, i) => .dma (sendSem i)
  | some (true, i) => .dma (recvSem i)
abbrev kcell (ck : Dev nD × CellIx) : GSem nD τ sig := ((ck.1 : Thread nD τ), csem ck.2)
/-- The thirty-two scoped semaphores of the kernel, as the launch indexes them. -/
abbrev osem (x : Bool × Dev nD) : SemLoc sig := csem (some x)

theorem csem_injective : Function.Injective (csem : CellIx → SemLoc sig) := by
  intro a b h
  rcases a with _ | ⟨_ | _, i⟩ <;> rcases b with _ | ⟨_ | _, j⟩ <;> simp only [csem] at h
  · rfl
  · exact absurd h.symm (send_ne_bar j)
  · exact absurd h.symm (recv_ne_bar j)
  · exact absurd h (send_ne_bar i)
  · rw [sendSem_inj (SemLoc.dma.inj h)]
  · exact absurd (SemLoc.dma.inj h) (send_ne_recv i j)
  · exact absurd h (recv_ne_bar i)
  · exact absurd (SemLoc.dma.inj h).symm (send_ne_recv j i)
  · rw [recvSem_inj (SemLoc.dma.inj h)]

theorem kcell_injective : Function.Injective (kcell : Dev nD × CellIx → GSem nD τ sig) := by
  rintro ⟨c, k⟩ ⟨c', k'⟩ h
  have h1 : c = c' := by have := congrArg (fun g : GSem nD τ sig => g.1.1) h; exact this
  subst h1
  have hk : k = k' := csem_injective (congrArg Prod.snd h)
  rw [hk]
def ringCells : Finset (GSem nD τ sig) := Finset.univ.map ⟨kcell, kcell_injective⟩

/-! ## The duty tokens -/

/-- A device's own cells' tokens, as minted: (device, which family, which offset) — its barrier's duty named by the device `k + 1` places on, the one duty
    of its send cell and of its receive cell for the device `k + 1` places on. -/
def tokOf (x : Dev nD × Fin 3 × Fin 15) : GSem nD τ sig × ℕ × Fin 16 :=
  match x.2.1 with
  | 0 => (barCell x.1, 0, peer x.1 (x.2.2.val + 1))
  | 1 => (sendCell x.1 (peer x.1 (x.2.2.val + 1)), 0, 0)
  | 2 => (recvCell x.1 (peer x.1 (x.2.2.val + 1)), 0, 0)

/-- The tokens of device `c`'s own cells. -/
def toks (c : Dev nD) : sProp 𝕄 :=
  bigSep Finset.univ fun k : Fin 15 =>
    iprop(dutyTok ER (barCell c) 0 (peer c (k.val + 1)) ∗ dutyTok ER (sendCell c (peer c (k.val + 1))) 0 0 ∗ dutyTok ER (recvCell c (peer c (k.val + 1))) 0 0)
/-- The tokens of the duties device `c` pays. -/
def payToks (c : Dev nD) : sProp 𝕄 :=
  bigSep Finset.univ fun k : Fin 15 =>
    iprop(dutyTok ER (barCell (peer c (k.val + 1))) 0 c ∗ dutyTok ER (sendCell c (peer c (k.val + 1))) 0 0 ∗ dutyTok ER (recvCell (peer c (k.val + 1)) c) 0 0)

/-! ## The ghost state -/

/-- Every cell's invariant, under the names `K` the launch allocated them at, and that its first round is reached. -/
def records (K : Dev nD × CellIx → ℕ) : sProp 𝕄 :=
  iprop((bigSep Finset.univ fun ck : Dev nD × CellIx => cellInv ER (Rd m) (K ck) (kcell ck))
    ∗ bigSep Finset.univ fun ck : Dev nD × CellIx => reached ER (kcell ck) 0)

instance records_persistent (K : Dev nD × CellIx → ℕ) : BI.Persistent (records m K) := by unfold records; infer_instance

/-- What stays with device `c`: its own cells' positions, and the tokens of the duties it pays. -/
def linear (c : Dev nD) : sProp 𝕄 :=
  iprop((bigSep Finset.univ fun j : CellIx => atPos ER (kcell (c, j)) 0 ∅ 0) ∗ payToks c)

def ghost (K : Dev nD × CellIx → ℕ) (c : Dev nD) : sProp 𝕄 := iprop(records m K ∗ linear c)

/-- The credit the launch deals device `c`: fifteen units on its barrier cell, a slot's credit on each receive cell. -/
def startCred (c : Dev nD) : sProp 𝕄 :=
  iprop(cred (tallyAt (barCell c) () 15) ∗ bigSep Finset.univ fun k : Fin 15 => cred (tallyAt (recvCell c (peer c (k.val + 1))) () N))

/-- What device `c`'s body starts from, the gather buffer apart. -/
def start (c : Dev nD) : sProp 𝕄 := iprop((∃ K, ghost m K c) ∗ startCred c ∗ levAts L lv)

def Φ₀ (c : Dev nD) : sProp 𝕄 := iprop(start m c ∗ ∃ f : Buf (Elt F) ((c : Thread nD τ).loc cc0_scratch0), ((c : Thread nD τ).loc cc0_scratch0) ↦{fullShare} f)
/-- After the point: the gather buffer whole, the thirty-two scoped cells closed with their counters at zero (the
    barrier cell is the runtime's: nothing to hand back). -/
def Φ₁ (c : Dev nD) : sProp 𝕄 :=
  iprop((∃ f : Buf (Elt F) ((c : Thread nD τ).loc cc0_scratch0), ((c : Thread nD τ).loc cc0_scratch0) ↦{fullShare} f)
    ∗ bigSep Finset.univ fun x : Bool × Dev nD => semVal ((c : Thread nD τ), osem x) 0)

/-! ## The pipeline's proof data -/

/-- Device `c`'s input block as staged. -/
def xstg (c : Dev nD) : (cc0_stg0_0 : Ref sig .tc).ty.Contents (Elt F) :=
  (win0_0.blk (0 : Fin 1)).view.read (Elt F) ((st₀ m ρ).mem ((c : Thread nD τ).loc main_arg0))

/-- The kernel's result on device `c`. -/
def outAt (c : Dev nD) : (cc0_stg1_0 : Ref sig .tc).ty.Contents (Elt F) := outBlk (xin m c) (gathered (xin m))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xstg m ρ c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-- The staged input block is the device's input block. -/
theorem xstg_eq (c : Dev nD) : xstg m ρ c = xin m c := by
  unfold xstg xin st₀
  rfl

theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

end Cert.KernelIdeal.Hand

end
-- ==== Proof.KernelIdeal.Alloc.lean ====
/-
  Minting the exchange's ghost state at launch and dealing it to the devices.

  The launch element funds every device's thirty-three cells at their first round and mints one token per duty,
  grouped by the OWNER of the duty's cell. Every device then allocates its cells' invariants from its counters at
  zero; the invariants and first-round marks are persistent, so every device takes them all; the tokens are dealt
  to the devices that PAY them: the barrier token named `p` of device `o` goes to `p`, the receive token of device
  `o`'s cell for device `i` goes to `i`, a send token stays where it is.
-/
import proofs.«900603_g7700000000000604_dist_softmax_colshard_i_m512_n256_v7x_i16_bf16_1_alg».proof.Proof.KernelIdeal.Data

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The tokens are distinct -/

/-- The devices one to fifteen places on from a device are distinct. -/
theorem peer_succ_inj (c : Dev nD) (k k' : Fin 15) (h : peer c (k.val + 1) = peer c (k'.val + 1)) : k = k' := by
  have h' : (c.val + (k.val + 1)) % 16 = (c.val + (k'.val + 1)) % 16 := congrArg Fin.val h
  have hc : c.val < 16 := c.isLt
  have hk := k.isLt
  have hk' := k'.isLt
  exact Fin.ext (by omega)

theorem tokOf_injective : Function.Injective (tokOf : Dev nD × Fin 3 × Fin 15 → GSem nD τ sig × ℕ × Fin 16) := by
  rintro ⟨c, f, k⟩ ⟨c', f', k'⟩ h
  have h1 : c = c' := by
    have := congrArg (fun x : GSem nD τ sig × ℕ × Fin 16 => x.1.1.1) h
    fin_cases f <;> fin_cases f' <;> exact this
  subst h1
  have hs : (tokOf (c, f, k)).1.2 = (tokOf (c, f', k')).1.2 := by rw [h]
  have hd : (tokOf (c, f, k)).2.2 = (tokOf (c, f', k')).2.2 := by rw [h]
  fin_cases f <;> fin_cases f'
  · rw [peer_succ_inj c k k' hd]
  · exact absurd hs.symm (send_ne_bar _)
  · exact absurd hs.symm (recv_ne_bar _)
  · exact absurd hs (send_ne_bar _)
  · rw [peer_succ_inj c k k' (sendSem_inj (SemLoc.dma.inj hs))]
  · exact absurd (SemLoc.dma.inj hs) (send_ne_recv _ _)
  · exact absurd hs (recv_ne_bar _)
  · exact absurd (SemLoc.dma.inj hs).symm (send_ne_recv _ _)
  · rw [peer_succ_inj c k k' (recvSem_inj (SemLoc.dma.inj hs))]
def ringToks : Finset (GSem nD τ sig × ℕ × Fin 16) := Finset.univ.map ⟨tokOf, tokOf_injective⟩

def u₀ : UU :=
  (initOf (Pipeline.cells cfgs cellOf_inj) (Pipeline.launchToks cfgs cellOf_inj), initOf ringCells ringToks)

/-- What the launch element deals device `c` (the launch theorem's `G`). -/
def G (c : Dev nD) : sProp 𝕄 :=
  iprop((bigSep Finset.univ fun j : CellIx => roundState ER (Rd m) (kcell (c, j)) 0)
    ∗ (bigSep Finset.univ fun j : CellIx => iprop(atPos ER (kcell (c, j)) 0 ∅ 0 ∗ reached ER (kcell (c, j)) 0)) ∗ toks c)

/-- What the global step makes of it (`G'`). -/
def G' (c : Dev nD) : sProp 𝕄 := iprop(∃ K, ghost m K c)

/-! ### Funding -/

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun j : CellIx => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_prod, bigSep_fin3, bigSep_sep', bigSep_sep']
    rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### Every device allocates its cells' invariants -/

/-- A product over an option type: the summand at none, and the product over the rest. -/
theorem bigSep_option {α : Type} [Fintype α] [DecidableEq α] (Φ : Option α → sProp 𝕄) :
    bigSep Finset.univ Φ = iprop(Φ none ∗ bigSep Finset.univ fun a : α => Φ (some a)) := by
  have h : (Finset.univ : Finset (Option α)).erase none = Finset.univ.map Function.Embedding.some := by
    ext x
    cases x <;> simp
  rw [bigSep_univ_split none, h, bigSep_map]
  rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's counters at zero: its thirty-two own semaphores and the barrier semaphore are its thirty-three cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : CellIx => semVal (kcell (c, j)) 0 : sProp 𝕄) := by
  rw [unscopedSems0_eq, bigSep_option]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : CellIx => iprop(∃ κ : ℕ, cellInv ER (Rd m) κ (kcell (c, j))))
          ∗ (bigSep Finset.univ fun j : CellIx => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : CellIx => semVal (kcell (c, j)) 0) ∗ bigSep Finset.univ fun j : CellIx => roundState ER (Rd m) (kcell (c, j)) 0)
      ⊢ (|={Set.univ}=> bigSep Finset.univ fun j : CellIx => iprop(∃ κ : ℕ, cellInv ER (Rd m) κ (kcell (c, j))) : sProp 𝕄) from by
        rw [← bigSep_sep']
        exact (bigSep_mono fun j _ => (Rounds.body_intro ER (Rd m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-! ### Dealing the tokens to their payers -/

/-- Owner and offset to payer and the offset back: the device k + 1 places on from o is the payer, and o is 15 - k places on from it. -/
def swap (ok : Dev nD × Fin 15) : Dev nD × Fin 15 := (peer ok.1 (ok.2.val + 1), ⟨14 - ok.2.val, by omega⟩)

theorem swap_swap (ok : Dev nD × Fin 15) : swap (swap ok) = ok := by
  obtain ⟨o, k⟩ := ok
  have hk := k.isLt
  refine Prod.ext ?_ (Fin.ext ?_)
  · show peer (peer o (k.val + 1)) (14 - k.val + 1) = o
    rw [peer_peer, show k.val + 1 + (14 - k.val + 1) = 16 from by omega, peer_16]
  · show 14 - (14 - k.val) = k.val
    omega

def swapE : Dev nD × Fin 15 ≃ Dev nD × Fin 15 := ⟨swap, swap, swap_swap, swap_swap⟩

/-- A family over (owner, offset) is the same product as the family over (payer, offset) it becomes under the exchange. -/
theorem reindex (Ψ Ψ' : Dev nD → Fin 15 → sProp 𝕄)
    (h : ∀ (o : Dev nD) (k : Fin 15), Ψ' (swap (o, k)).1 (swap (o, k)).2 = Ψ o k) :
    (bigSep Finset.univ fun o : Dev nD => bigSep Finset.univ fun k : Fin 15 => Ψ o k)
      = bigSep Finset.univ fun c : Dev nD => bigSep Finset.univ fun k : Fin 15 => Ψ' c k := by
  rw [← bigSep_univ_prod (fun ok : Dev nD × Fin 15 => Ψ ok.1 ok.2), ← bigSep_univ_prod (fun ck : Dev nD × Fin 15 => Ψ' ck.1 ck.2),
    bigSep_univ_equiv swapE (fun ck : Dev nD × Fin 15 => Ψ' ck.1 ck.2)]
  exact bigSep_congr fun ok _ => (h ok.1 ok.2).symm

/-- Fifteen places on and then the rest of the way round is where one started. -/
theorem peer_back (o : Dev nD) (k : Fin 15) : peer (peer o (k.val + 1)) ((swap (o, k)).2.val + 1) = o := by
  have hk := k.isLt
  show peer (peer o (k.val + 1)) (14 - k.val + 1) = o
  rw [peer_peer, show k.val + 1 + (14 - k.val + 1) = 16 from by omega, peer_16]

/-- The tokens minted per owner are the tokens held per payer. -/
theorem toks_around : (bigSep Finset.univ fun c : Dev nD => (toks c : sProp 𝕄)) ⊢ bigSep Finset.univ fun c : Dev nD => payToks c := by
  unfold toks payToks
  simp only [bigSep_sep']
  rw [reindex (fun o k => (dutyTok ER (barCell o) 0 (peer o (k.val + 1)) : sProp 𝕄))
      (fun c k => dutyTok ER (barCell (peer c (k.val + 1))) 0 c)
      (fun o k => by
        show (dutyTok ER (barCell (peer (peer o (k.val + 1)) ((swap (o, k)).2.val + 1))) 0 (peer o (k.val + 1)) : sProp 𝕄) = _
        rw [peer_back]),
    reindex (fun o k => (dutyTok ER (recvCell o (peer o (k.val + 1))) 0 0 : sProp 𝕄))
      (fun c k => dutyTok ER (recvCell (peer c (k.val + 1)) c) 0 0)
      (fun o k => by
        show (dutyTok ER (recvCell (peer (peer o (k.val + 1)) ((swap (o, k)).2.val + 1)) (peer o (k.val + 1))) 0 0 : sProp 𝕄) = _
        rw [peer_back])]

/-! ### The global step -/

theorem ghost_intro (K : Dev nD × CellIx → ℕ) (c : Dev nD) : iprop(records m K ∗ linear c) ⊢ G' m c := by
  unfold G' ghost
  iintro H
  iexists K
  iexact H

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j : CellIx => iprop(∃ κ : ℕ, cellInv ER (Rd m) κ (kcell (c, j))))
          ∗ (bigSep Finset.univ fun j : CellIx => iprop(atPos ER (kcell (c, j)) 0 ∅ 0 ∗ reached ER (kcell (c, j)) 0)) ∗ toks c) : sProp 𝕄)
      ⊢ bigSep Finset.univ (G' m) := by
  rw [bigSep_sep', bigSep_sep', ← bigSep_univ_prod (fun ck : Dev nD × CellIx => iprop(∃ κ : ℕ, cellInv ER (Rd m) κ (kcell ck))),
    bigSep_congr (s := Finset.univ) (fun (c : Dev nD) _ => bigSep_sep' Finset.univ (fun j : CellIx => (atPos ER (kcell (c, j)) 0 ∅ 0 : sProp 𝕄)) (fun j => reached ER (kcell (c, j)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun j : CellIx => (atPos ER (kcell (c, j)) 0 ∅ 0 : sProp 𝕄)) payToks).symm).trans
      (bigSep_mono fun c _ => show _ ⊢ linear c from Entails.of_eq (by unfold linear; rfl)))
    isplitl [Hat]; · iexact Hat
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Hand

end

/-- info: 'Cert.KernelIdeal.Hand.fund_ring' depends on axioms: [propext, Classical.choice, Quot.sound] -/
#guard_msgs in #print axioms Cert.KernelIdeal.Hand.fund_ring
/-- info: 'Cert.KernelIdeal.Hand.glob' depends on axioms: [propext, Classical.choice, Quot.sound] -/
#guard_msgs in #print axioms Cert.KernelIdeal.Hand.glob
-- ==== Proof.KernelIdeal.Steps.lean ====
/-
  The four kinds of step a device's body takes on the exchange's cells, each stated once for the device `k`
  places on (`1 ≤ k ≤ 15`): the unit signalled to its barrier cell, the copy of the own slot to it, the wait
  for its copy's landing, the wait for the own copy's source to be read. The semaphores and the addressed
  device are taken as the program spells them, with the equation to the protocol's names beside them.
-/
import proofs.«900603_g7700000000000604_dist_softmax_colshard_i_m512_n256_v7x_i16_bf16_1_alg».proof.Proof.KernelIdeal.Data

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores as the program spells them -/

theorem sendSem_spell : ∀ (c : Dev nD) (r : Fin 15),
    ((cc0_scratch1.slice (Rect.unit (s := S16) (k0_off2 c (BitVec.ofNat 32 (1 + r.val))) S1.size (k0_off2_inb c r))).squeeze S_ squeezes_S1_S_).sem
      = sendSem (peer c (1 + r.val)) := by decide +kernel
theorem recvSem_spell : ∀ (c : Dev nD) (r : Fin 15),
    ((cc0_scratch2.slice (Rect.unit (s := S16) (k0_off2 c (BitVec.ofNat 32 (1 + r.val))) S1.size (k0_off2_inb c r))).squeeze S_ squeezes_S1_S_).sem
      = recvSem (peer c (1 + r.val)) := by decide +kernel
theorem recvSem_own : ∀ (c : Dev nD),
    ((cc0_scratch2.slice (Rect.unit (s := S16) (k0_off3 c) S1.size (k0_off3_inb c))).squeeze S_ squeezes_S1_S_).sem = recvSem c := by decide +kernel

theorem peer_ne (c : Dev nD) (k : ℕ) (hk : 1 ≤ k ∧ k ≤ 15) : peer c k ≠ c := fun h => by
  have := congrArg Fin.val h; simp only [peer] at this; have hc : c.val < 16 := c.isLt; omega
theorem ne_peer (c : Dev nD) (k : ℕ) (hk : 1 ≤ k ∧ k ≤ 15) : c ≠ peer c k := fun h => peer_ne c k hk h.symm
theorem tokIx_peer (c : Dev nD) (k : ℕ) (hk : 1 ≤ k ∧ k ≤ 15) : tokIx c (peer c k) = k - 1 := by
  simp only [tokIx, peer]; have hc : c.val < 16 := c.isLt; omega

/-! ## Reading the persistent records -/

theorem inv_at (K : Dev nD × CellIx → ℕ) (ck : Dev nD × CellIx) :
    (records m K : sProp 𝕄) ⊢ cellInv ER (Rd m) (K ck) (kcell ck) := by
  unfold records; iintro ⟨H, -⟩
  iapply (show (bigSep Finset.univ fun ck : Dev nD × CellIx => (cellInv ER (Rd m) (K ck) (kcell ck) : sProp 𝕄)) ⊢ cellInv ER (Rd m) (K ck) (kcell ck)
    from bigSep_elim (Finset.mem_univ ck))
  iexact H
theorem reached_at (K : Dev nD × CellIx → ℕ) (ck : Dev nD × CellIx) :
    (records m K : sProp 𝕄) ⊢ reached ER (kcell ck) 0 := by
  unfold records; iintro ⟨-, H⟩
  iapply (show (bigSep Finset.univ fun ck : Dev nD × CellIx => (reached ER (kcell ck) 0 : sProp 𝕄)) ⊢ reached ER (kcell ck) 0
    from bigSep_elim (Finset.mem_univ ck))
  iexact H

/-- What a device owes, its recorded waits left unnamed. -/
abbrev OwesE (c : Dev nD) (O : CellTallies nD τ sig Unit) : sProp 𝕄 := iprop(∃ W, owes (c : Thread nD τ) O W)

/-! ## The unit to the barrier cell of the device `15 - j` places on -/

theorem sig_rule (K : Dev nD × CellIx → ℕ) (c : Dev nD) (j : ℕ) (hj : j ≤ 14) {n : Dev nD} (hn : n = peer c (15 - j))
    {α : Type} {Q : α → sProp 𝕄} {kont : PUnit → Prog (TpuEff nD τ sig (Elt F) Λ₀ .tc) α} :
    iprop(records m K ∗ OwesE c (owedB c (j + 1)) ∗ dutyTok ER (barCell (peer c (15 - j))) 0 c ∗ barPay (peer c (15 - j)) c)
      ⊢ iprop((OwesE c (owedB c j) -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n, Proc.tc) barS 1) kont) Q) := by
  subst hn
  iintro ⟨#Hrec, ⟨%W, HO⟩, Htok, Hpay⟩ Hk
  iapply (Rounds.wp_signal 𝒱₀ ER (Rd m) (c : Thread nD τ) none (dst := (peer c (15 - j) : Thread nD τ)) (κ := K (peer c (15 - j), none))
      (d := c) (by rw [duties_bar]; exact Finset.mem_erase.mpr ⟨ne_peer c _ (by omega), Finset.mem_univ _⟩) (amount_bar m _ c) () (owedB c j) rfl)
    $$ [HO Htok Hpay]
  · isplitr; · iapply (inv_at m K (peer c (15 - j), none)); iexact Hrec
    isplitl [HO]; · iexact HO
    isplitl [Htok]; · iexact Htok
    isplitl [Hpay]; · rw [payload_bar]; iexact Hpay
    iapply (reached_at m K (peer c (15 - j), none)); iexact Hrec
  iintro HO
  iapply Hk; iexists W; iexact HO

/-! ## The copy of the own slot to the device `15 - j` places on -/

/-- A slot written whole with what the same slot of device `c` holds is that slot of the gathered array. -/
theorem landed_eq (c c' i : Dev nD) (fd : Buf (Elt F) ((slotM i).view.loc (c' : Thread nD τ))) :
    ((slotM i).view.loc (c' : Thread nD τ) ↦[(slotM i).view.set]{fullShare}
        ((slotM i).view.write (Elt F) fd ((slotM i).view.read (Elt F) (Gall m c)) Finset.univ) : sProp 𝕄)
      = recvPay m c' i := by
  unfold recvPay
  refine BI.Region.is_congr fun x hx => ?_
  obtain ⟨z, -, rfl⟩ := Finset.mem_map.mp hx
  rw [View.write_emb_of_mem _ _ (Finset.mem_univ _)]
  rfl

theorem send_rule (K : Dev nD × CellIx → ℕ) (c : Dev nD) (j : ℕ) (hj : j ≤ 14) {n : Dev nD} (hn : n = peer c (15 - j))
    {sS sR : DmaSem sig} (hsS : sS = sendSem (peer c (15 - j))) (hsR : sR = recvSem c)
    {hsc : (slotM c : Memref sig (Dev.tc n : Thread nD τ).2.kind .vmem S8x128 .f32).view.ref.isScScratch = false}
    {hsrc : (slotM c : Memref sig .tc .vmem S8x128 .f32).view.WordExact} {hdst : (slotM c : Memref sig .tc .vmem S8x128 .f32).view.WordExact}
    {hsem : DmaTarget.Typed .vmem (.dma sR) (.remote (Dev.tc n : Thread nD τ) (slotM c : Memref sig .tc .vmem S8x128 .f32) (.dma sS) hsc)}
    {α : Type} {Q : α → sProp 𝕄} {kont : PUnit → Prog (TpuEff nD τ sig (Elt F) Λ₀ .tc) α}
    (fd : Buf (Elt F) ((slotM c).view.loc (peer c (15 - j) : Thread nD τ))) :
    iprop(records m K
        ∗ ((slotM c).view.loc (c : Thread nD τ) ↦[(slotM c).view.set]{Transfers.shareTokN fullShare (15 - j - 1)} Gall m c)
        ∗ ((slotM c).view.loc (peer c (15 - j) : Thread nD τ) ↦[(slotM c).view.set]{fullShare} fd)
        ∗ OwesE c (owedR c (j + 1))
        ∗ dutyTok ER (sendCell c (peer c (15 - j))) 0 0 ∗ dutyTok ER (recvCell (peer c (15 - j)) c) 0 0)
      ⊢ iprop(((cred (tallyAt (sendCell c (peer c (15 - j))) () N) ∗ OwesE c (owedR c j))
              -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slotM c) (.remote (Dev.tc n : Thread nD τ) (slotM c) (.dma sS) hsc) (.dma sR) hsrc hdst hsem) kont) Q) := by
  subst hn hsS hsR
  have hk : 1 ≤ 15 - j ∧ 15 - j ≤ 15 := by omega
  iintro ⟨#Hrec, Hsrc, Hdst, ⟨%W, HO⟩, HtS, HtR⟩ Hk
  iapply (Rounds.wp_send_pointsTo 𝒱₀ ER (Rd m) (c : Thread nD τ) none (c' := (peer c (15 - j) : Thread nD τ))
      (src := slotM c) (dst := slotM c) (q := Transfers.shareTokN fullShare (15 - j - 1)) (fs := Gall m c)
      (κ₁ := K (c, some (false, peer c (15 - j)))) (κ₂ := K (peer c (15 - j), some (true, c)))
      (r₁ := 0) (r₂ := 0) (d₁ := 0) (d₂ := 0) (fd := fd)
      (by rw [duties_send m c _ (peer_ne c _ hk)]; exact Finset.mem_singleton_self _)
      (by rw [duties_recv m _ c (ne_peer c _ hk)]; exact Finset.mem_singleton_self _)
      () () N rfl (amount_send m c _ 0) (amount_recv m _ c 0) (owedR c j) rfl (W := W)
      (by rw [payload_send]; unfold sendPay; rw [tokIx_peer c _ hk])
      (by rw [payload_recv]; exact Entails.of_eq (landed_eq m c _ c fd)))
    $$ [Hsrc Hdst HO HtS HtR]
  · isplitr; · iapply (inv_at m K (c, some (false, peer c (15 - j)))); iexact Hrec
    isplitr; · iapply (inv_at m K (peer c (15 - j), some (true, c))); iexact Hrec
    isplitl [Hsrc]; · iexact Hsrc
    isplitl [Hdst]; · iexact Hdst
    isplitl [HO]; · iexact HO
    isplitl [HtS]; · iexact HtS
    isplitr; · iapply (reached_at m K (c, some (false, peer c (15 - j)))); iexact Hrec
    isplitl [HtR]; · iexact HtR
    iapply (reached_at m K (peer c (15 - j), some (true, c))); iexact Hrec
  iintro ⟨Hc, HO⟩
  iapply Hk
  isplitl [Hc]; · iexact Hc
  iexists W; iexact HO

/-! ## The two waits -/

theorem rest_recv (c i : Dev nD) (h : i ≠ c) :
    bigSep ((Rd (F := F) m).duties (recvCell c i) 0 \ ∅) (fun d => (Rd (F := F) m).payload (recvCell c i) 0 d) = recvPay m c i := by
  rw [Finset.sdiff_empty, duties_recv m c i h, bigSep_singleton, payload_recv]
theorem rest_send (c i : Dev nD) (h : i ≠ c) :
    bigSep ((Rd (F := F) m).duties (sendCell c i) 0 \ ∅) (fun d => (Rd (F := F) m).payload (sendCell c i) 0 d) = sendPay m c i := by
  rw [Finset.sdiff_empty, duties_send m c i h, bigSep_singleton, payload_send]

/-- The wait for the copy from the device `k` places on: its slot comes with it. -/
theorem rwait_rule (K : Dev nD × CellIx → ℕ) (c : Dev nD) (k : ℕ) (hk : 1 ≤ k ∧ k ≤ 15) {sR : DmaSem sig} (hsR : sR = recvSem (peer c k))
    {src dst : Memref sig .tc .vmem S8x128 .f32} {hsrc : src.view.WordExact} {hdst : dst.view.WordExact} (hcr : dst.view.dmaCredit = N)
    {α : Type} {Q : α → sProp 𝕄} {kont : PUnit → Prog (TpuEff nD τ sig (Elt F) Λ₀ .tc) α} :
    iprop(records m K ∗ cred (tallyAt (recvCell c (peer c k)) () N) ∗ OwesE c 0 ∗ atPos ER (recvCell c (peer c k)) 0 ∅ 0)
      ⊢ iprop(((OwesE c 0 ∗ atPos ER (recvCell c (peer c k)) (0 + 1) ∅ 0 ∗ recvPay m c (peer c k))
              -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sR src dst hsrc hdst) kont) Q) := by
  subst hsR
  iintro ⟨#Hrec, Hc, ⟨%W, HO⟩, Hat⟩ Hk
  ihave Hc' := (Entails.of_eq (show (cred (tallyAt (recvCell c (peer c k)) () N) : sProp 𝕄) = cred (tallyAt (recvCell c (peer c k)) () dst.view.dmaCredit) by rw [hcr])) $$ Hc
  iapply (Rounds.wp_wait_rest_token 𝒱₀ ER (Rd m) (c : Thread nD τ) none (κ := K (c, some (true, peer c k)))
      (wpE_waitDma2_eq 𝒱₀ (c : Thread nD τ) none Set.univ) (Set.mem_univ _) () (O := 0) (W := W) (R := 0) (m := 0) (T := ∅)
      (by rw [Nat.zero_add, expect_recv m c _ (peer_ne c k hk), hcr])) $$ [Hc' HO Hat]
  · isplitr; · iapply (inv_at m K (c, some (true, peer c k))); iexact Hrec
    isplitl [Hc']; · iexact Hc'
    isplitl [HO]; · iexact HO
    isplitr; · rw [MayWait_zero]; iempintro
    iexact Hat
  iintro ⟨HO, Hat, -, Hpay⟩
  ihave Hp := (Entails.of_eq (rest_recv m c (peer c k) (peer_ne c k hk))) $$ Hpay
  iapply Hk
  isplitl [HO]; · iexists _; iexact HO
  isplitl [Hat]; · iexact Hat
  iexact Hp

/-- The wait for the copy to the device `k` places on to have read its source: the share it was lent comes back. -/
theorem swait_rule (K : Dev nD × CellIx → ℕ) (c : Dev nD) (k : ℕ) (hk : 1 ≤ k ∧ k ≤ 15) {sS : DmaSem sig} (hsS : sS = sendSem (peer c k))
    {src dst : Memref sig .tc .vmem S8x128 .f32} {hsrc : src.view.WordExact} {hdst : dst.view.WordExact} (hcr : dst.view.dmaCredit = N)
    {α : Type} {Q : α → sProp 𝕄} {kont : PUnit → Prog (TpuEff nD τ sig (Elt F) Λ₀ .tc) α} :
    iprop(records m K ∗ cred (tallyAt (sendCell c (peer c k)) () N) ∗ OwesE c 0 ∗ atPos ER (sendCell c (peer c k)) 0 ∅ 0)
      ⊢ iprop(((OwesE c 0 ∗ atPos ER (sendCell c (peer c k)) (0 + 1) ∅ 0
                ∗ ((slotM c).view.loc (c : Thread nD τ) ↦[(slotM c).view.set]{Transfers.shareTokN fullShare (k - 1)} Gall m c))
              -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sS src dst hsrc hdst) kont) Q) := by
  subst hsS
  iintro ⟨#Hrec, Hc, ⟨%W, HO⟩, Hat⟩ Hk
  ihave Hc' := (Entails.of_eq (show (cred (tallyAt (sendCell c (peer c k)) () N) : sProp 𝕄) = cred (tallyAt (sendCell c (peer c k)) () dst.view.dmaCredit) by rw [hcr])) $$ Hc
  iapply (Rounds.wp_wait_rest_token 𝒱₀ ER (Rd m) (c : Thread nD τ) none (κ := K (c, some (false, peer c k)))
      (wpE_waitDma2_eq 𝒱₀ (c : Thread nD τ) none Set.univ) (Set.mem_univ _) () (O := 0) (W := W) (R := 0) (m := 0) (T := ∅)
      (by rw [Nat.zero_add, expect_send m c _ (peer_ne c k hk), hcr])) $$ [Hc' HO Hat]
  · isplitr; · iapply (inv_at m K (c, some (false, peer c k))); iexact Hrec
    isplitl [Hc']; · iexact Hc'
    isplitl [HO]; · iexact HO
    isplitr; · rw [MayWait_zero]; iempintro
    iexact Hat
  iintro ⟨HO, Hat, -, Hpay⟩
  ihave Hp := (Entails.of_eq ((rest_send m c (peer c k) (peer_ne c k hk)).trans (by unfold sendPay; rw [tokIx_peer c k hk]))) $$ Hpay
  iapply Hk
  isplitl [HO]; · iexists _; iexact HO
  isplitl [Hat]; · iexact Hat
  iexact Hp

end Cert.KernelIdeal.Hand

end
-- ==== Proof.KernelIdeal.Slots.lean ====
/-
  The gather buffer held slot by slot and share by share.

  A device's gather buffer `[16, 8, 128]` is the disjoint union of its sixteen slots, slot `i` the rows
  `(i, ·, ·)`; the devices are `c` and the fifteen devices `1 … 15` places on. A device keeps its own slot,
  writes its statistics there, lends fifteen read shares of it to its copies and keeps the rest; the other
  fifteen slots come back from the receive cells holding the other devices' statistics. For the one load of
  the whole buffer the sixteen slots are joined at the kept share; at the end all shares are joined again
  and the buffer is whole. The result block is filled by four stores of 128 rows each.
-/
import proofs.«900603_g7700000000000604_dist_softmax_colshard_i_m512_n256_v7x_i16_bf16_1_alg».proof.Proof.KernelIdeal.Data

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The devices and the slots, enumerated -/

/-- The sixteen devices are `c` and the fifteen devices `1 … 15` places on. -/
theorem dev_split (c : Dev nD) (Ψ : Dev nD → sProp 𝕄) :
    bigSep Finset.univ Ψ = iprop(Ψ c ∗ Ψ (peer c 1) ∗ Ψ (peer c 2) ∗ Ψ (peer c 3) ∗ Ψ (peer c 4) ∗ Ψ (peer c 5) ∗ Ψ (peer c 6) ∗ Ψ (peer c 7) ∗ Ψ (peer c 8) ∗ Ψ (peer c 9) ∗ Ψ (peer c 10) ∗ Ψ (peer c 11) ∗ Ψ (peer c 12) ∗ Ψ (peer c 13) ∗ Ψ (peer c 14) ∗ Ψ (peer c 15)) :=
  bigSep_univ_eq_bigSepL [c, peer c 1, peer c 2, peer c 3, peer c 4, peer c 5, peer c 6, peer c 7, peer c 8, peer c 9, peer c 10, peer c 11, peer c 12, peer c 13, peer c 14, peer c 15] (by revert c; decide) (by revert c; decide) Ψ

theorem dev_erase_split (c : Dev nD) (Ψ : Dev nD → sProp 𝕄) :
    bigSep (Finset.univ.erase c) Ψ = iprop(Ψ (peer c 1) ∗ Ψ (peer c 2) ∗ Ψ (peer c 3) ∗ Ψ (peer c 4) ∗ Ψ (peer c 5) ∗ Ψ (peer c 6) ∗ Ψ (peer c 7) ∗ Ψ (peer c 8) ∗ Ψ (peer c 9) ∗ Ψ (peer c 10) ∗ Ψ (peer c 11) ∗ Ψ (peer c 12) ∗ Ψ (peer c 13) ∗ Ψ (peer c 14) ∗ Ψ (peer c 15)) :=
  bigSep_eq_bigSepL_of_eq [peer c 1, peer c 2, peer c 3, peer c 4, peer c 5, peer c 6, peer c 7, peer c 8, peer c 9, peer c 10, peer c 11, peer c 12, peer c 13, peer c 14, peer c 15] (by revert c; decide) (by revert c; decide) Ψ

/-- A product over an option type: the summand at none, and the product over the rest. -/
private theorem bigSep_univ_option {α : Type} [Fintype α] [DecidableEq α] (Φ : Option α → sProp 𝕄) :
    bigSep Finset.univ Φ = iprop(Φ none ∗ bigSep Finset.univ fun a : α => Φ (some a)) := by
  have h : (Finset.univ : Finset (Option α)).erase none = Finset.univ.map Function.Embedding.some := by
    ext x
    cases x <;> simp
  rw [bigSep_univ_split none, h, bigSep_map]
  rfl

private theorem bigSep_univ_bool (Φ : Bool → sProp 𝕄) : bigSep Finset.univ Φ = iprop(Φ false ∗ Φ true) :=
  bigSep_univ_eq_bigSepL [false, true] (by decide) (by decide) Φ

/-- A device's cells: its barrier cell, its sixteen send cells, its sixteen receive cells. -/
theorem cell_split (Ψ : CellIx → sProp 𝕄) :
    bigSep Finset.univ Ψ = iprop(Ψ none ∗ (bigSep Finset.univ fun i : Dev nD => Ψ (some (false, i))) ∗ bigSep Finset.univ fun i : Dev nD => Ψ (some (true, i))) := by
  rw [bigSep_univ_option, bigSep_univ_prod, bigSep_univ_bool]

/-- The thirty-two scoped cells: the sixteen send cells, then the sixteen receive cells, each from `c` round. -/
theorem bool_dev_split (c : Dev nD) (Ψ : Bool × Dev nD → sProp 𝕄) :
    bigSep Finset.univ Ψ = iprop((Ψ (false, c) ∗ Ψ (false, peer c 1) ∗ Ψ (false, peer c 2) ∗ Ψ (false, peer c 3) ∗ Ψ (false, peer c 4) ∗ Ψ (false, peer c 5) ∗ Ψ (false, peer c 6) ∗ Ψ (false, peer c 7) ∗ Ψ (false, peer c 8) ∗ Ψ (false, peer c 9) ∗ Ψ (false, peer c 10) ∗ Ψ (false, peer c 11) ∗ Ψ (false, peer c 12) ∗ Ψ (false, peer c 13) ∗ Ψ (false, peer c 14) ∗ Ψ (false, peer c 15)) ∗ (Ψ (true, c) ∗ Ψ (true, peer c 1) ∗ Ψ (true, peer c 2) ∗ Ψ (true, peer c 3) ∗ Ψ (true, peer c 4) ∗ Ψ (true, peer c 5) ∗ Ψ (true, peer c 6) ∗ Ψ (true, peer c 7) ∗ Ψ (true, peer c 8) ∗ Ψ (true, peer c 9) ∗ Ψ (true, peer c 10) ∗ Ψ (true, peer c 11) ∗ Ψ (true, peer c 12) ∗ Ψ (true, peer c 13) ∗ Ψ (true, peer c 14) ∗ Ψ (true, peer c 15))) := by
  rw [bigSep_univ_prod, bigSep_univ_bool, dev_split c, dev_split c]

/-- Slot i of the gather buffer is the unit rectangle at row i. -/
theorem slot_set (i : Dev nD) : (slotM i).view.set = (slotR i).set := by
  simp only [Memref.view_squeeze, View.set_reshape, Memref.view_slice, Memref.view_whole, View.set_slice_whole]

/-- Different slots share no element; -/
theorem slot_disjoint (b b' : Dev nD) (h : b ≠ b') : Disjoint (slotR b).set (slotR b').set :=
  Ring.lead_disjoint (s := S16x8x128) (NB := 16) 0 1 k0_off4 S1x8x128.size k0_off4_inb
    (fun b => by rw [k0_off4_eq]; show b.val = 1 * b.val; omega) rfl b b' h

/-- and the sixteen slots are the whole buffer. -/
theorem slot_cover : Finset.univ.biUnion (fun b : Dev nD => (slotR b).set) = Finset.univ :=
  Ring.lead_cover (s := S16x8x128) (NB := 16) 0 1 k0_off4 S1x8x128.size k0_off4_inb
    (fun b => by rw [k0_off4_eq]; show b.val = 1 * b.val; omega)
    (fun b a ha => by
      rw [k0_off4_eq]
      fin_cases a
      · exact absurd rfl ha
      · rfl
      · rfl)
    rfl
    (fun a ha => by
      fin_cases a
      · exact absurd rfl ha
      · rfl
      · rfl)
    rfl

/-- The elements of slot i, as elements of device c's gather buffer. -/
def slotI (c i : Dev nD) : Finset (Idx ((c : Thread nD τ).loc cc0_scratch0)) := (slotR i).set

theorem slotI_disjoint (c b b' : Dev nD) (h : b ≠ b') : Disjoint (slotI c b) (slotI c b') := slot_disjoint b b' h

theorem slotI_cover (c : Dev nD) : Finset.univ.biUnion (fun b : Dev nD => slotI c b) = Finset.univ := slot_cover

/-- The gather buffer held whole is held slot by slot, at any share. -/
theorem scr_split (c : Dev nD) (q : PosShare TreeShare) (f : Buf (Elt F) ((c : Thread nD τ).loc cc0_scratch0)) :
    ((((c : Thread nD τ).loc cc0_scratch0) ↦{q} f) : sProp 𝕄)
      = bigSep Finset.univ fun i : Dev nD => ((slotM i).view.loc (c : Thread nD τ) ↦[(slotM i).view.set]{q} f) := by
  have h : ((((c : Thread nD τ).loc cc0_scratch0) ↦{q} f) : sProp 𝕄)
      = bigSep Finset.univ fun i : Dev nD => (((c : Thread nD τ).loc cc0_scratch0) ↦[slotI c i]{q} f) :=
    Ring.pointsTo_blocks (slotI c) (slotI_disjoint c) (slotI_cover c) f
  exact h.trans (bigSep_congr fun i _ => by rw [slot_set]; rfl)

/-! ## The own slot lent -/

/-- The own slot at the full share is the kept share and the fifteen read shares the copies are lent. -/
theorem own_lend (c : Dev nD) :
    ((slotM c).view.loc (c : Thread nD τ) ↦[(slotM c).view.set]{fullShare} Gall m c : sProp 𝕄)
      ⊣⊢ iprop(((slotM c).view.loc (c : Thread nD τ) ↦[(slotM c).view.set]{Transfers.shareDrop fullShare 15} Gall m c)
          ∗ ((slotM c).view.loc (c : Thread nD τ) ↦[(slotM c).view.set]{Transfers.shareTokN fullShare 0} Gall m c) ∗ ((slotM c).view.loc (c : Thread nD τ) ↦[(slotM c).view.set]{Transfers.shareTokN fullShare 1} Gall m c) ∗ ((slotM c).view.loc (c : Thread nD τ) ↦[(slotM c).view.set]{Transfers.shareTokN fullShare 2} Gall m c) ∗ ((slotM c).view.loc (c : Thread nD τ) ↦[(slotM c).view.set]{Transfers.shareTokN fullShare 3} Gall m c) ∗ ((slotM c).view.loc (c : Thread nD τ) ↦[(slotM c).view.set]{Transfers.shareTokN fullShare 4} Gall m c) ∗ ((slotM c).view.loc (c : Thread nD τ) ↦[(slotM c).view.set]{Transfers.shareTokN fullShare 5} Gall m c) ∗ ((slotM c).view.loc (c : Thread nD τ) ↦[(slotM c).view.set]{Transfers.shareTokN fullShare 6} Gall m c) ∗ ((slotM c).view.loc (c : Thread nD τ) ↦[(slotM c).view.set]{Transfers.shareTokN fullShare 7} Gall m c) ∗ ((slotM c).view.loc (c : Thread nD τ) ↦[(slotM c).view.set]{Transfers.shareTokN fullShare 8} Gall m c) ∗ ((slotM c).view.loc (c : Thread nD τ) ↦[(slotM c).view.set]{Transfers.shareTokN fullShare 9} Gall m c) ∗ ((slotM c).view.loc (c : Thread nD τ) ↦[(slotM c).view.set]{Transfers.shareTokN fullShare 10} Gall m c) ∗ ((slotM c).view.loc (c : Thread nD τ) ↦[(slotM c).view.set]{Transfers.shareTokN fullShare 11} Gall m c) ∗ ((slotM c).view.loc (c : Thread nD τ) ↦[(slotM c).view.set]{Transfers.shareTokN fullShare 12} Gall m c) ∗ ((slotM c).view.loc (c : Thread nD τ) ↦[(slotM c).view.set]{Transfers.shareTokN fullShare 13} Gall m c) ∗ ((slotM c).view.loc (c : Thread nD τ) ↦[(slotM c).view.set]{Transfers.shareTokN fullShare 14} Gall m c)) := by
  have h : ((slotM c).view.loc (c : Thread nD τ) ↦[(slotM c).view.set]{fullShare} Gall m c : sProp 𝕄)
      ⊣⊢ iprop(((slotM c).view.loc (c : Thread nD τ) ↦[(slotM c).view.set]{Transfers.shareDrop fullShare 15} Gall m c)
          ∗ bigSep Finset.univ fun i : Fin 15 => ((slotM c).view.loc (c : Thread nD τ) ↦[(slotM c).view.set]{Transfers.shareTok fullShare 15 i} Gall m c)) :=
    Transfers.pointsTo_toks fullShare 15
  rw [bigSep_fin15] at h
  exact h

/-! ## The whole buffer for the one load, and whole again at the end -/

/-- With the fifteen received slots and the kept share of the own slot, the whole buffer can be read at the kept
    share, and is given back for what it was made of. -/
theorem gathered_access (c : Dev nD) :
    iprop(((slotM c).view.loc (c : Thread nD τ) ↦[(slotM c).view.set]{Transfers.shareDrop fullShare 15} Gall m c)
        ∗ recvPay m c (peer c 1) ∗ recvPay m c (peer c 2) ∗ recvPay m c (peer c 3) ∗ recvPay m c (peer c 4) ∗ recvPay m c (peer c 5) ∗ recvPay m c (peer c 6) ∗ recvPay m c (peer c 7) ∗ recvPay m c (peer c 8) ∗ recvPay m c (peer c 9) ∗ recvPay m c (peer c 10) ∗ recvPay m c (peer c 11) ∗ recvPay m c (peer c 12) ∗ recvPay m c (peer c 13) ∗ recvPay m c (peer c 14) ∗ recvPay m c (peer c 15))
      ⊢ iprop(((((c : Thread nD τ).loc cc0_scratch0) ↦{Transfers.shareDrop fullShare 15} Gall m c) : sProp 𝕄)
          ∗ (((((c : Thread nD τ).loc cc0_scratch0) ↦{Transfers.shareDrop fullShare 15} Gall m c) : sProp 𝕄)
              -∗ iprop(((slotM c).view.loc (c : Thread nD τ) ↦[(slotM c).view.set]{Transfers.shareDrop fullShare 15} Gall m c)
                  ∗ recvPay m c (peer c 1) ∗ recvPay m c (peer c 2) ∗ recvPay m c (peer c 3) ∗ recvPay m c (peer c 4) ∗ recvPay m c (peer c 5) ∗ recvPay m c (peer c 6) ∗ recvPay m c (peer c 7) ∗ recvPay m c (peer c 8) ∗ recvPay m c (peer c 9) ∗ recvPay m c (peer c 10) ∗ recvPay m c (peer c 11) ∗ recvPay m c (peer c 12) ∗ recvPay m c (peer c 13) ∗ recvPay m c (peer c 14) ∗ recvPay m c (peer c 15)))) := by
  unfold recvPay
  rw [← dev_erase_split c (fun i : Dev nD => ((slotM i).view.loc (c : Thread nD τ) ↦[(slotM i).view.set]{fullShare} Gall m c : sProp 𝕄)),
    scr_split c (Transfers.shareDrop fullShare 15) (Gall m c),
    bigSep_univ_at (fun i : Dev nD => ((slotM i).view.loc (c : Thread nD τ) ↦[(slotM i).view.set]{Transfers.shareDrop fullShare 15} Gall m c : sProp 𝕄)) c]
  -- each received slot at the full share is its kept share and its fifteen read shares
  have hs1 : (bigSep (Finset.univ.erase c) fun i : Dev nD => ((slotM i).view.loc (c : Thread nD τ) ↦[(slotM i).view.set]{fullShare} Gall m c : sProp 𝕄))
      ⊢ iprop((bigSep (Finset.univ.erase c) fun i : Dev nD => ((slotM i).view.loc (c : Thread nD τ) ↦[(slotM i).view.set]{Transfers.shareDrop fullShare 15} Gall m c : sProp 𝕄))
          ∗ bigSep (Finset.univ.erase c) fun i : Dev nD => bigSep Finset.univ fun j : Fin 15 =>
              ((slotM i).view.loc (c : Thread nD τ) ↦[(slotM i).view.set]{Transfers.shareTok fullShare 15 j} Gall m c : sProp 𝕄)) :=
    (bigSep_mono fun i _ => Transfers.pointsTo_toks_split fullShare 15).trans (Entails.of_eq (bigSep_sep' _ _ _))
  have hs2 : iprop((bigSep (Finset.univ.erase c) fun i : Dev nD => ((slotM i).view.loc (c : Thread nD τ) ↦[(slotM i).view.set]{Transfers.shareDrop fullShare 15} Gall m c : sProp 𝕄))
          ∗ bigSep (Finset.univ.erase c) fun i : Dev nD => bigSep Finset.univ fun j : Fin 15 =>
              ((slotM i).view.loc (c : Thread nD τ) ↦[(slotM i).view.set]{Transfers.shareTok fullShare 15 j} Gall m c : sProp 𝕄))
      ⊢ (bigSep (Finset.univ.erase c) fun i : Dev nD => ((slotM i).view.loc (c : Thread nD τ) ↦[(slotM i).view.set]{fullShare} Gall m c : sProp 𝕄)) :=
    (Entails.of_eq (bigSep_sep' _ _ _).symm).trans (bigSep_mono fun i _ => Transfers.pointsTo_toks_join fullShare 15)
  iintro ⟨HK, HA⟩
  ihave HA' := hs1 $$ HA
  icases HA' with ⟨HB, HT⟩
  isplitl [HK HB]
  · isplitl [HK] <;> iassumption
  · iintro ⟨HK, HB⟩
    isplitl [HK]; · iexact HK
    iapply hs2
    isplitl [HB] <;> iassumption

/-- The own slot whole again and the fifteen received slots are the buffer whole. -/
theorem scratch_whole (c : Dev nD) :
    iprop(((slotM c).view.loc (c : Thread nD τ) ↦[(slotM c).view.set]{fullShare} Gall m c)
        ∗ recvPay m c (peer c 1) ∗ recvPay m c (peer c 2) ∗ recvPay m c (peer c 3) ∗ recvPay m c (peer c 4) ∗ recvPay m c (peer c 5) ∗ recvPay m c (peer c 6) ∗ recvPay m c (peer c 7) ∗ recvPay m c (peer c 8) ∗ recvPay m c (peer c 9) ∗ recvPay m c (peer c 10) ∗ recvPay m c (peer c 11) ∗ recvPay m c (peer c 12) ∗ recvPay m c (peer c 13) ∗ recvPay m c (peer c 14) ∗ recvPay m c (peer c 15))
      ⊢ (iprop(∃ f : Buf (Elt F) ((c : Thread nD τ).loc cc0_scratch0), ((c : Thread nD τ).loc cc0_scratch0) ↦{fullShare} f) : sProp 𝕄) := by
  unfold recvPay
  rw [← dev_split c (fun i : Dev nD => ((slotM i).view.loc (c : Thread nD τ) ↦[(slotM i).view.set]{fullShare} Gall m c : sProp 𝕄)),
    ← scr_split c fullShare (Gall m c)]
  iintro H
  iexists Gall m c
  iexact H

end Cert.KernelIdeal.Hand

end
-- ==== Proof.KernelIdeal.SlotVals.lean ====
/-
  What the body's loads read and what its stores leave: the own slot after the store of the statistics, the
  whole-buffer loads, and the result block after the four stores of 128 rows each.
-/
import proofs.«900603_g7700000000000604_dist_softmax_colshard_i_m512_n256_v7x_i16_bf16_1_alg».proof.Proof.KernelIdeal.Data

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-! ## The own slot: loaded, stored, lent -/

abbrev ownR (c : Dev nD) : Rect S16x8x128 := Rect.unit (s := S16x8x128) (k0_off1 c) S1x8x128.size (k0_off1_inb c)

/-- The rectangle the statistics are stored through is the own slot's. -/
theorem ownR_eq (c : Dev nD) : ownR c = slotR c :=
  Rect.unit_congr ((k0_off1_eq c).trans (k0_off4_eq c).symm) _ _

theorem own_load_sub (c : Dev nD) : (scrM : Memref sig .tc .vmem S16x8x128 .f32).view.setOn (ownR c).toLoadRect.set ⊆ (slotM c).view.set := by
  rw [ownR_eq]
  show (scrM : Memref sig .tc .vmem S16x8x128 .f32).view.setOn (slotR c).set
      ⊆ (((scrM : Memref sig .tc .vmem S16x8x128 .f32).view.slice (slotR c)).reshape S8x128 squeezes_S1x8x128_S8x128.numel_eq).set
  rw [View.set_reshape, View.set_slice]
  exact Finset.Subset.refl _
theorem own_store_sub (c : Dev nD) : ((scrM : Memref sig .tc .vmem S16x8x128 .f32).access (ownR c)).setOn Finset.univ ⊆ (slotM c).view.set := by
  rw [ownR_eq]
  show ((scrM : Memref sig .tc .vmem S16x8x128 .f32).view.slice (slotR c)).set
      ⊆ (((scrM : Memref sig .tc .vmem S16x8x128 .f32).view.slice (slotR c)).reshape S8x128 squeezes_S1x8x128_S8x128.numel_eq).set
  rw [View.set_reshape]

/-- The own slot after the store of the statistics is the own slot of the gathered array. -/
theorem own_stored (c : Dev nD) (f : Buf (Elt F) ((c : Thread nD τ).loc cc0_scratch0)) :
    (((slotM c).view.loc (c : Thread nD τ) ↦[(slotM c).view.set]{fullShare}
        (((scrM : Memref sig .tc .vmem S16x8x128 .f32).access (ownR c)).write (Elt F) f (stats (xin m c)) Finset.univ)) : sProp 𝕄)
      = ((slotM c).view.loc (c : Thread nD τ) ↦[(slotM c).view.set]{fullShare} Gall m c) := by
  refine pointsTo_congr fun i hi => ?_
  -- an element of the own slot is an element of the rectangle stored through
  have hi' : i ∈ ((scrM : Memref sig .tc .vmem S16x8x128 .f32).access (ownR c)).set := by
    rw [ownR_eq]
    have h := hi
    rw [show (slotM c).view.set = ((scrM : Memref sig .tc .vmem S16x8x128 .f32).view.slice (slotR c)).set from
      View.set_reshape _ _] at h
    exact h
  obtain ⟨y, -, rfl⟩ := Finset.mem_map.mp hi'
  refine (View.write_emb_of_mem (v := (scrM : Memref sig .tc .vmem S16x8x128 .f32).access (ownR c)) f
    (stats (xin m c)) (Finset.mem_univ y)).trans ?_
  -- there the gathered array reads the statistics of the device named by the leading coordinate: this one
  have hoff : k0_off1 c = ![c.val, 0, 0] := k0_off1_eq c
  have hy0 : (y (0 : Fin 3)).val = 0 := by
    have h1 : (y (0 : Fin 3)).val < 1 := (y (0 : Fin 3)).isLt
    omega
  have e0 : ((ownR c).emb y (0 : Fin 3)).val = c.val := by
    show k0_off1 c 0 + 1 * (y (0 : Fin 3)).val = c.val
    rw [hoff, hy0]; rfl
  have e1 : ((ownR c).emb y (1 : Fin 3)).val = (y (1 : Fin 3)).val := by
    show k0_off1 c 1 + 1 * (y (1 : Fin 3)).val = _
    rw [hoff]; show 0 + 1 * (y (1 : Fin 3)).val = _; omega
  have e2 : ((ownR c).emb y (2 : Fin 3)).val = (y (2 : Fin 3)).val := by
    show k0_off1 c 2 + 1 * (y (2 : Fin 3)).val = _
    rw [hoff]; show 0 + 1 * (y (2 : Fin 3)).val = _; omega
  show stats (xin m c) y
      = stats (xin m (⟨((ownR c).emb y (0 : Fin 3)).val, ((ownR c).emb y (0 : Fin 3)).isLt⟩ : Dev nD))
          (ValueIdx.ix3 (0 : Fin 1) ((ownR c).emb y (1 : Fin 3)) ((ownR c).emb y (2 : Fin 3)))
  have hc : (⟨((ownR c).emb y (0 : Fin 3)).val, ((ownR c).emb y (0 : Fin 3)).isLt⟩ : Dev nD) = c := Fin.ext e0
  have hy : ValueIdx.ix3 (0 : Fin 1) ((ownR c).emb y (1 : Fin 3)) ((ownR c).emb y (2 : Fin 3)) = y := by
    funext a
    match a with
    | ⟨0, _⟩ => exact Fin.ext hy0.symm
    | ⟨1, _⟩ => exact Fin.ext e1
    | ⟨2, _⟩ => exact Fin.ext e2
  rw [hc]
  exact (congrArg (stats (xin m c)) hy).symm

/-! ## What the loads read, what the four stores leave -/

theorem read_x (f : (cc0_stg0_0 : Ref sig .tc).ty.Contents (Elt F)) :
    (Memref.whole cc0_stg0_0 : Memref sig .tc .vmem S512x256 .f32).view.readAt (Elt F)
      (Rect.unit (s := S512x256) ![0, 0] S512x256.size inb_S512x256_S512x256_0_0).toLoadRect f = f := by
  refine Memref.readAt_unit_zero (Elt F) cc0_stg0_0 (funext fun a => ?_) inb_S512x256_S512x256_0_0 f
  match a with
  | ⟨0, _⟩ => rfl
  | ⟨1, _⟩ => rfl
theorem read_scr (f : (cc0_scratch0 : Ref sig .tc).ty.Contents (Elt F)) :
    (scrM : Memref sig .tc .vmem S16x8x128 .f32).view.readAt (Elt F)
      (Rect.unit (s := S16x8x128) ![0, 0, 0] S16x8x128.size inb_S16x8x128_S16x8x128_0_0_0).toLoadRect f = f := by
  refine Memref.readAt_unit_zero (Elt F) cc0_scratch0 (funext fun a => ?_) inb_S16x8x128_S16x8x128_0_0_0 f
  match a with
  | ⟨0, _⟩ => rfl
  | ⟨1, _⟩ => rfl
  | ⟨2, _⟩ => rfl

abbrev oM : Memref sig .tc .vmem S512x256 .f32 := Memref.whole cc0_stg1_0
abbrev oR0 : Rect S512x256 := Rect.unit (s := S512x256) ![0, 0] S128x256.size inb_S512x256_S128x256_0_0
abbrev oR1 : Rect S512x256 := Rect.unit (s := S512x256) ![128, 0] S128x256.size inb_S512x256_S128x256_128_0
abbrev oR2 : Rect S512x256 := Rect.unit (s := S512x256) ![256, 0] S128x256.size inb_S512x256_S128x256_256_0
abbrev oR3 : Rect S512x256 := Rect.unit (s := S512x256) ![384, 0] S128x256.size inb_S512x256_S128x256_384_0

/-- A store of 128 rows from row `o` leaves an element of another row as it was. -/
theorem out_write_of_not (o : Nat) (inb : ∀ a, (![o, 0] : Fin 2 → Nat) a + S128x256.size a ≤ S512x256.size a)
    (f : (cc0_stg1_0 : Ref sig .tc).ty.Contents (Elt F)) (w : FVec F S128x256 .f32) (i : S512x256.Idx)
    (h : (i 0).val < o ∨ o + 128 ≤ (i 0).val) :
    ((oM.access (Rect.unit (s := S512x256) ![o, 0] S128x256.size inb)).write (Elt F) f w Finset.univ) i = f i := by
  refine View.write_of_not_mem (v := oM.access (Rect.unit (s := S512x256) ![o, 0] S128x256.size inb)) (Val := Elt F)
    f w Finset.univ (i := i) fun hi => ?_
  have hm : i ∈ (Rect.unit (s := S512x256) ![o, 0] S128x256.size inb).set := by
    have h' : i ∈ ((View.whole (cc0_stg1_0 : Ref sig .tc)).slice
        (Rect.unit (s := S512x256) ![o, 0] S128x256.size inb)).set := hi
    rw [View.set_slice_whole] at h'
    exact h'
  have h0 := (Rect.mem_set_unit.mp hm) (0 : Fin 2)
  have hlo : o ≤ (i 0).val := h0.1
  have hhi : (i 0).val < o + 128 := h0.2
  omega

/-- A store of 128 rows from row `o` leaves, at an element of those rows, the stored vector's entry. -/
theorem out_write_of_mem (o : Nat) (inb : ∀ a, (![o, 0] : Fin 2 → Nat) a + S128x256.size a ≤ S512x256.size a)
    (f : (cc0_stg1_0 : Ref sig .tc).ty.Contents (Elt F)) (w : FVec F S128x256 .f32) (i : S512x256.Idx)
    (hlo : o ≤ (i 0).val) (hhi : (i 0).val < o + 128) :
    ((oM.access (Rect.unit (s := S512x256) ![o, 0] S128x256.size inb)).write (Elt F) f w Finset.univ) i
      = w (ValueIdx.ix2 (⟨(i 0).val - o, by omega⟩ : Fin 128) (i 1)) := by
  have e : (oM.access (Rect.unit (s := S512x256) ![o, 0] S128x256.size inb)).emb
      (ValueIdx.ix2 (⟨(i 0).val - o, by omega⟩ : Fin 128) (i 1)) = i := by
    funext a
    match a with
    | ⟨0, _⟩ => exact Fin.ext (by show o + 1 * ((i 0).val - o) = (i 0).val; omega)
    | ⟨1, _⟩ => exact Fin.ext (by show 0 + 1 * (i 1).val = (i 1).val; omega)
  have hw := View.write_emb_of_mem (v := oM.access (Rect.unit (s := S512x256) ![o, 0] S128x256.size inb))
    (Val := Elt F) f w (M := Finset.univ) (x := ValueIdx.ix2 (⟨(i 0).val - o, by omega⟩ : Fin 128) (i 1))
    (Finset.mem_univ _)
  rw [e] at hw
  exact hw

/-- Four stores of 128 rows each fill the block: whatever it held, it holds `outBlk`. -/
theorem out_writes (x : Vec F S512x256 .f32) (g : Vec F S16x8x128 .f32) (f : (cc0_stg1_0 : Ref sig .tc).ty.Contents (Elt F)) :
    ((oM.access oR3).write (Elt F) ((oM.access oR2).write (Elt F) ((oM.access oR1).write (Elt F) ((oM.access oR0).write (Elt F) f
      (piece0 x g) Finset.univ) (piece1 x g) Finset.univ) (piece2 x g) Finset.univ) (piece3 x g) Finset.univ) = outBlk x g := by
  funext i
  have key : ∀ i : S512x256.Idx,
      ((oM.access oR3).write (Elt F) ((oM.access oR2).write (Elt F) ((oM.access oR1).write (Elt F)
        ((oM.access oR0).write (Elt F) f (piece0 x g) Finset.univ) (piece1 x g) Finset.univ) (piece2 x g) Finset.univ)
        (piece3 x g) Finset.univ) i = outBlk x g i := fun i => by
    have hr : (i 0).val < 512 := ValueIdx.idx2_lt0 i
    unfold outBlk
    by_cases h0 : (i 0).val < 128
    · rw [dif_pos h0]
      refine (out_write_of_not 384 _ _ _ i (Or.inl (by omega))).trans ?_
      refine (out_write_of_not 256 _ _ _ i (Or.inl (by omega))).trans ?_
      refine (out_write_of_not 128 _ _ _ i (Or.inl (by omega))).trans ?_
      exact out_write_of_mem 0 _ _ _ i (by omega) (by omega)
    · rw [dif_neg h0]
      by_cases h1 : (i 0).val < 256
      · rw [dif_pos h1]
        refine (out_write_of_not 384 _ _ _ i (Or.inl (by omega))).trans ?_
        refine (out_write_of_not 256 _ _ _ i (Or.inl (by omega))).trans ?_
        exact out_write_of_mem 128 _ _ _ i (by omega) (by omega)
      · rw [dif_neg h1]
        by_cases h2 : (i 0).val < 384
        · rw [dif_pos h2]
          refine (out_write_of_not 384 _ _ _ i (Or.inl (by omega))).trans ?_
          exact out_write_of_mem 256 _ _ _ i (by omega) (by omega)
        · rw [dif_neg h2]
          exact out_write_of_mem 384 _ _ _ i (by omega) (by omega)
  exact key i

end Cert.KernelIdeal.Hand

end
-- ==== Proof.KernelIdeal.Body.lean ====
/-
  One device's body, stepped from its starting state to its final one.

  In program order: a unit to each of the other fifteen devices' barrier cells, each handing over this device's
  slot for that device's statistics; the input block read, and the own slot overwritten with the device's
  statistics; the wait for the fifteen units, which brings the other devices' slots for THIS device's
  statistics; the own slot copied to each of them, each copy lent one read share of it; the fifteen waits for
  the other devices' copies, each bringing back a slot with that device's statistics; the whole gather buffer
  read at the share the device kept; the result block written, 128 rows at a time; the fifteen waits for the
  own copies' sources to be read, which bring the lent shares back; every own cell closed, its counter at
  zero. The device never waits while owing anything at or below the awaited cell's level.
-/
import proofs.«900603_g7700000000000604_dist_softmax_colshard_i_m512_n256_v7x_i16_bf16_1_alg».proof.Proof.KernelIdeal.Steps
import proofs.«900603_g7700000000000604_dist_softmax_colshard_i_m512_n256_v7x_i16_bf16_1_alg».proof.Proof.KernelIdeal.Slots
import proofs.«900603_g7700000000000604_dist_softmax_colshard_i_m512_n256_v7x_i16_bf16_1_alg».proof.Proof.KernelIdeal.SlotVals
import proofs.«900603_g7700000000000604_dist_softmax_colshard_i_m512_n256_v7x_i16_bf16_1_alg».proof.Proof.Gen.KernelIdeal.Skeleton

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre (K : Dev nD × CellIx → ℕ) (c : Dev nD) : sProp 𝕄 :=
  iprop((ghost m K c ∗ startCred c ∗ levAts L lv ∗ ∃ f : Buf (Elt F) ((c : Thread nD τ).loc cc0_scratch0), ((c : Thread nD τ).loc cc0_scratch0) ↦{fullShare} f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m c))

/-! ## The barrier wait -/

/-- The wait for the fifteen units: each comes with the signalling device's slot for this device's statistics. At this wait
    the device owes the fifteen copies' credit, on receive cells, which lie above its barrier cell. -/
theorem bar_rule (K : Dev nD × CellIx → ℕ) (c : Dev nD)
    {α : Type} {Q : α → sProp 𝕄} {kont : PUnit → Prog (TpuEff nD τ sig (Elt F) Λ₀ .tc) α} :
    iprop(records m K ∗ levAts L lv ∗ cred (tallyAt (barCell c) () 15) ∗ OwesE c (owedR c 15) ∗ atPos ER (barCell c) 0 ∅ 0)
      ⊢ iprop(((OwesE c (owedR c 15) ∗ atPos ER (barCell c) (0 + 1) ∅ 0 ∗ (barPay c (peer c 1) ∗ barPay c (peer c 2) ∗ barPay c (peer c 3) ∗ barPay c (peer c 4) ∗ barPay c (peer c 5) ∗ barPay c (peer c 6) ∗ barPay c (peer c 7) ∗ barPay c (peer c 8) ∗ barPay c (peer c 9) ∗ barPay c (peer c 10) ∗ barPay c (peer c 11) ∗ barPay c (peer c 12) ∗ barPay c (peer c 13) ∗ barPay c (peer c 14) ∗ barPay c (peer c 15)))
              -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS 15) kont) Q) := by
  iintro ⟨#Hrec, #Hlev, Hc, ⟨%W, HO⟩, Hat⟩ Hk
  iapply (Rounds.wp_wait_rest_token 𝒱₀ ER (Rd m) (c : Thread nD τ) none (κ := K (c, none))
      (wpE_semWait_eq 𝒱₀ (c : Thread nD τ) none Set.univ) (Set.mem_univ _) () (O := owedR c 15) (W := W) (R := 0) (m := 0) (T := ∅)
      (by rw [expect_bar])) $$ [Hc HO Hat]
  · isplitr; · iapply (inv_at m K (c, none)); iexact Hrec
    isplitl [Hc]; · iexact Hc
    isplitl [HO]; · iexact HO
    isplitr; · iapply (mayWait_bar c); iexact Hlev
    iexact Hat
  iintro ⟨HO, Hat, -, Hpay⟩
  ihave Hp := (Entails.of_eq (show bigSep ((Rd (F := F) m).duties (barCell c) 0 \ ∅) (fun d => (Rd (F := F) m).payload (barCell c) 0 d)
      = iprop(barPay c (peer c 1) ∗ barPay c (peer c 2) ∗ barPay c (peer c 3) ∗ barPay c (peer c 4) ∗ barPay c (peer c 5) ∗ barPay c (peer c 6) ∗ barPay c (peer c 7) ∗ barPay c (peer c 8) ∗ barPay c (peer c 9) ∗ barPay c (peer c 10) ∗ barPay c (peer c 11) ∗ barPay c (peer c 12) ∗ barPay c (peer c 13) ∗ barPay c (peer c 14) ∗ barPay c (peer c 15)) from by
        rw [Finset.sdiff_empty, duties_bar, dev_erase_split c]; rfl)) $$ Hpay
  iapply Hk
  isplitl [HO]; · iexists _; iexact HO
  isplitl [Hat]; · iexact Hat
  iexact Hp

/-! ## Closing a cell -/

/-- A cell at a round from which no duty remains, nothing of it taken: its owner closes it and keeps the counter at zero. -/
theorem close_rule (K : Dev nD × CellIx → ℕ) (c : Dev nD) (j : CellIx) (R : ℕ)
    (hR : ∀ r, R ≤ r → (Rd (F := F) m).duties (kcell (c, j)) r = ∅) :
    iprop(records m K ∗ atPos ER (kcell (c, j)) R ∅ 0) ⊢ (|={Set.univ}=> semVal (kcell (c, j)) 0 : sProp 𝕄) := by
  iintro ⟨#Hrec, Hat⟩
  iapply (Rounds.cell_close ER (Rd m) (Set.mem_univ (K (c, j))) (fun h => h) hR)
  isplitr; · iapply (inv_at m K (c, j)); iexact Hrec
  iexact Hat

/-- Every slot of the gather buffer, wherever it sits, credits the same amount. -/
theorem slot_credit (off : Fin 3 → ℕ) (h : ∀ a, off a + S1x8x128.size a ≤ S16x8x128.size a) :
    ((scrM.slice (Rect.unit (s := S16x8x128) off S1x8x128.size h) (fun _ => rfl)).squeeze S8x128 squeezes_S1x8x128_S8x128 : Memref sig .tc .vmem S8x128 .f32).view.dmaCredit = N := rfl

open Lean in
set_option hygiene false in
/-- the unit to the device `k` places on -/
local macro "sig_step" k:num : tactic => do
  let n := k.getNat
  let tok := mkIdent (Name.mkSimple s!"HtB{n}")
  let sl := mkIdent (Name.mkSimple s!"Hsl{n}")
  let dv := mkIdent (Name.mkSimple s!"dev{n}_eq")
  let j := Syntax.mkNumLit (toString (15 - n))
  let tokF ← `(frameIdent| $tok:ident)
  let slF ← `(frameIdent| $sl:ident)
  `(tactic| (
    iapply (sig_rule m K c $j (by omega) ($dv c)) $$ [HO $tokF $slF]
    · isplitr; · iexact Hrec
      isplitl [HO]; · iexact HO
      isplitl [$tok]; · iexact $tok
      unfold barPay; iexists f0; iexact $sl
    iintro HO))

open Lean in
set_option hygiene false in
/-- the copy to the device `k` places on -/
local macro "send_step" k:num : tactic => do
  let n := k.getNat
  let tk := mkIdent (Name.mkSimple s!"Htk{n}")
  let hd := mkIdent (Name.mkSimple s!"Hd{n}")
  let fd := mkIdent (Name.mkSimple s!"fd{n}")
  let ts := mkIdent (Name.mkSimple s!"HtS{n}")
  let tr := mkIdent (Name.mkSimple s!"HtR{n}")
  let cs := mkIdent (Name.mkSimple s!"HcS{n}")
  let dv := mkIdent (Name.mkSimple s!"dev{15 + n}_eq")
  let j := Syntax.mkNumLit (toString (15 - n))
  let r := Syntax.mkNumLit (toString (n - 1))
  let tkF ← `(frameIdent| $tk:ident)
  let hdF ← `(frameIdent| $hd:ident)
  let tsF ← `(frameIdent| $ts:ident)
  let trF ← `(frameIdent| $tr:ident)
  let csP ← `(Idealize.SL.ProofMode.icasesPatAlts| $cs:ident)
  `(tactic| (
    iapply (send_rule m K c $j (by omega) ($dv c) (sendSem_spell c ($r : Fin 15)) (recvSem_own c) $fd) $$ [$tkF $hdF HO $tsF $trF]
    · isplitr; · iexact Hrec
      isplitl [$tk]; · iexact $tk
      isplitl [$hd]; · iexact $hd
      isplitl [HO]; · iexact HO
      isplitl [$ts]; · iexact $ts
      iexact $tr
    iintro Hnew
    icases Hnew with ⟨$csP, HO⟩))

open Lean in
set_option hygiene false in
/-- the wait for the copy from the device `k` places on -/
local macro "rwait_step" k:num : tactic => do
  let n := k.getNat
  let cr := mkIdent (Name.mkSimple s!"HcR{n}")
  let at_ := mkIdent (Name.mkSimple s!"HatR{n}")
  let rs := mkIdent (Name.mkSimple s!"Hrs{n}")
  let kk := Syntax.mkNumLit (toString n)
  let r := Syntax.mkNumLit (toString (n - 1))
  let crF ← `(frameIdent| $cr:ident)
  let atF ← `(frameIdent| $at_:ident)
  let atP ← `(Idealize.SL.ProofMode.icasesPatAlts| $at_:ident)
  let rsP ← `(Idealize.SL.ProofMode.icasesPatAlts| $rs:ident)
  `(tactic| (
    iapply (rwait_rule m K c $kk (by decide) (recvSem_spell c ($r : Fin 15)) (slot_credit _ _)) $$ [$crF HO $atF]
    · isplitr; · iexact Hrec
      isplitl [$cr]; · iexact $cr
      isplitl [HO]; · iexact HO
      iexact $at_
    iintro Hnew
    icases Hnew with ⟨HO, $atP, $rsP⟩))

open Lean in
set_option hygiene false in
/-- the wait for the copy to the device `k` places on to have read its source -/
local macro "swait_step" k:num : tactic => do
  let n := k.getNat
  let cs := mkIdent (Name.mkSimple s!"HcS{n}")
  let at_ := mkIdent (Name.mkSimple s!"HatS{n}")
  let tk := mkIdent (Name.mkSimple s!"Htk{n}")
  let kk := Syntax.mkNumLit (toString n)
  let r := Syntax.mkNumLit (toString (n - 1))
  let csF ← `(frameIdent| $cs:ident)
  let atF ← `(frameIdent| $at_:ident)
  let atP ← `(Idealize.SL.ProofMode.icasesPatAlts| $at_:ident)
  let tkP ← `(Idealize.SL.ProofMode.icasesPatAlts| $tk:ident)
  `(tactic| (
    iapply (swait_rule m K c $kk (by decide) (sendSem_spell c ($r : Fin 15)) (slot_credit _ _)) $$ [$csF HO $atF]
    · isplitr; · iexact Hrec
      isplitl [$cs]; · iexact $cs
      isplitl [HO]; · iexact HO
      iexact $at_
    iintro Hnew
    icases Hnew with ⟨HO, $atP, $tkP⟩))

open Lean in
set_option hygiene false in
/-- closing the send cell for the device `k` places on -/
local macro "close_s" k:num : tactic => do
  let n := k.getNat
  let at_ := mkIdent (Name.mkSimple s!"HatS{n}")
  let hz := mkIdent (Name.mkSimple s!"HzS{n}")
  let kk := Syntax.mkNumLit (toString n)
  let atF ← `(frameIdent| $at_:ident)
  let hzP ← `(icasesPat| $hz:ident)
  `(tactic| (
    imod (close_rule m K c (some (false, peer c $kk)) (0 + 1) (duties_later m _)) $$ [$atF] with $hzP
    · isplitr; · iexact Hrec
      iexact $at_))

open Lean in
set_option hygiene false in
/-- closing the receive cell for the device `k` places on -/
local macro "close_r" k:num : tactic => do
  let n := k.getNat
  let at_ := mkIdent (Name.mkSimple s!"HatR{n}")
  let hz := mkIdent (Name.mkSimple s!"HzR{n}")
  let kk := Syntax.mkNumLit (toString n)
  let atF ← `(frameIdent| $at_:ident)
  let hzP ← `(icasesPat| $hz:ident)
  `(tactic| (
    imod (close_rule m K c (some (true, peer c $kk)) (0 + 1) (duties_later m _)) $$ [$atF] with $hzP
    · isplitr; · iexact Hrec
      iexact $at_))

set_option maxRecDepth 65536 in
set_option maxHeartbeats 4000000 in
/-- The body, stepped one rule per effect in program order from `bodyPre` to `bodyPost`. -/
theorem sound_body (K : Dev nD × CellIx → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part18_eq_skeleton]; unfold k0_part18_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel
  simp only [semSignalWord, semWaitWord, Prog.lift, Prog.bind_op, Prog.bind_ret, Prog.pure_eq_ret, wp_deviceId]
  unfold bodyPre ghost linear payToks startCred
  rw [bigSep_fin15, bigSep_fin15, cell_split, dev_split c (fun i => atPos ER (kcell (c, some (false, i))) 0 ∅ 0),
    dev_split c (fun i => atPos ER (kcell (c, some (true, i))) 0 ∅ 0)]
  iintro ⟨⟨⟨⟨#Hrec, ⟨HatB, ⟨HatSc, HatS1, HatS2, HatS3, HatS4, HatS5, HatS6, HatS7, HatS8, HatS9, HatS10, HatS11, HatS12, HatS13, HatS14, HatS15⟩, ⟨HatRc, HatR1, HatR2, HatR3, HatR4, HatR5, HatR6, HatR7, HatR8, HatR9, HatR10, HatR11, HatR12, HatR13, HatR14, HatR15⟩⟩,
      ⟨⟨HtB1, HtS1, HtR1⟩, ⟨HtB2, HtS2, HtR2⟩, ⟨HtB3, HtS3, HtR3⟩, ⟨HtB4, HtS4, HtR4⟩, ⟨HtB5, HtS5, HtR5⟩, ⟨HtB6, HtS6, HtR6⟩, ⟨HtB7, HtS7, HtR7⟩, ⟨HtB8, HtS8, HtR8⟩, ⟨HtB9, HtS9, HtR9⟩, ⟨HtB10, HtS10, HtR10⟩, ⟨HtB11, HtS11, HtR11⟩, ⟨HtB12, HtS12, HtR12⟩, ⟨HtB13, HtS13, HtR13⟩, ⟨HtB14, HtS14, HtR14⟩, ⟨HtB15, HtS15, HtR15⟩⟩⟩,
    ⟨HcB, ⟨HcR1, HcR2, HcR3, HcR4, HcR5, HcR6, HcR7, HcR8, HcR9, HcR10, HcR11, HcR12, HcR13, HcR14, HcR15⟩⟩, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = owedB c 15 from rfl]
  ihave HO := (show owes (c : Thread nD τ) (owedB c 15) W ⊢ (OwesE c (owedB c 15) : sProp 𝕄) from by iintro H; iexists W; iexact H) $$ HO
  -- the gather buffer slot by slot
  ihave Hs1 := (Entails.of_eq (scr_split c fullShare f0)) $$ Hscr
  ihave Hsls := (Entails.of_eq (dev_split c (fun i => ((slotM i).view.loc (c : Thread nD τ) ↦[(slotM i).view.set]{fullShare} f0 : sProp 𝕄)))) $$ Hs1
  icases Hsls with ⟨Hsl0, Hsl1, Hsl2, Hsl3, Hsl4, Hsl5, Hsl6, Hsl7, Hsl8, Hsl9, Hsl10, Hsl11, Hsl12, Hsl13, Hsl14, Hsl15⟩
  -- the fifteen units
  sig_step 1
  sig_step 2
  sig_step 3
  sig_step 4
  sig_step 5
  sig_step 6
  sig_step 7
  sig_step 8
  sig_step 9
  sig_step 10
  sig_step 11
  sig_step 12
  sig_step 13
  sig_step 14
  sig_step 15
  -- the input block, then the own slot: read, then overwritten with the device's statistics
  iapply (wp_load 𝒱₀ (c : Thread nD τ) none Set.univ (m := (Memref.whole cc0_stg0_0 : Memref sig .tc .vmem S512x256 .f32)) (Finset.subset_univ _)) $$ Hx; iintro Hx
  rw [read_x]
  iapply (wp_load 𝒱₀ (c : Thread nD τ) none Set.univ (m := scrM) (own_load_sub c)) $$ Hsl0; iintro Hsl0
  iapply (wp_store 𝒱₀ (c : Thread nD τ) none Set.univ (m := scrM) (r := ownR c) (Mk := Finset.univ) (own_store_sub c)) $$ Hsl0; iintro Hsl0
  ihave Hown := (show (((scrM : Memref sig .tc .vmem S16x8x128 .f32).access (ownR c)).loc (c : Thread nD τ) ↦[(slotM c).view.set]{fullShare}
        (((scrM : Memref sig .tc .vmem S16x8x128 .f32).access (ownR c)).write (Elt F) f0
          (k0_pay12 (k0_pay1 (xstg m ρ c)) (k0_pay3 (xstg m ρ c)) (k0_pay4 (xstg m ρ c)) (k0_pay6 (xstg m ρ c)) (k0_pay7 (xstg m ρ c))) Finset.univ) : sProp 𝕄)
      ⊢ ((slotM c).view.loc (c : Thread nD τ) ↦[(slotM c).view.set]{fullShare} Gall m c) from Entails.of_eq (own_stored m c f0)) $$ Hsl0
  ihave Hl := (own_lend m c).1 $$ Hown
  icases Hl with ⟨Hq0, Htk1, Htk2, Htk3, Htk4, Htk5, Htk6, Htk7, Htk8, Htk9, Htk10, Htk11, Htk12, Htk13, Htk14, Htk15⟩
  -- the barrier wait: each of the fifteen units hands over the signalling device's slot for this device
  iapply (bar_rule m K c) $$ [HcB HO HatB]
  · isplitr; · iexact Hrec
    isplitr; · iexact Hlev
    isplitl [HcB]; · iexact HcB
    isplitl [HO]; · iexact HO
    iexact HatB
  iintro ⟨HO, HatB, Hbp⟩
  unfold barPay
  icases Hbp with ⟨⟨%fd1, Hd1⟩, ⟨%fd2, Hd2⟩, ⟨%fd3, Hd3⟩, ⟨%fd4, Hd4⟩, ⟨%fd5, Hd5⟩, ⟨%fd6, Hd6⟩, ⟨%fd7, Hd7⟩, ⟨%fd8, Hd8⟩, ⟨%fd9, Hd9⟩, ⟨%fd10, Hd10⟩, ⟨%fd11, Hd11⟩, ⟨%fd12, Hd12⟩, ⟨%fd13, Hd13⟩, ⟨%fd14, Hd14⟩, ⟨%fd15, Hd15⟩⟩
  -- the fifteen copies
  send_step 1
  send_step 2
  send_step 3
  send_step 4
  send_step 5
  send_step 6
  send_step 7
  send_step 8
  send_step 9
  send_step 10
  send_step 11
  send_step 12
  send_step 13
  send_step 14
  send_step 15
  -- the fifteen landings
  rwait_step 1
  rwait_step 2
  rwait_step 3
  rwait_step 4
  rwait_step 5
  rwait_step 6
  rwait_step 7
  rwait_step 8
  rwait_step 9
  rwait_step 10
  rwait_step 11
  rwait_step 12
  rwait_step 13
  rwait_step 14
  rwait_step 15
  -- the whole gather buffer, read at the kept share
  ihave Hg := (gathered_access m c) $$ [Hq0 Hrs1 Hrs2 Hrs3 Hrs4 Hrs5 Hrs6 Hrs7 Hrs8 Hrs9 Hrs10 Hrs11 Hrs12 Hrs13 Hrs14 Hrs15]
  · isplitl [Hq0]; · iexact Hq0
    isplitl [Hrs1]; · iexact Hrs1
    isplitl [Hrs2]; · iexact Hrs2
    isplitl [Hrs3]; · iexact Hrs3
    isplitl [Hrs4]; · iexact Hrs4
    isplitl [Hrs5]; · iexact Hrs5
    isplitl [Hrs6]; · iexact Hrs6
    isplitl [Hrs7]; · iexact Hrs7
    isplitl [Hrs8]; · iexact Hrs8
    isplitl [Hrs9]; · iexact Hrs9
    isplitl [Hrs10]; · iexact Hrs10
    isplitl [Hrs11]; · iexact Hrs11
    isplitl [Hrs12]; · iexact Hrs12
    isplitl [Hrs13]; · iexact Hrs13
    isplitl [Hrs14]; · iexact Hrs14
    iexact Hrs15
  icases Hg with ⟨Hwhole, Hback⟩
  iapply (wp_load 𝒱₀ (c : Thread nD τ) none Set.univ (m := scrM) (Finset.subset_univ _)) $$ Hwhole; iintro Hwhole
  rw [read_scr]
  ihave Hg := Hback $$ Hwhole
  icases Hg with ⟨Hq0, Hrs1, Hrs2, Hrs3, Hrs4, Hrs5, Hrs6, Hrs7, Hrs8, Hrs9, Hrs10, Hrs11, Hrs12, Hrs13, Hrs14, Hrs15⟩
  -- the result block, 128 rows at a time
  iapply (wp_load 𝒱₀ (c : Thread nD τ) none Set.univ (m := oM) (Finset.subset_univ _)) $$ Hout; iintro Hout
  iapply (wp_store 𝒱₀ (c : Thread nD τ) none Set.univ (m := oM) (r := oR0) (Mk := Finset.univ) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := oR1) (Mk := Finset.univ) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := oR2) (Mk := Finset.univ) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := oR3) (Mk := Finset.univ) (Finset.subset_univ _)) $$ Hout; iintro Hout
  -- the fifteen sources read: the lent shares come back
  swait_step 1
  swait_step 2
  swait_step 3
  swait_step 4
  swait_step 5
  swait_step 6
  swait_step 7
  swait_step 8
  swait_step 9
  swait_step 10
  swait_step 11
  swait_step 12
  swait_step 13
  swait_step 14
  swait_step 15
  -- every own cell is spent: closed, its counter at zero
  imod (close_rule m K c (some (false, c)) 0 (duties_send_self m c)) $$ [HatSc] with HzSc
  · isplitr; · iexact Hrec
    iexact HatSc
  close_s 1
  close_s 2
  close_s 3
  close_s 4
  close_s 5
  close_s 6
  close_s 7
  close_s 8
  close_s 9
  close_s 10
  close_s 11
  close_s 12
  close_s 13
  close_s 14
  close_s 15
  imod (close_rule m K c (some (true, c)) 0 (duties_recv_self m c)) $$ [HatRc] with HzRc
  · isplitr; · iexact Hrec
    iexact HatRc
  close_r 1
  close_r 2
  close_r 3
  close_r 4
  close_r 5
  close_r 6
  close_r 7
  close_r 8
  close_r 9
  close_r 10
  close_r 11
  close_r 12
  close_r 13
  close_r 14
  close_r 15
  -- the own slot whole again, then the buffer
  ihave Hown := (own_lend m c).2 $$ [Hq0 Htk1 Htk2 Htk3 Htk4 Htk5 Htk6 Htk7 Htk8 Htk9 Htk10 Htk11 Htk12 Htk13 Htk14 Htk15]
  · isplitl [Hq0]; · iexact Hq0
    isplitl [Htk1]; · iexact Htk1
    isplitl [Htk2]; · iexact Htk2
    isplitl [Htk3]; · iexact Htk3
    isplitl [Htk4]; · iexact Htk4
    isplitl [Htk5]; · iexact Htk5
    isplitl [Htk6]; · iexact Htk6
    isplitl [Htk7]; · iexact Htk7
    isplitl [Htk8]; · iexact Htk8
    isplitl [Htk9]; · iexact Htk9
    isplitl [Htk10]; · iexact Htk10
    isplitl [Htk11]; · iexact Htk11
    isplitl [Htk12]; · iexact Htk12
    isplitl [Htk13]; · iexact Htk13
    isplitl [Htk14]; · iexact Htk14
    iexact Htk15
  ihave Hscr := (scratch_whole m c) $$ [Hown Hrs1 Hrs2 Hrs3 Hrs4 Hrs5 Hrs6 Hrs7 Hrs8 Hrs9 Hrs10 Hrs11 Hrs12 Hrs13 Hrs14 Hrs15]
  · isplitl [Hown]; · iexact Hown
    isplitl [Hrs1]; · iexact Hrs1
    isplitl [Hrs2]; · iexact Hrs2
    isplitl [Hrs3]; · iexact Hrs3
    isplitl [Hrs4]; · iexact Hrs4
    isplitl [Hrs5]; · iexact Hrs5
    isplitl [Hrs6]; · iexact Hrs6
    isplitl [Hrs7]; · iexact Hrs7
    isplitl [Hrs8]; · iexact Hrs8
    isplitl [Hrs9]; · iexact Hrs9
    isplitl [Hrs10]; · iexact Hrs10
    isplitl [Hrs11]; · iexact Hrs11
    isplitl [Hrs12]; · iexact Hrs12
    isplitl [Hrs13]; · iexact Hrs13
    isplitl [Hrs14]; · iexact Hrs14
    iexact Hrs15
  rw [wp_ret]; imodintro
  iapply Hk
  unfold bodyPost Φ₁ Dat.owesAt Pipeline.owesWithin
  rw [show (dats m ρ 0 c).owed t₀.succ = 0 from rfl]
  isplitl [Hscr HzSc HzS1 HzS2 HzS3 HzS4 HzS5 HzS6 HzS7 HzS8 HzS9 HzS10 HzS11 HzS12 HzS13 HzS14 HzS15 HzRc HzR1 HzR2 HzR3 HzR4 HzR5 HzR6 HzR7 HzR8 HzR9 HzR10 HzR11 HzR12 HzR13 HzR14 HzR15]
  · isplitl [Hscr]; · iexact Hscr
    rw [bool_dev_split c]
    isplitl [HzSc HzS1 HzS2 HzS3 HzS4 HzS5 HzS6 HzS7 HzS8 HzS9 HzS10 HzS11 HzS12 HzS13 HzS14 HzS15]
    · isplitl [HzSc]; · iexact HzSc
      isplitl [HzS1]; · iexact HzS1
      isplitl [HzS2]; · iexact HzS2
      isplitl [HzS3]; · iexact HzS3
      isplitl [HzS4]; · iexact HzS4
      isplitl [HzS5]; · iexact HzS5
      isplitl [HzS6]; · iexact HzS6
      isplitl [HzS7]; · iexact HzS7
      isplitl [HzS8]; · iexact HzS8
      isplitl [HzS9]; · iexact HzS9
      isplitl [HzS10]; · iexact HzS10
      isplitl [HzS11]; · iexact HzS11
      isplitl [HzS12]; · iexact HzS12
      isplitl [HzS13]; · iexact HzS13
      isplitl [HzS14]; · iexact HzS14
      iexact HzS15
    · isplitl [HzRc]; · iexact HzRc
      isplitl [HzR1]; · iexact HzR1
      isplitl [HzR2]; · iexact HzR2
      isplitl [HzR3]; · iexact HzR3
      isplitl [HzR4]; · iexact HzR4
      isplitl [HzR5]; · iexact HzR5
      isplitl [HzR6]; · iexact HzR6
      isplitl [HzR7]; · iexact HzR7
      isplitl [HzR8]; · iexact HzR8
      isplitl [HzR9]; · iexact HzR9
      isplitl [HzR10]; · iexact HzR10
      isplitl [HzR11]; · iexact HzR11
      isplitl [HzR12]; · iexact HzR12
      isplitl [HzR13]; · iexact HzR13
      isplitl [HzR14]; · iexact HzR14
      iexact HzR15
  isplitl [HO]
  · icases HO with ⟨%W', HO⟩
    iexists W'
    isplitr; · ipureintro; exact fun _ _ => Or.inl trivial
    iexact HO
  isplitl [Hx]
  · iexists _; isplitr; · (ipureintro; rfl)
    iexact Hx
  iexists _; isplitr; · (ipureintro; exact out_writes (xstg m ρ c) (Gall m c) g1)
  iexact Hout

set_option maxRecDepth 65536 in
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 65536 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2⟩
      isplitl [H1]; · iexact H1
      isplitl [H2]; · iexact H2
      iexact Hscr
    isplitl [Ho]; · iexact Ho
    isplitl [Hx] <;> iassumption
  · iintro H; iexact H

/-- info: 'Cert.KernelIdeal.Hand.body_obligation' depends on axioms: [propext, Classical.choice, Quot.sound] -/
#guard_msgs in #print axioms body_obligation

end Cert.KernelIdeal.Hand

end
-- ==== Proof.KernelIdeal.Launch.lean ====
/-
  The launch of the exchange: from one device's body to the run of the sixteen.

  Each device owes, at launch, a unit on every other device's barrier cell and a slot's credit on the receive
  cell every other device has for it. Summed over the devices, a barrier cell is owed fifteen units and a
  receive cell one slot's credit: that is the credit its owner is dealt, and with it the body's starting state.
  The run then ends with each device's argument array as it was and its result array holding what the body
  left in the output staging buffer.
-/
import proofs.«900603_g7700000000000604_dist_softmax_colshard_i_m512_n256_v7x_i16_bf16_1_alg».proof.Proof.KernelIdeal.Data
import proofs.«900603_g7700000000000604_dist_softmax_colshard_i_m512_n256_v7x_i16_bf16_1_alg».proof.Proof.KernelIdeal.Alloc
import proofs.«900603_g7700000000000604_dist_softmax_colshard_i_m512_n256_v7x_i16_bf16_1_alg».proof.Proof.KernelIdeal.Body
import proofs.«900603_g7700000000000604_dist_softmax_colshard_i_m512_n256_v7x_i16_bf16_1_alg».proof.Proof.Gen.KernelIdeal.Frame

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The layout -/

/-- The thirty-two send and receive semaphores are scoped, distinct, and none of them a staging semaphore. -/
theorem ownSemFacts : Pipeline.OwnSemFacts cfg0.spec osem := by decide

theorem share_eq (c : Dev nD) (w : Fin cfg0.W) : (dats m ρ 0 c).share w = fullShare := by unfold Dat.share; split <;> rfl

/-! ### The launch credit -/

/-- Every device `d` owing a unit on the barrier cell of the device `k` places on, device `c` is dealt a unit on its own. -/
theorem launchCred_bar (k : ℕ) (hk : k ≤ 16) (c : Dev nD) :
    (Pipeline.launchCred (fun d => tallyAt (barCell (peer d k)) () 1) c : sProp 𝕄) ⊢ cred (tallyAt (barCell c) () 1) :=
  Pipeline.launchCred_tallyAt (.reg barS) (fun d => peer d k) (fun c => peer c (16 - k))
    (fun c => by rw [peer_peer, show 16 - k + k = 16 by omega, peer_16])
    (fun d => by rw [peer_peer, show k + (16 - k) = 16 by omega, peer_16]) () 1 c

/-- Every device `d` owing a slot's credit on the receive cell the device `k` places on has for `d`, device `c` is
    dealt that credit on its receive cell for the device `16 - k` places on: the one that owes it. -/
theorem launchCred_recv (k : ℕ) (hk : k ≤ 16) (c : Dev nD) :
    (Pipeline.launchCred (fun d => tallyAt (recvCell (peer d k) d) () N) c : sProp 𝕄)
      ⊢ cred (tallyAt (recvCell c (peer c (16 - k))) () N) := by
  refine (Pipeline.launchCred_elim _ c (.dma (recvSem (peer c (16 - k))))).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ peer c (16 - k) →
      tallyOn (nD := nD) (sig := sig) (recvCell (peer d k) d) (Finsupp.single () N) (recvCell c (peer c (16 - k))) = 0 := fun d _ hd => by
    refine tallyOn_ne (fun h => hd ?_) _
    exact (recvSem_inj (SemLoc.dma.inj (congrArg Prod.snd h))).symm
  rw [Finset.sum_eq_single (peer c (16 - k)) h0 (fun h => absurd (Finset.mem_univ _) h)]
  rw [peer_peer, show 16 - k + k = 16 by omega, peer_16]
  exact tallyOn_self _ _

/-- The receive credit: the summand for the device `15 - i` places on is dealt on the receive cell for the device `i + 1` places on. -/
theorem credR (c : Dev nD) : ∀ j, j ≤ 15 →
    (Pipeline.launchCred (fun d => owedR d j) c : sProp 𝕄)
      ⊢ bigSep (Finset.range j) fun i => cred (tallyAt (recvCell c (peer c (i + 1))) () N)
  | 0, _ => by
    rw [show (fun d : Dev nD => owedR d 0) = fun _ => 0 from rfl, Pipeline.launchCred_zero, Finset.range_zero, bigSep_empty]
    exact Entails.refl _
  | j + 1, hj => by
    have hr := launchCred_recv (F := F) (15 - j) (by omega) c
    rw [show 16 - (15 - j) = j + 1 by omega] at hr
    rw [show (fun d : Dev nD => owedR d (j + 1)) = fun d => owedR d j + tallyAt (recvCell (peer d (15 - j)) d) () N from rfl,
      Pipeline.launchCred_add, Ring.bigSep_range_succ]
    iintro ⟨H1, H2⟩
    isplitl [H2]
    · iapply hr; iexact H2
    · iapply (credR c j (by omega)); iexact H1

/-- The barrier credit, over the receive credit: `j` units once the summands for the last `j` devices are counted. -/
theorem credB (c : Dev nD) : ∀ j, j ≤ 15 →
    (Pipeline.launchCred (fun d => owedB d j) c : sProp 𝕄)
      ⊢ iprop(cred (tallyAt (barCell c) () j) ∗ Pipeline.launchCred (fun d => owedR d 15) c)
  | 0, _ => by
    rw [show (fun d : Dev nD => owedB d 0) = fun d => owedR d 15 from rfl, tallyAt_zero, cred_zero]
    iintro H
    isplitr
    · iempintro
    · iexact H
  | j + 1, hj => by
    rw [show (fun d : Dev nD => owedB d (j + 1)) = fun d => owedB d j + tallyAt (barCell (peer d (15 - j))) () 1 from rfl,
      Pipeline.launchCred_add, ← tallyAt_add]
    iintro ⟨H1, H2⟩
    ihave Hb := (launchCred_bar (F := F) (15 - j) (by omega) c) $$ H2
    ihave Hr := (credB c j (by omega)) $$ H1
    icases Hr with ⟨Hj, HR⟩
    isplitl [Hj Hb]
    · iapply (cred_add _ _).2
      isplitl [Hj]
      · iexact Hj
      · iexact Hb
    · iexact HR

/-- What the launch deals device `c`: fifteen units on its barrier cell, a slot's credit on each of its fifteen receive cells. -/
theorem creds (c : Dev nD) : (Pipeline.launchCred O₀ c : sProp 𝕄) ⊢ startCred c := by
  unfold startCred
  rw [Ring.bigSep_fin_eq_range 15 _ (fun i => cred (tallyAt (recvCell c (peer c (i + 1))) () N)) (fun t h => rfl)]
  exact (credB c 15 (le_refl _)).trans (sep_mono_right (credR c 15 (le_refl _)))

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq]
  unfold Φ₁ Pipeline.ownSems0
  iintro ⟨Hr, Hz⟩
  isplitr; · iempintro
  isplitl [Hz]; · iexact Hz
  iexact Hr

/-- The pipeline's own waits are on its two staging semaphores, which lie below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: every weakly fair
    execution of @main — the sixteen kernels meeting on the runtime's barrier semaphore, then copying their slots to
    one another — terminates, and every final state has each device's two arrays at the pipeline's final contents. -/
theorem run_main : θ_run defs (onTc (τ := τ) (main (F := F))) (st₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ### The two arrays after the run -/

/-- The argument array is an input window's: never written back. -/
theorem finalA_x (c : Dev nD) : finalA m ρ c (0 : Fin 2) = m ((c : Thread nD τ).loc main_arg0) :=
  (dats (F := F) m ρ 0 c).arrAt_in (0 : Fin 2) rfl _

/-- The result array is written back once, whole, at the one point: it ends holding what the body left in the
    output staging buffer. -/
theorem finalA_out (c : Dev nD) : finalA m ρ c (1 : Fin 2) = outAt m c := by
  show (dats m ρ 0 c).arrAt (1 : Fin 2) ((t₀ : Fin cfg0.N).val + 1) = _
  rw [(dats m ρ 0 c).arrAt_succ (1 : Fin 2) t₀, if_pos (flush0_1 t₀)]
  exact Memref.write_access_unit_zero_univ (Elt F) main_v1 (funext fun a => Nat.zero_mul _) _ _ _

/-- THE KERNEL'S RUN: on every device the result array ends at `outAt`, the argument array as it was. -/
theorem kernel_run : θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_x m ρ c)⟩)
    (run_main m ρ)

end Cert.KernelIdeal.Hand

end

/-- info: 'Cert.KernelIdeal.Hand.ownSemFacts' depends on axioms: [propext, Classical.choice, Quot.sound] -/
#guard_msgs in #print axioms Cert.KernelIdeal.Hand.ownSemFacts
/-- info: 'Cert.KernelIdeal.Hand.creds' depends on axioms: [propext, Classical.choice, Quot.sound] -/
#guard_msgs in #print axioms Cert.KernelIdeal.Hand.creds
/-- info: 'Cert.KernelIdeal.Hand.start_intro' depends on axioms: [propext, Classical.choice, Quot.sound] -/
#guard_msgs in #print axioms Cert.KernelIdeal.Hand.start_intro
/-- info: 'Cert.KernelIdeal.Hand.phi0_intro' depends on axioms: [propext, Classical.choice, Quot.sound] -/
#guard_msgs in #print axioms Cert.KernelIdeal.Hand.phi0_intro
/-- info: 'Cert.KernelIdeal.Hand.phi1_exit' depends on axioms: [propext, Classical.choice, Quot.sound] -/
#guard_msgs in #print axioms Cert.KernelIdeal.Hand.phi1_exit
/-- info: 'Cert.KernelIdeal.Hand.waits' depends on axioms: [propext, Classical.choice, Quot.sound] -/
#guard_msgs in #print axioms Cert.KernelIdeal.Hand.waits
/-- info: 'Cert.KernelIdeal.Hand.finalA_x' depends on axioms: [propext, Classical.choice, Quot.sound] -/
#guard_msgs in #print axioms Cert.KernelIdeal.Hand.finalA_x
/-- info: 'Cert.KernelIdeal.Hand.finalA_out' depends on axioms: [propext, Classical.choice, Quot.sound] -/
#guard_msgs in #print axioms Cert.KernelIdeal.Hand.finalA_out
-- ==== Proof.Kernel.Contents.lean ====
/-
  What each device computes, as pure functions of the sixteen devices' input blocks, at any float
  instance.

  Device `c` holds the column block `x c : [512, 256]` of the whole `[512, 4096]` array. Its rows come in
  four groups of 128. For a row it computes the maximum `m` of its 256 entries and the sum `s` of
  `exp (entry - m)`; the eight vectors (four maxima, four sums) are laid out as one `[8, 128]` slot: row
  `a < 4` the maxima of group `a`, row `4 + a` the sums of group `a`. After the exchange every device
  holds all sixteen slots: `gathered`. From them it forms, per row, the maximum `M` of the sixteen
  maxima and `S = Σ_p s_p · exp (m_p - M)`, and writes `exp (x - m) · (exp (m - M) / S)`.
-/
import proofs.«900603_g7700000000000604_dist_softmax_colshard_i_m512_n256_v7x_i16_bf16_1_alg».proof.Proof.Gen.Kernel.Skeleton
import Idealize.ShloMosaic.Lib.ValueIdx

noncomputable section

namespace Cert.Kernel.Hand

open Cert.Kernel Cert.Kernel.Gen
open Idealize.ShloMosaic Idealize.SL.Sem
open Idealize.ShloMosaic.ValueIdx

variable {F : FTy → Type} [FloatOps F]

/-- A device's slot: its four groups' row maxima and row sums of exponentials, as `[1, 8, 128]`. -/
def stats (x : Vec F S512x256 .f32) : FVec F S1x8x128 .f32 :=
  k0_pay12 (k0_pay1 x) (k0_pay3 x) (k0_pay4 x) (k0_pay6 x) (k0_pay7 x)

/-- The sixteen slots side by side: slot `p` is device `p`'s. The same array on every device. -/
def gathered (xs : Dev nD → Vec F S512x256 .f32) : Vec F S16x8x128 .f32 :=
  fun i => stats (xs (⟨(i 0).val, (i 0).isLt⟩ : Dev nD)) (ix3 (0 : Fin 1) (i 1) (i 2))

/-- The four row groups of the result block, from the device's own block and the gathered slots. -/
def piece0 (x : Vec F S512x256 .f32) (g : Vec F S16x8x128 .f32) : FVec F S128x256 .f32 :=
  k0_pay22 (k0_pay3 x) (k0_pay13 (k0_pay1 x) (k0_pay3 x)) (k0_pay18 g) (k0_pay19 g) (k0_pay20 g)
def piece1 (x : Vec F S512x256 .f32) (g : Vec F S16x8x128 .f32) : FVec F S128x256 .f32 :=
  k0_pay23 (k0_pay6 x) (k0_pay14 (k0_pay1 x) (k0_pay6 x)) (k0_pay18 g) (k0_pay19 g) (k0_pay20 g)
def piece2 (x : Vec F S512x256 .f32) (g : Vec F S16x8x128 .f32) : FVec F S128x256 .f32 :=
  k0_pay24 (k0_pay9 (k0_pay1 x)) (k0_pay15 (k0_pay1 x) (k0_pay9 (k0_pay1 x))) (k0_pay18 g) (k0_pay19 g) (k0_pay20 g)
def piece3 (x : Vec F S512x256 .f32) (g : Vec F S16x8x128 .f32) : FVec F S128x256 .f32 :=
  k0_pay25 (k0_pay11 (k0_pay1 x)) (k0_pay16 (k0_pay1 x) (k0_pay11 (k0_pay1 x))) (k0_pay18 g) (k0_pay19 g) (k0_pay20 g)

/-- The result block: rows `128 a … 128 a + 127` are piece `a`. -/
def outBlk (x : Vec F S512x256 .f32) (g : Vec F S16x8x128 .f32) : Vec F S512x256 .f32 := fun i =>
  if h0 : (i 0).val < 128 then piece0 x g (ix2 (⟨(i 0).val, h0⟩ : Fin 128) (i 1))
  else if h1 : (i 0).val < 256 then piece1 x g (ix2 (⟨(i 0).val - 128, by omega⟩ : Fin 128) (i 1))
  else if h2 : (i 0).val < 384 then piece2 x g (ix2 (⟨(i 0).val - 256, by omega⟩ : Fin 128) (i 1))
  else piece3 x g (ix2 (⟨(i 0).val - 384, by have h3 : (i 0).val < 512 := (i 0).isLt; omega⟩ : Fin 128) (i 1))

end Cert.Kernel.Hand

end
-- ==== Proof.Kernel.Proto.lean ====
/-
  The exchange of the sixteen slots, as a protocol of rounds.

  Every device `c` has three kinds of semaphore cells. Its BARRIER cell receives one unit from each of
  the other fifteen devices; the unit from device `p` (duty `p`) hands `c` device `p`'s slot `c` of its gather
  buffer — the place `c`'s own slot will be copied to. Its RECEIVE cell `i` (`i ≠ c`)
  is paid once, by device `i`'s copy, and hands `c` its slot `i` holding device `i`'s statistics. Its
  SEND cell `i` (`i ≠ c`) is paid once, when the copy to device `i` has read its source, and hands back
  the share of `c`'s own slot that copy was lent. One round each.
  A device first signals (owing the fifteen copies), waits on its barrier, copies, waits on its receive
  cells owing nothing, and on its send cells last: barrier cells lie below receive cells in the order of
  levels, which is the whole deadlock argument.
-/
import proofs.«900603_g7700000000000604_dist_softmax_colshard_i_m512_n256_v7x_i16_bf16_1_alg».proof.Proof.Kernel.Contents
import proofs.«900603_g7700000000000604_dist_softmax_colshard_i_m512_n256_v7x_i16_bf16_1_alg».proof.Proof.Gen.Kernel.Launch
import proofs.«900603_g7700000000000604_dist_softmax_colshard_i_m512_n256_v7x_i16_bf16_1_alg».proof.Proof.Gen.Kernel.Points
import Idealize.ShloMosaic.Lib.Pipeline.Launch
import Idealize.ShloMosaic.Lib.Pipeline.Kit
import Idealize.ShloMosaic.Lib.Ring
import Idealize.ShloMosaic.Lib.Transfers
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties named by `Fin 16`) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def st₀ : MemSt nD τ sig (Elt F) := ⟨m, fun _ => 0, ρ⟩

/-! ## The devices -/

/-- The device `k` places after `c` around the sixteen. -/
def peer (c : Dev nD) (k : ℕ) : Dev nD := ⟨(c.val + k) % 16, Nat.mod_lt _ (by decide)⟩

theorem peer_peer (c : Dev nD) (j k : ℕ) : peer (peer c j) k = peer c (j + k) :=
  Fin.ext (by show ((c.val + j) % 16 + k) % 16 = (c.val + (j + k)) % 16; omega)
theorem peer_16 (c : Dev nD) : peer c 16 = c := Fin.ext (by have h : c.val < 16 := c.isLt; show (c.val + 16) % 16 = c.val; omega)
theorem peer_0 (c : Dev nD) : peer c 0 = c := Fin.ext (by have h : c.val < 16 := c.isLt; show (c.val + 0) % 16 = c.val; omega)

/-- The kernel's `device_id` chains: signal `k` and copy `k` both name the device `k` places on. -/
theorem dev1_eq (c : Dev nD) : (⟨k0_dev1 c, k0_dev1_lt c⟩ : Dev nD) = peer c 1 := Fin.ext (k0_dev1_eq c)
theorem dev2_eq (c : Dev nD) : (⟨k0_dev2 c, k0_dev2_lt c⟩ : Dev nD) = peer c 2 := Fin.ext (k0_dev2_eq c)
theorem dev3_eq (c : Dev nD) : (⟨k0_dev3 c, k0_dev3_lt c⟩ : Dev nD) = peer c 3 := Fin.ext (k0_dev3_eq c)
theorem dev4_eq (c : Dev nD) : (⟨k0_dev4 c, k0_dev4_lt c⟩ : Dev nD) = peer c 4 := Fin.ext (k0_dev4_eq c)
theorem dev5_eq (c : Dev nD) : (⟨k0_dev5 c, k0_dev5_lt c⟩ : Dev nD) = peer c 5 := Fin.ext (k0_dev5_eq c)
theorem dev6_eq (c : Dev nD) : (⟨k0_dev6 c, k0_dev6_lt c⟩ : Dev nD) = peer c 6 := Fin.ext (k0_dev6_eq c)
theorem dev7_eq (c : Dev nD) : (⟨k0_dev7 c, k0_dev7_lt c⟩ : Dev nD) = peer c 7 := Fin.ext (k0_dev7_eq c)
theorem dev8_eq (c : Dev nD) : (⟨k0_dev8 c, k0_dev8_lt c⟩ : Dev nD) = peer c 8 := Fin.ext (k0_dev8_eq c)
theorem dev9_eq (c : Dev nD) : (⟨k0_dev9 c, k0_dev9_lt c⟩ : Dev nD) = peer c 9 := Fin.ext (k0_dev9_eq c)
theorem dev10_eq (c : Dev nD) : (⟨k0_dev10 c, k0_dev10_lt c⟩ : Dev nD) = peer c 10 := Fin.ext (k0_dev10_eq c)
theorem dev11_eq (c : Dev nD) : (⟨k0_dev11 c, k0_dev11_lt c⟩ : Dev nD) = peer c 11 := Fin.ext (k0_dev11_eq c)
theorem dev12_eq (c : Dev nD) : (⟨k0_dev12 c, k0_dev12_lt c⟩ : Dev nD) = peer c 12 := Fin.ext (k0_dev12_eq c)
theorem dev13_eq (c : Dev nD) : (⟨k0_dev13 c, k0_dev13_lt c⟩ : Dev nD) = peer c 13 := Fin.ext (k0_dev13_eq c)
theorem dev14_eq (c : Dev nD) : (⟨k0_dev14 c, k0_dev14_lt c⟩ : Dev nD) = peer c 14 := Fin.ext (k0_dev14_eq c)
theorem dev15_eq (c : Dev nD) : (⟨k0_dev15 c, k0_dev15_lt c⟩ : Dev nD) = peer c 15 := Fin.ext (k0_dev15_eq c)
theorem dev16_eq (c : Dev nD) : (⟨k0_dev16 c, k0_dev16_lt c⟩ : Dev nD) = peer c 1 := Fin.ext (k0_dev16_eq c)
theorem dev17_eq (c : Dev nD) : (⟨k0_dev17 c, k0_dev17_lt c⟩ : Dev nD) = peer c 2 := Fin.ext (k0_dev17_eq c)
theorem dev18_eq (c : Dev nD) : (⟨k0_dev18 c, k0_dev18_lt c⟩ : Dev nD) = peer c 3 := Fin.ext (k0_dev18_eq c)
theorem dev19_eq (c : Dev nD) : (⟨k0_dev19 c, k0_dev19_lt c⟩ : Dev nD) = peer c 4 := Fin.ext (k0_dev19_eq c)
theorem dev20_eq (c : Dev nD) : (⟨k0_dev20 c, k0_dev20_lt c⟩ : Dev nD) = peer c 5 := Fin.ext (k0_dev20_eq c)
theorem dev21_eq (c : Dev nD) : (⟨k0_dev21 c, k0_dev21_lt c⟩ : Dev nD) = peer c 6 := Fin.ext (k0_dev21_eq c)
theorem dev22_eq (c : Dev nD) : (⟨k0_dev22 c, k0_dev22_lt c⟩ : Dev nD) = peer c 7 := Fin.ext (k0_dev22_eq c)
theorem dev23_eq (c : Dev nD) : (⟨k0_dev23 c, k0_dev23_lt c⟩ : Dev nD) = peer c 8 := Fin.ext (k0_dev23_eq c)
theorem dev24_eq (c : Dev nD) : (⟨k0_dev24 c, k0_dev24_lt c⟩ : Dev nD) = peer c 9 := Fin.ext (k0_dev24_eq c)
theorem dev25_eq (c : Dev nD) : (⟨k0_dev25 c, k0_dev25_lt c⟩ : Dev nD) = peer c 10 := Fin.ext (k0_dev25_eq c)
theorem dev26_eq (c : Dev nD) : (⟨k0_dev26 c, k0_dev26_lt c⟩ : Dev nD) = peer c 11 := Fin.ext (k0_dev26_eq c)
theorem dev27_eq (c : Dev nD) : (⟨k0_dev27 c, k0_dev27_lt c⟩ : Dev nD) = peer c 12 := Fin.ext (k0_dev27_eq c)
theorem dev28_eq (c : Dev nD) : (⟨k0_dev28 c, k0_dev28_lt c⟩ : Dev nD) = peer c 13 := Fin.ext (k0_dev28_eq c)
theorem dev29_eq (c : Dev nD) : (⟨k0_dev29 c, k0_dev29_lt c⟩ : Dev nD) = peer c 14 := Fin.ext (k0_dev29_eq c)
theorem dev30_eq (c : Dev nD) : (⟨k0_dev30 c, k0_dev30_lt c⟩ : Dev nD) = peer c 15 := Fin.ext (k0_dev30_eq c)

/-! ## Semaphores, cells, views -/

/-- The runtime's barrier semaphore of collective id 0 (unscoped). -/
abbrev barS : Sem sig := (SemArray.scalar (sig.barrier 0 rfl) : Sems sig S_).sem
/-- The send semaphore for the copy to device `i`, the receive semaphore for the copy from device `i`. -/
def sendSem (i : Dev nD) : DmaSem sig := ⟨2 + i.val, by have h : i.val < 16 := i.isLt; show 2 + i.val < 34; omega⟩
def recvSem (i : Dev nD) : DmaSem sig := ⟨18 + i.val, by have h : i.val < 16 := i.isLt; show 18 + i.val < 34; omega⟩

abbrev barCell (c : Dev nD) : GSem nD τ sig := ((c : Thread nD τ), .reg barS)
abbrev sendCell (c i : Dev nD) : GSem nD τ sig := ((c : Thread nD τ), .dma (sendSem i))
abbrev recvCell (c i : Dev nD) : GSem nD τ sig := ((c : Thread nD τ), .dma (recvSem i))

/-- The gather buffer, and slot `i` of it as the kernel names a device's own slot. -/
abbrev scrM : Memref sig .tc .vmem S16x8x128 .f32 := Memref.whole cc0_scratch0
abbrev slotR (i : Dev nD) : Rect S16x8x128 := Rect.unit (s := S16x8x128) (k0_off4 i) S1x8x128.size (k0_off4_inb i)
abbrev slotM (i : Dev nD) : Memref sig .tc .vmem S8x128 .f32 :=
  (scrM.slice (slotR i) (fun _ => rfl)).squeeze S8x128 squeezes_S1x8x128_S8x128

/-- What one copy of a slot credits. -/
abbrev N : ℕ := (slotM (0 : Dev nD)).view.dmaCredit

/-! ## Contents -/

/-- Device `p`'s input block at launch, as its kernel's input window stages it (the window is the whole array). -/
def xin (p : Dev nD) : Vec F S512x256 .f32 :=
  (win0_0.blk (0 : Fin 1)).view.read (Elt F) (m ((p : Thread nD τ).loc main_arg0))
/-- The gather buffer once every slot has landed: the same on every device. -/
def Gall (c : Dev nD) : Buf (Elt F) ((c : Thread nD τ).loc cc0_scratch0) := gathered (xin m)

/-! ## The schedule -/

/-- Which read token of its own slot device `c` lends the copy to device `i`: token `k - 1` for `i` the device `k` places on. -/
def tokIx (c i : Dev nD) : ℕ := (i.val + 15 - c.val) % 16

/-- What device `p`'s unit (duty `p` of `o`'s barrier cell) hands `o`: device `p`'s slot `o`, whatever it holds. -/
def barPay (o p : Dev nD) : sProp 𝕄 :=
  iprop(∃ f, (slotM o).view.loc (p : Thread nD τ) ↦[(slotM o).view.set]{fullShare} f)
/-- What device `i`'s copy hands `c`: `c`'s slot `i` holding device `i`'s statistics. -/
def recvPay (c i : Dev nD) : sProp 𝕄 :=
  (slotM i).view.loc (c : Thread nD τ) ↦[(slotM i).view.set]{fullShare} Gall m c
/-- What the copy to device `i` hands back to `c` once its source is read: the share of `c`'s own slot it was lent. -/
def sendPay (c i : Dev nD) : sProp 𝕄 :=
  (slotM c).view.loc (c : Thread nD τ) ↦[(slotM c).view.set]{Transfers.shareTokN fullShare (tokIx c i)} Gall m c

abbrev IsBar (g : GSem nD τ sig) : Prop := g.1.2 = .tc ∧ g.2 = .reg barS
abbrev IsSend (g : GSem nD τ sig) : Prop := g.1.2 = .tc ∧ ∃ i : Dev nD, g.2 = .dma (sendSem i) ∧ i ≠ g.1.1
abbrev IsRecv (g : GSem nD τ sig) : Prop := g.1.2 = .tc ∧ ∃ i : Dev nD, g.2 = .dma (recvSem i) ∧ i ≠ g.1.1

/-- One round, round 0: a barrier cell has one unit duty per OTHER device, named by it; a send or receive cell for another device
    the one duty `0` of a slot's credit; the two cells a device has for itself, and every other cell, none. -/
def Rd : Rounds.Schedule (GSem nD τ sig) (Fin 16) 𝕄 where
  duties g r := if r = 0 ∧ IsBar g then Finset.univ.erase g.1.1 else if r = 0 ∧ (IsSend g ∨ IsRecv g) then {0} else ∅
  unitless _ := False
  amount g _ _ := match g.2 with | .reg _ => 1 | .dma _ => N
  payload g _ d := match g.2 with
    | .reg _ => barPay g.1.1 d
    | .dma q =>
      if h : 18 ≤ q.val then recvPay m g.1.1 ⟨q.val - 18, by have hq : q.val < 34 := q.isLt; show q.val - 18 < 16; omega⟩
      else if h2 : 2 ≤ q.val then sendPay m g.1.1 ⟨q.val - 2, by show q.val - 2 < 16; omega⟩
      else iprop(emp)
  amount_pos g _ _ _ := by
    rcases hg : g.2 with s | q
    · exact Nat.one_pos
    · exact View.dmaCredit_pos _ (by decide)

instance Rd_payload_storable (g : GSem nD τ sig) (r : ℕ) (d : Fin 16) :
    BI.Storable (upEmb : UEmb _ 𝕄) ((Rd (F := F) m).payload g r d) := by
  rcases g with ⟨th, s | q⟩
  · show BI.Storable upEmb (barPay th.1 d); unfold barPay; infer_instance
  · show BI.Storable upEmb (if h : 18 ≤ q.val then recvPay m th.1 _ else if h2 : 2 ≤ q.val then sendPay m th.1 _ else iprop(emp))
    unfold recvPay sendPay
    (repeat' split) <;> infer_instance

section Sched
variable (c i : Dev nD)

theorem send_ne_bar : (SemLoc.dma (sendSem i) : SemLoc sig) ≠ .reg barS := fun h => by cases h
theorem recv_ne_bar : (SemLoc.dma (recvSem i) : SemLoc sig) ≠ .reg barS := fun h => by cases h
theorem sendSem_inj {a b : Dev nD} (h : sendSem a = sendSem b) : a = b :=
  Fin.ext (by have := congrArg Fin.val h; simp only [sendSem] at this; omega)
theorem recvSem_inj {a b : Dev nD} (h : recvSem a = recvSem b) : a = b :=
  Fin.ext (by have := congrArg Fin.val h; simp only [recvSem] at this; omega)
theorem send_ne_recv (a b : Dev nD) : sendSem a ≠ recvSem b := fun h => by
  have := congrArg Fin.val h; simp only [sendSem, recvSem] at this; have hb : a.val < 16 := a.isLt; omega

theorem not_bar_send : ¬ IsBar (sendCell c i) := fun h => send_ne_bar i h.2
theorem not_bar_recv : ¬ IsBar (recvCell c i) := fun h => recv_ne_bar i h.2

theorem duties_bar : (Rd (F := F) m).duties (barCell c) 0 = Finset.univ.erase c := by dsimp only [Rd]; exact if_pos ⟨rfl, rfl, rfl⟩
theorem duties_send (h : i ≠ c) : (Rd (F := F) m).duties (sendCell c i) 0 = {0} := by
  dsimp only [Rd]; rw [if_neg (fun h' => not_bar_send c i h'.2)]; exact if_pos ⟨rfl, .inl ⟨rfl, i, rfl, h⟩⟩
theorem duties_recv (h : i ≠ c) : (Rd (F := F) m).duties (recvCell c i) 0 = {0} := by
  dsimp only [Rd]; rw [if_neg (fun h' => not_bar_recv c i h'.2)]; exact if_pos ⟨rfl, .inr ⟨rfl, i, rfl, h⟩⟩
theorem duties_later (g : GSem nD τ sig) : ∀ r, 1 ≤ r → (Rd (F := F) m).duties g r = ∅ :=
  fun r hr => by dsimp only [Rd]; rw [if_neg fun h => by omega, if_neg fun h => by omega]
/-- The cells a device has for itself are never paid. -/
theorem duties_send_self : ∀ r, 0 ≤ r → (Rd (F := F) m).duties (sendCell c c) r = ∅ := fun r _ => by
  dsimp only [Rd]
  rw [if_neg (fun h' => not_bar_send c c h'.2), if_neg]
  rintro ⟨-, (⟨-, j, hj, hne⟩ | ⟨-, j, hj, hne⟩)⟩
  · exact hne (sendSem_inj (SemLoc.dma.inj hj)).symm
  · exact send_ne_recv _ _ (SemLoc.dma.inj hj)
theorem duties_recv_self : ∀ r, 0 ≤ r → (Rd (F := F) m).duties (recvCell c c) r = ∅ := fun r _ => by
  dsimp only [Rd]
  rw [if_neg (fun h' => not_bar_recv c c h'.2), if_neg]
  rintro ⟨-, (⟨-, j, hj, hne⟩ | ⟨-, j, hj, hne⟩)⟩
  · exact send_ne_recv _ _ (SemLoc.dma.inj hj).symm
  · exact hne (recvSem_inj (SemLoc.dma.inj hj)).symm

theorem amount_bar (d : Fin 16) : (Rd (F := F) m).amount (barCell c) 0 d = 1 := rfl
theorem amount_send (d : Fin 16) : (Rd (F := F) m).amount (sendCell c i) 0 d = N := rfl
theorem amount_recv (d : Fin 16) : (Rd (F := F) m).amount (recvCell c i) 0 d = N := rfl

theorem payload_bar (p : Dev nD) : (Rd (F := F) m).payload (barCell c) 0 p = barPay c p := rfl
theorem payload_recv (d : Fin 16) : (Rd (F := F) m).payload (recvCell c i) 0 d = recvPay m c i := by
  show (if h : 18 ≤ (recvSem i).val then recvPay m c ⟨(recvSem i).val - 18, _⟩ else _) = _
  rw [dif_pos (by simp only [recvSem]; omega)]
  congr 1; exact Fin.ext (by simp only [recvSem]; omega)
theorem payload_send (d : Fin 16) : (Rd (F := F) m).payload (sendCell c i) 0 d = sendPay m c i := by
  show (if h : 18 ≤ (sendSem i).val then _ else if h2 : 2 ≤ (sendSem i).val then sendPay m c ⟨(sendSem i).val - 2, _⟩ else _) = _
  rw [dif_neg (by simp only [sendSem]; have hb : i.val < 16 := i.isLt; omega), dif_pos (by simp only [sendSem]; omega)]
  congr 1; exact Fin.ext (by simp only [sendSem]; omega)

theorem expect_bar : (Rd (F := F) m).expect (barCell c) 0 = 15 := by
  unfold Schedule.expect Schedule.amountOf
  rw [duties_bar, Finset.sum_congr rfl fun d _ => amount_bar m c d, Finset.sum_const, smul_eq_mul, Nat.mul_one, Finset.card_erase_of_mem (Finset.mem_univ _), Finset.card_univ, Fintype.card_fin]
theorem expect_send (h : i ≠ c) : (Rd (F := F) m).expect (sendCell c i) 0 = N := by
  unfold Schedule.expect Schedule.amountOf; rw [duties_send m c i h, Finset.sum_singleton, amount_send]
theorem expect_recv (h : i ≠ c) : (Rd (F := F) m).expect (recvCell c i) 0 = N := by
  unfold Schedule.expect Schedule.amountOf; rw [duties_recv m c i h, Finset.sum_singleton, amount_recv]

end Sched

/-! ## What each device owes at launch; the levels -/

/-- The receive credit still owed once the copies to the devices `1 … 15 - j` places on are issued. -/
def owedR (c : Dev nD) : ℕ → CellTallies nD τ sig Unit
  | 0 => 0
  | j + 1 => owedR c j + tallyAt (recvCell (peer c (15 - j)) c) () N
/-- … and, over all the receive credit, the barrier units still owed once the devices `1 … 15 - j` places on are signalled. -/
def owedB (c : Dev nD) : ℕ → CellTallies nD τ sig Unit
  | 0 => owedR c 15
  | j + 1 => owedB c j + tallyAt (barCell (peer c (15 - j))) () 1
/-- At launch: everything. The first signal peels the outermost summand. -/
def O₀ (c : Dev nD) : CellTallies nD τ sig Unit := owedB c 15

def L (g : GSem nD τ sig) : Finset Unit := if g.1.2 = .tc then {()} else ∅
/-- barrier cells at 1, receive cells at 2, everything else (staging, send) at 0. -/
def lv (g : GSem nD τ sig) (_ : Unit) : ℕ := match g.2 with | .reg _ => 1 | .dma q => if 18 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem owedR_pos {c : Dev nD} {g : GSem nD τ sig} {u : Unit} : ∀ j, 0 < owedR c j g u → ∃ k, g = recvCell (peer c k) c
  | 0, h => absurd h (Nat.lt_irrefl 0)
  | j + 1, h => by
    unfold owedR at h
    rw [Pi.add_apply, Finsupp.add_apply, tallyAt_apply] at h
    by_cases hg : g = recvCell (peer c (15 - j)) c ∧ u = ()
    · exact ⟨_, hg.1⟩
    · rw [if_neg hg, Nat.add_zero] at h; exact owedR_pos j h

theorem owedB_pos {c : Dev nD} {g : GSem nD τ sig} {u : Unit} : ∀ j, 0 < owedB c j g u → (∃ k, g = recvCell (peer c k) c) ∨ ∃ k, g = barCell (peer c k)
  | 0, h => .inl (owedR_pos 15 h)
  | j + 1, h => by
    unfold owedB at h
    rw [Pi.add_apply, Finsupp.add_apply, tallyAt_apply] at h
    by_cases hg : g = barCell (peer c (15 - j)) ∧ u = ()
    · exact .inr ⟨_, hg.1⟩
    · rw [if_neg hg, Nat.add_zero] at h; exact owedB_pos j h

theorem lv_recv (c i : Dev nD) (u : Unit) : lv (recvCell c i) u = 2 := by
  show (if 18 ≤ (recvSem i).val then 2 else 0) = 2; rw [if_pos (by simp only [recvSem]; omega)]
theorem lv_bar (c : Dev nD) (u : Unit) : lv (barCell c) u = 1 := rfl

/-- A wait on a cell at level 0 (a staging cell, a send cell) is below everything a device can owe. -/
theorem mayWait_low (c : Dev nD) (q : DmaSem sig) (hq : q.val < 18) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedB_pos 15 hg with ⟨k, rfl⟩ | ⟨k, rfl⟩ <;> exact Finset.mem_singleton_self _)
      (fun p hp => by
        rw [Finset.mem_singleton.mp hp]
        show (if 18 ≤ q.val then 2 else 0) ≤ 0
        rw [if_neg (by omega)])
      (fun g u hg => by
        rcases owedB_pos 15 hg with ⟨k, rfl⟩ | ⟨k, rfl⟩
        · rw [lv_recv]; decide
        · rw [lv_bar]; decide)
  · rw [MayWait_zero]; iintro -; iempintro

/-- At its barrier wait a device owes receive credit only: receive cells lie above its barrier cell. -/
theorem mayWait_bar (c : Dev nD) :
    (levAts L lv : sProp 𝕄) ⊢ MayWait (c : Thread nD τ) (.reg barS) () (owedR c 15) :=
  MayOwe.of_cut (L := L) (lev := lv) 1 (fun p hp => by rw [Finset.mem_singleton.mp hp, L_tc]; exact Finset.mem_singleton_self _)
    (fun g u hg => by rcases owedR_pos 15 hg with ⟨k, rfl⟩; exact Finset.mem_singleton_self _)
    (fun p hp => by rw [Finset.mem_singleton.mp hp]; exact Nat.le_refl 1)
    (fun g u hg => by rcases owedR_pos 15 hg with ⟨k, rfl⟩; rw [lv_recv]; decide)

end Cert.Kernel.Hand

end
-- ==== Proof.Kernel.Data.lean ====
/-
  The proof data of the exchange: what each device holds when its body starts and when it ends.

  A device starts with every cell's invariant and first-round mark (they are persistent: each device gets them
  all), its own thirty-three cells' positions, the tokens of the forty-five duties IT pays — a unit on each
  other device's barrier cell, its fifteen copies' send duties on its own send cells and their receive duties
  on the other devices' receive cells —, the credit for its barrier wait (fifteen units) and for its
  fifteen receive waits, and its gather buffer at arbitrary contents. It ends with its gather buffer whole
  again and its thirty-two scoped semaphores at zero; its result block is `outBlk` of its own block and
  the sixteen gathered slots.
-/
import proofs.«900603_g7700000000000604_dist_softmax_colshard_i_m512_n256_v7x_i16_bf16_1_alg».proof.Proof.Kernel.Proto

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A device's cells, indexed -/

/-- `none`: the barrier cell; `some (false, i)`: the send cell for device `i`; `some (true, i)`: the receive cell for device `i`. -/
abbrev CellIx : Type := Option (Bool × Dev nD)
def csem : CellIx → SemLoc sig
  | none => .reg barS
  | some (false, i) => .dma (sendSem i)
  | some (true, i) => .dma (recvSem i)
abbrev kcell (ck : Dev nD × CellIx) : GSem nD τ sig := ((ck.1 : Thread nD τ), csem ck.2)
/-- The thirty-two scoped semaphores of the kernel, as the launch indexes them. -/
abbrev osem (x : Bool × Dev nD) : SemLoc sig := csem (some x)

theorem csem_injective : Function.Injective (csem : CellIx → SemLoc sig) := by
  intro a b h
  rcases a with _ | ⟨_ | _, i⟩ <;> rcases b with _ | ⟨_ | _, j⟩ <;> simp only [csem] at h
  · rfl
  · exact absurd h.symm (send_ne_bar j)
  · exact absurd h.symm (recv_ne_bar j)
  · exact absurd h (send_ne_bar i)
  · rw [sendSem_inj (SemLoc.dma.inj h)]
  · exact absurd (SemLoc.dma.inj h) (send_ne_recv i j)
  · exact absurd h (recv_ne_bar i)
  · exact absurd (SemLoc.dma.inj h).symm (send_ne_recv j i)
  · rw [recvSem_inj (SemLoc.dma.inj h)]

theorem kcell_injective : Function.Injective (kcell : Dev nD × CellIx → GSem nD τ sig) := by
  rintro ⟨c, k⟩ ⟨c', k'⟩ h
  have h1 : c = c' := by have := congrArg (fun g : GSem nD τ sig => g.1.1) h; exact this
  subst h1
  have hk : k = k' := csem_injective (congrArg Prod.snd h)
  rw [hk]
def ringCells : Finset (GSem nD τ sig) := Finset.univ.map ⟨kcell, kcell_injective⟩

/-! ## The duty tokens -/

/-- A device's own cells' tokens, as minted: (device, which family, which offset) — its barrier's duty named by the device `k + 1` places on, the one duty
    of its send cell and of its receive cell for the device `k + 1` places on. -/
def tokOf (x : Dev nD × Fin 3 × Fin 15) : GSem nD τ sig × ℕ × Fin 16 :=
  match x.2.1 with
  | 0 => (barCell x.1, 0, peer x.1 (x.2.2.val + 1))
  | 1 => (sendCell x.1 (peer x.1 (x.2.2.val + 1)), 0, 0)
  | 2 => (recvCell x.1 (peer x.1 (x.2.2.val + 1)), 0, 0)

/-- The tokens of device `c`'s own cells. -/
def toks (c : Dev nD) : sProp 𝕄 :=
  bigSep Finset.univ fun k : Fin 15 =>
    iprop(dutyTok ER (barCell c) 0 (peer c (k.val + 1)) ∗ dutyTok ER (sendCell c (peer c (k.val + 1))) 0 0 ∗ dutyTok ER (recvCell c (peer c (k.val + 1))) 0 0)
/-- The tokens of the duties device `c` pays. -/
def payToks (c : Dev nD) : sProp 𝕄 :=
  bigSep Finset.univ fun k : Fin 15 =>
    iprop(dutyTok ER (barCell (peer c (k.val + 1))) 0 c ∗ dutyTok ER (sendCell c (peer c (k.val + 1))) 0 0 ∗ dutyTok ER (recvCell (peer c (k.val + 1)) c) 0 0)

/-! ## The ghost state -/

/-- Every cell's invariant, under the names `K` the launch allocated them at, and that its first round is reached. -/
def records (K : Dev nD × CellIx → ℕ) : sProp 𝕄 :=
  iprop((bigSep Finset.univ fun ck : Dev nD × CellIx => cellInv ER (Rd m) (K ck) (kcell ck))
    ∗ bigSep Finset.univ fun ck : Dev nD × CellIx => reached ER (kcell ck) 0)

instance records_persistent (K : Dev nD × CellIx → ℕ) : BI.Persistent (records m K) := by unfold records; infer_instance

/-- What stays with device `c`: its own cells' positions, and the tokens of the duties it pays. -/
def linear (c : Dev nD) : sProp 𝕄 :=
  iprop((bigSep Finset.univ fun j : CellIx => atPos ER (kcell (c, j)) 0 ∅ 0) ∗ payToks c)

def ghost (K : Dev nD × CellIx → ℕ) (c : Dev nD) : sProp 𝕄 := iprop(records m K ∗ linear c)

/-- The credit the launch deals device `c`: fifteen units on its barrier cell, a slot's credit on each receive cell. -/
def startCred (c : Dev nD) : sProp 𝕄 :=
  iprop(cred (tallyAt (barCell c) () 15) ∗ bigSep Finset.univ fun k : Fin 15 => cred (tallyAt (recvCell c (peer c (k.val + 1))) () N))

/-- What device `c`'s body starts from, the gather buffer apart. -/
def start (c : Dev nD) : sProp 𝕄 := iprop((∃ K, ghost m K c) ∗ startCred c ∗ levAts L lv)

def Φ₀ (c : Dev nD) : sProp 𝕄 := iprop(start m c ∗ ∃ f : Buf (Elt F) ((c : Thread nD τ).loc cc0_scratch0), ((c : Thread nD τ).loc cc0_scratch0) ↦{fullShare} f)
/-- After the point: the gather buffer whole, the thirty-two scoped cells closed with their counters at zero (the
    barrier cell is the runtime's: nothing to hand back). -/
def Φ₁ (c : Dev nD) : sProp 𝕄 :=
  iprop((∃ f : Buf (Elt F) ((c : Thread nD τ).loc cc0_scratch0), ((c : Thread nD τ).loc cc0_scratch0) ↦{fullShare} f)
    ∗ bigSep Finset.univ fun x : Bool × Dev nD => semVal ((c : Thread nD τ), osem x) 0)

/-! ## The pipeline's proof data -/

/-- Device `c`'s input block as staged. -/
def xstg (c : Dev nD) : (cc0_stg0_0 : Ref sig .tc).ty.Contents (Elt F) :=
  (win0_0.blk (0 : Fin 1)).view.read (Elt F) ((st₀ m ρ).mem ((c : Thread nD τ).loc main_arg0))

/-- The kernel's result on device `c`. -/
def outAt (c : Dev nD) : (cc0_stg1_0 : Ref sig .tc).ty.Contents (Elt F) := outBlk (xin m c) (gathered (xin m))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xstg m ρ c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-- The staged input block is the device's input block. -/
theorem xstg_eq (c : Dev nD) : xstg m ρ c = xin m c := by
  unfold xstg xin st₀
  rfl

theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

end Cert.Kernel.Hand

end
-- ==== Proof.Kernel.Alloc.lean ====
/-
  Minting the exchange's ghost state at launch and dealing it to the devices.

  The launch element funds every device's thirty-three cells at their first round and mints one token per duty,
  grouped by the OWNER of the duty's cell. Every device then allocates its cells' invariants from its counters at
  zero; the invariants and first-round marks are persistent, so every device takes them all; the tokens are dealt
  to the devices that PAY them: the barrier token named `p` of device `o` goes to `p`, the receive token of device
  `o`'s cell for device `i` goes to `i`, a send token stays where it is.
-/
import proofs.«900603_g7700000000000604_dist_softmax_colshard_i_m512_n256_v7x_i16_bf16_1_alg».proof.Proof.Kernel.Data

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The tokens are distinct -/

/-- The devices one to fifteen places on from a device are distinct. -/
theorem peer_succ_inj (c : Dev nD) (k k' : Fin 15) (h : peer c (k.val + 1) = peer c (k'.val + 1)) : k = k' := by
  have h' : (c.val + (k.val + 1)) % 16 = (c.val + (k'.val + 1)) % 16 := congrArg Fin.val h
  have hc : c.val < 16 := c.isLt
  have hk := k.isLt
  have hk' := k'.isLt
  exact Fin.ext (by omega)

theorem tokOf_injective : Function.Injective (tokOf : Dev nD × Fin 3 × Fin 15 → GSem nD τ sig × ℕ × Fin 16) := by
  rintro ⟨c, f, k⟩ ⟨c', f', k'⟩ h
  have h1 : c = c' := by
    have := congrArg (fun x : GSem nD τ sig × ℕ × Fin 16 => x.1.1.1) h
    fin_cases f <;> fin_cases f' <;> exact this
  subst h1
  have hs : (tokOf (c, f, k)).1.2 = (tokOf (c, f', k')).1.2 := by rw [h]
  have hd : (tokOf (c, f, k)).2.2 = (tokOf (c, f', k')).2.2 := by rw [h]
  fin_cases f <;> fin_cases f'
  · rw [peer_succ_inj c k k' hd]
  · exact absurd hs.symm (send_ne_bar _)
  · exact absurd hs.symm (recv_ne_bar _)
  · exact absurd hs (send_ne_bar _)
  · rw [peer_succ_inj c k k' (sendSem_inj (SemLoc.dma.inj hs))]
  · exact absurd (SemLoc.dma.inj hs) (send_ne_recv _ _)
  · exact absurd hs (recv_ne_bar _)
  · exact absurd (SemLoc.dma.inj hs).symm (send_ne_recv _ _)
  · rw [peer_succ_inj c k k' (recvSem_inj (SemLoc.dma.inj hs))]
def ringToks : Finset (GSem nD τ sig × ℕ × Fin 16) := Finset.univ.map ⟨tokOf, tokOf_injective⟩

def u₀ : UU :=
  (initOf (Pipeline.cells cfgs cellOf_inj) (Pipeline.launchToks cfgs cellOf_inj), initOf ringCells ringToks)

/-- What the launch element deals device `c` (the launch theorem's `G`). -/
def G (c : Dev nD) : sProp 𝕄 :=
  iprop((bigSep Finset.univ fun j : CellIx => roundState ER (Rd m) (kcell (c, j)) 0)
    ∗ (bigSep Finset.univ fun j : CellIx => iprop(atPos ER (kcell (c, j)) 0 ∅ 0 ∗ reached ER (kcell (c, j)) 0)) ∗ toks c)

/-- What the global step makes of it (`G'`). -/
def G' (c : Dev nD) : sProp 𝕄 := iprop(∃ K, ghost m K c)

/-! ### Funding -/

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun j : CellIx => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_prod, bigSep_fin3, bigSep_sep', bigSep_sep']
    rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### Every device allocates its cells' invariants -/

/-- A product over an option type: the summand at none, and the product over the rest. -/
theorem bigSep_option {α : Type} [Fintype α] [DecidableEq α] (Φ : Option α → sProp 𝕄) :
    bigSep Finset.univ Φ = iprop(Φ none ∗ bigSep Finset.univ fun a : α => Φ (some a)) := by
  have h : (Finset.univ : Finset (Option α)).erase none = Finset.univ.map Function.Embedding.some := by
    ext x
    cases x <;> simp
  rw [bigSep_univ_split none, h, bigSep_map]
  rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's counters at zero: its thirty-two own semaphores and the barrier semaphore are its thirty-three cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : CellIx => semVal (kcell (c, j)) 0 : sProp 𝕄) := by
  rw [unscopedSems0_eq, bigSep_option]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : CellIx => iprop(∃ κ : ℕ, cellInv ER (Rd m) κ (kcell (c, j))))
          ∗ (bigSep Finset.univ fun j : CellIx => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : CellIx => semVal (kcell (c, j)) 0) ∗ bigSep Finset.univ fun j : CellIx => roundState ER (Rd m) (kcell (c, j)) 0)
      ⊢ (|={Set.univ}=> bigSep Finset.univ fun j : CellIx => iprop(∃ κ : ℕ, cellInv ER (Rd m) κ (kcell (c, j))) : sProp 𝕄) from by
        rw [← bigSep_sep']
        exact (bigSep_mono fun j _ => (Rounds.body_intro ER (Rd m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-! ### Dealing the tokens to their payers -/

/-- Owner and offset to payer and the offset back: the device k + 1 places on from o is the payer, and o is 15 - k places on from it. -/
def swap (ok : Dev nD × Fin 15) : Dev nD × Fin 15 := (peer ok.1 (ok.2.val + 1), ⟨14 - ok.2.val, by omega⟩)

theorem swap_swap (ok : Dev nD × Fin 15) : swap (swap ok) = ok := by
  obtain ⟨o, k⟩ := ok
  have hk := k.isLt
  refine Prod.ext ?_ (Fin.ext ?_)
  · show peer (peer o (k.val + 1)) (14 - k.val + 1) = o
    rw [peer_peer, show k.val + 1 + (14 - k.val + 1) = 16 from by omega, peer_16]
  · show 14 - (14 - k.val) = k.val
    omega

def swapE : Dev nD × Fin 15 ≃ Dev nD × Fin 15 := ⟨swap, swap, swap_swap, swap_swap⟩

/-- A family over (owner, offset) is the same product as the family over (payer, offset) it becomes under the exchange. -/
theorem reindex (Ψ Ψ' : Dev nD → Fin 15 → sProp 𝕄)
    (h : ∀ (o : Dev nD) (k : Fin 15), Ψ' (swap (o, k)).1 (swap (o, k)).2 = Ψ o k) :
    (bigSep Finset.univ fun o : Dev nD => bigSep Finset.univ fun k : Fin 15 => Ψ o k)
      = bigSep Finset.univ fun c : Dev nD => bigSep Finset.univ fun k : Fin 15 => Ψ' c k := by
  rw [← bigSep_univ_prod (fun ok : Dev nD × Fin 15 => Ψ ok.1 ok.2), ← bigSep_univ_prod (fun ck : Dev nD × Fin 15 => Ψ' ck.1 ck.2),
    bigSep_univ_equiv swapE (fun ck : Dev nD × Fin 15 => Ψ' ck.1 ck.2)]
  exact bigSep_congr fun ok _ => (h ok.1 ok.2).symm

/-- Fifteen places on and then the rest of the way round is where one started. -/
theorem peer_back (o : Dev nD) (k : Fin 15) : peer (peer o (k.val + 1)) ((swap (o, k)).2.val + 1) = o := by
  have hk := k.isLt
  show peer (peer o (k.val + 1)) (14 - k.val + 1) = o
  rw [peer_peer, show k.val + 1 + (14 - k.val + 1) = 16 from by omega, peer_16]

/-- The tokens minted per owner are the tokens held per payer. -/
theorem toks_around : (bigSep Finset.univ fun c : Dev nD => (toks c : sProp 𝕄)) ⊢ bigSep Finset.univ fun c : Dev nD => payToks c := by
  unfold toks payToks
  simp only [bigSep_sep']
  rw [reindex (fun o k => (dutyTok ER (barCell o) 0 (peer o (k.val + 1)) : sProp 𝕄))
      (fun c k => dutyTok ER (barCell (peer c (k.val + 1))) 0 c)
      (fun o k => by
        show (dutyTok ER (barCell (peer (peer o (k.val + 1)) ((swap (o, k)).2.val + 1))) 0 (peer o (k.val + 1)) : sProp 𝕄) = _
        rw [peer_back]),
    reindex (fun o k => (dutyTok ER (recvCell o (peer o (k.val + 1))) 0 0 : sProp 𝕄))
      (fun c k => dutyTok ER (recvCell (peer c (k.val + 1)) c) 0 0)
      (fun o k => by
        show (dutyTok ER (recvCell (peer (peer o (k.val + 1)) ((swap (o, k)).2.val + 1)) (peer o (k.val + 1))) 0 0 : sProp 𝕄) = _
        rw [peer_back])]

/-! ### The global step -/

theorem ghost_intro (K : Dev nD × CellIx → ℕ) (c : Dev nD) : iprop(records m K ∗ linear c) ⊢ G' m c := by
  unfold G' ghost
  iintro H
  iexists K
  iexact H

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j : CellIx => iprop(∃ κ : ℕ, cellInv ER (Rd m) κ (kcell (c, j))))
          ∗ (bigSep Finset.univ fun j : CellIx => iprop(atPos ER (kcell (c, j)) 0 ∅ 0 ∗ reached ER (kcell (c, j)) 0)) ∗ toks c) : sProp 𝕄)
      ⊢ bigSep Finset.univ (G' m) := by
  rw [bigSep_sep', bigSep_sep', ← bigSep_univ_prod (fun ck : Dev nD × CellIx => iprop(∃ κ : ℕ, cellInv ER (Rd m) κ (kcell ck))),
    bigSep_congr (s := Finset.univ) (fun (c : Dev nD) _ => bigSep_sep' Finset.univ (fun j : CellIx => (atPos ER (kcell (c, j)) 0 ∅ 0 : sProp 𝕄)) (fun j => reached ER (kcell (c, j)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun j : CellIx => (atPos ER (kcell (c, j)) 0 ∅ 0 : sProp 𝕄)) payToks).symm).trans
      (bigSep_mono fun c _ => show _ ⊢ linear c from Entails.of_eq (by unfold linear; rfl)))
    isplitl [Hat]; · iexact Hat
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Kernel.Hand

end

/-- info: 'Cert.Kernel.Hand.fund_ring' depends on axioms: [propext, Classical.choice, Quot.sound] -/
#guard_msgs in #print axioms Cert.Kernel.Hand.fund_ring
/-- info: 'Cert.Kernel.Hand.glob' depends on axioms: [propext, Classical.choice, Quot.sound] -/
#guard_msgs in #print axioms Cert.Kernel.Hand.glob
-- ==== Proof.Kernel.Steps.lean ====
/-
  The four kinds of step a device's body takes on the exchange's cells, each stated once for the device `k`
  places on (`1 ≤ k ≤ 15`): the unit signalled to its barrier cell, the copy of the own slot to it, the wait
  for its copy's landing, the wait for the own copy's source to be read. The semaphores and the addressed
  device are taken as the program spells them, with the equation to the protocol's names beside them.
-/
import proofs.«900603_g7700000000000604_dist_softmax_colshard_i_m512_n256_v7x_i16_bf16_1_alg».proof.Proof.Kernel.Data

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores as the program spells them -/

theorem sendSem_spell : ∀ (c : Dev nD) (r : Fin 15),
    ((cc0_scratch1.slice (Rect.unit (s := S16) (k0_off2 c (BitVec.ofNat 32 (1 + r.val))) S1.size (k0_off2_inb c r))).squeeze S_ squeezes_S1_S_).sem
      = sendSem (peer c (1 + r.val)) := by decide +kernel
theorem recvSem_spell : ∀ (c : Dev nD) (r : Fin 15),
    ((cc0_scratch2.slice (Rect.unit (s := S16) (k0_off2 c (BitVec.ofNat 32 (1 + r.val))) S1.size (k0_off2_inb c r))).squeeze S_ squeezes_S1_S_).sem
      = recvSem (peer c (1 + r.val)) := by decide +kernel
theorem recvSem_own : ∀ (c : Dev nD),
    ((cc0_scratch2.slice (Rect.unit (s := S16) (k0_off3 c) S1.size (k0_off3_inb c))).squeeze S_ squeezes_S1_S_).sem = recvSem c := by decide +kernel

theorem peer_ne (c : Dev nD) (k : ℕ) (hk : 1 ≤ k ∧ k ≤ 15) : peer c k ≠ c := fun h => by
  have := congrArg Fin.val h; simp only [peer] at this; have hc : c.val < 16 := c.isLt; omega
theorem ne_peer (c : Dev nD) (k : ℕ) (hk : 1 ≤ k ∧ k ≤ 15) : c ≠ peer c k := fun h => peer_ne c k hk h.symm
theorem tokIx_peer (c : Dev nD) (k : ℕ) (hk : 1 ≤ k ∧ k ≤ 15) : tokIx c (peer c k) = k - 1 := by
  simp only [tokIx, peer]; have hc : c.val < 16 := c.isLt; omega

/-! ## Reading the persistent records -/

theorem inv_at (K : Dev nD × CellIx → ℕ) (ck : Dev nD × CellIx) :
    (records m K : sProp 𝕄) ⊢ cellInv ER (Rd m) (K ck) (kcell ck) := by
  unfold records; iintro ⟨H, -⟩
  iapply (show (bigSep Finset.univ fun ck : Dev nD × CellIx => (cellInv ER (Rd m) (K ck) (kcell ck) : sProp 𝕄)) ⊢ cellInv ER (Rd m) (K ck) (kcell ck)
    from bigSep_elim (Finset.mem_univ ck))
  iexact H
theorem reached_at (K : Dev nD × CellIx → ℕ) (ck : Dev nD × CellIx) :
    (records m K : sProp 𝕄) ⊢ reached ER (kcell ck) 0 := by
  unfold records; iintro ⟨-, H⟩
  iapply (show (bigSep Finset.univ fun ck : Dev nD × CellIx => (reached ER (kcell ck) 0 : sProp 𝕄)) ⊢ reached ER (kcell ck) 0
    from bigSep_elim (Finset.mem_univ ck))
  iexact H

/-- What a device owes, its recorded waits left unnamed. -/
abbrev OwesE (c : Dev nD) (O : CellTallies nD τ sig Unit) : sProp 𝕄 := iprop(∃ W, owes (c : Thread nD τ) O W)

/-! ## The unit to the barrier cell of the device `15 - j` places on -/

theorem sig_rule (K : Dev nD × CellIx → ℕ) (c : Dev nD) (j : ℕ) (hj : j ≤ 14) {n : Dev nD} (hn : n = peer c (15 - j))
    {α : Type} {Q : α → sProp 𝕄} {kont : PUnit → Prog (TpuEff nD τ sig (Elt F) Λ₀ .tc) α} :
    iprop(records m K ∗ OwesE c (owedB c (j + 1)) ∗ dutyTok ER (barCell (peer c (15 - j))) 0 c ∗ barPay (peer c (15 - j)) c)
      ⊢ iprop((OwesE c (owedB c j) -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n, Proc.tc) barS 1) kont) Q) := by
  subst hn
  iintro ⟨#Hrec, ⟨%W, HO⟩, Htok, Hpay⟩ Hk
  iapply (Rounds.wp_signal 𝒱₀ ER (Rd m) (c : Thread nD τ) none (dst := (peer c (15 - j) : Thread nD τ)) (κ := K (peer c (15 - j), none))
      (d := c) (by rw [duties_bar]; exact Finset.mem_erase.mpr ⟨ne_peer c _ (by omega), Finset.mem_univ _⟩) (amount_bar m _ c) () (owedB c j) rfl)
    $$ [HO Htok Hpay]
  · isplitr; · iapply (inv_at m K (peer c (15 - j), none)); iexact Hrec
    isplitl [HO]; · iexact HO
    isplitl [Htok]; · iexact Htok
    isplitl [Hpay]; · rw [payload_bar]; iexact Hpay
    iapply (reached_at m K (peer c (15 - j), none)); iexact Hrec
  iintro HO
  iapply Hk; iexists W; iexact HO

/-! ## The copy of the own slot to the device `15 - j` places on -/

/-- A slot written whole with what the same slot of device `c` holds is that slot of the gathered array. -/
theorem landed_eq (c c' i : Dev nD) (fd : Buf (Elt F) ((slotM i).view.loc (c' : Thread nD τ))) :
    ((slotM i).view.loc (c' : Thread nD τ) ↦[(slotM i).view.set]{fullShare}
        ((slotM i).view.write (Elt F) fd ((slotM i).view.read (Elt F) (Gall m c)) Finset.univ) : sProp 𝕄)
      = recvPay m c' i := by
  unfold recvPay
  refine BI.Region.is_congr fun x hx => ?_
  obtain ⟨z, -, rfl⟩ := Finset.mem_map.mp hx
  rw [View.write_emb_of_mem _ _ (Finset.mem_univ _)]
  rfl

theorem send_rule (K : Dev nD × CellIx → ℕ) (c : Dev nD) (j : ℕ) (hj : j ≤ 14) {n : Dev nD} (hn : n = peer c (15 - j))
    {sS sR : DmaSem sig} (hsS : sS = sendSem (peer c (15 - j))) (hsR : sR = recvSem c)
    {hsc : (slotM c : Memref sig (Dev.tc n : Thread nD τ).2.kind .vmem S8x128 .f32).view.ref.isScScratch = false}
    {hsrc : (slotM c : Memref sig .tc .vmem S8x128 .f32).view.WordExact} {hdst : (slotM c : Memref sig .tc .vmem S8x128 .f32).view.WordExact}
    {hsem : DmaTarget.Typed .vmem (.dma sR) (.remote (Dev.tc n : Thread nD τ) (slotM c : Memref sig .tc .vmem S8x128 .f32) (.dma sS) hsc)}
    {α : Type} {Q : α → sProp 𝕄} {kont : PUnit → Prog (TpuEff nD τ sig (Elt F) Λ₀ .tc) α}
    (fd : Buf (Elt F) ((slotM c).view.loc (peer c (15 - j) : Thread nD τ))) :
    iprop(records m K
        ∗ ((slotM c).view.loc (c : Thread nD τ) ↦[(slotM c).view.set]{Transfers.shareTokN fullShare (15 - j - 1)} Gall m c)
        ∗ ((slotM c).view.loc (peer c (15 - j) : Thread nD τ) ↦[(slotM c).view.set]{fullShare} fd)
        ∗ OwesE c (owedR c (j + 1))
        ∗ dutyTok ER (sendCell c (peer c (15 - j))) 0 0 ∗ dutyTok ER (recvCell (peer c (15 - j)) c) 0 0)
      ⊢ iprop(((cred (tallyAt (sendCell c (peer c (15 - j))) () N) ∗ OwesE c (owedR c j))
              -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slotM c) (.remote (Dev.tc n : Thread nD τ) (slotM c) (.dma sS) hsc) (.dma sR) hsrc hdst hsem) kont) Q) := by
  subst hn hsS hsR
  have hk : 1 ≤ 15 - j ∧ 15 - j ≤ 15 := by omega
  iintro ⟨#Hrec, Hsrc, Hdst, ⟨%W, HO⟩, HtS, HtR⟩ Hk
  iapply (Rounds.wp_send_pointsTo 𝒱₀ ER (Rd m) (c : Thread nD τ) none (c' := (peer c (15 - j) : Thread nD τ))
      (src := slotM c) (dst := slotM c) (q := Transfers.shareTokN fullShare (15 - j - 1)) (fs := Gall m c)
      (κ₁ := K (c, some (false, peer c (15 - j)))) (κ₂ := K (peer c (15 - j), some (true, c)))
      (r₁ := 0) (r₂ := 0) (d₁ := 0) (d₂ := 0) (fd := fd)
      (by rw [duties_send m c _ (peer_ne c _ hk)]; exact Finset.mem_singleton_self _)
      (by rw [duties_recv m _ c (ne_peer c _ hk)]; exact Finset.mem_singleton_self _)
      () () N rfl (amount_send m c _ 0) (amount_recv m _ c 0) (owedR c j) rfl (W := W)
      (by rw [payload_send]; unfold sendPay; rw [tokIx_peer c _ hk])
      (by rw [payload_recv]; exact Entails.of_eq (landed_eq m c _ c fd)))
    $$ [Hsrc Hdst HO HtS HtR]
  · isplitr; · iapply (inv_at m K (c, some (false, peer c (15 - j)))); iexact Hrec
    isplitr; · iapply (inv_at m K (peer c (15 - j), some (true, c))); iexact Hrec
    isplitl [Hsrc]; · iexact Hsrc
    isplitl [Hdst]; · iexact Hdst
    isplitl [HO]; · iexact HO
    isplitl [HtS]; · iexact HtS
    isplitr; · iapply (reached_at m K (c, some (false, peer c (15 - j)))); iexact Hrec
    isplitl [HtR]; · iexact HtR
    iapply (reached_at m K (peer c (15 - j), some (true, c))); iexact Hrec
  iintro ⟨Hc, HO⟩
  iapply Hk
  isplitl [Hc]; · iexact Hc
  iexists W; iexact HO

/-! ## The two waits -/

theorem rest_recv (c i : Dev nD) (h : i ≠ c) :
    bigSep ((Rd (F := F) m).duties (recvCell c i) 0 \ ∅) (fun d => (Rd (F := F) m).payload (recvCell c i) 0 d) = recvPay m c i := by
  rw [Finset.sdiff_empty, duties_recv m c i h, bigSep_singleton, payload_recv]
theorem rest_send (c i : Dev nD) (h : i ≠ c) :
    bigSep ((Rd (F := F) m).duties (sendCell c i) 0 \ ∅) (fun d => (Rd (F := F) m).payload (sendCell c i) 0 d) = sendPay m c i := by
  rw [Finset.sdiff_empty, duties_send m c i h, bigSep_singleton, payload_send]

/-- The wait for the copy from the device `k` places on: its slot comes with it. -/
theorem rwait_rule (K : Dev nD × CellIx → ℕ) (c : Dev nD) (k : ℕ) (hk : 1 ≤ k ∧ k ≤ 15) {sR : DmaSem sig} (hsR : sR = recvSem (peer c k))
    {src dst : Memref sig .tc .vmem S8x128 .f32} {hsrc : src.view.WordExact} {hdst : dst.view.WordExact} (hcr : dst.view.dmaCredit = N)
    {α : Type} {Q : α → sProp 𝕄} {kont : PUnit → Prog (TpuEff nD τ sig (Elt F) Λ₀ .tc) α} :
    iprop(records m K ∗ cred (tallyAt (recvCell c (peer c k)) () N) ∗ OwesE c 0 ∗ atPos ER (recvCell c (peer c k)) 0 ∅ 0)
      ⊢ iprop(((OwesE c 0 ∗ atPos ER (recvCell c (peer c k)) (0 + 1) ∅ 0 ∗ recvPay m c (peer c k))
              -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sR src dst hsrc hdst) kont) Q) := by
  subst hsR
  iintro ⟨#Hrec, Hc, ⟨%W, HO⟩, Hat⟩ Hk
  ihave Hc' := (Entails.of_eq (show (cred (tallyAt (recvCell c (peer c k)) () N) : sProp 𝕄) = cred (tallyAt (recvCell c (peer c k)) () dst.view.dmaCredit) by rw [hcr])) $$ Hc
  iapply (Rounds.wp_wait_rest_token 𝒱₀ ER (Rd m) (c : Thread nD τ) none (κ := K (c, some (true, peer c k)))
      (wpE_waitDma2_eq 𝒱₀ (c : Thread nD τ) none Set.univ) (Set.mem_univ _) () (O := 0) (W := W) (R := 0) (m := 0) (T := ∅)
      (by rw [Nat.zero_add, expect_recv m c _ (peer_ne c k hk), hcr])) $$ [Hc' HO Hat]
  · isplitr; · iapply (inv_at m K (c, some (true, peer c k))); iexact Hrec
    isplitl [Hc']; · iexact Hc'
    isplitl [HO]; · iexact HO
    isplitr; · rw [MayWait_zero]; iempintro
    iexact Hat
  iintro ⟨HO, Hat, -, Hpay⟩
  ihave Hp := (Entails.of_eq (rest_recv m c (peer c k) (peer_ne c k hk))) $$ Hpay
  iapply Hk
  isplitl [HO]; · iexists _; iexact HO
  isplitl [Hat]; · iexact Hat
  iexact Hp

/-- The wait for the copy to the device `k` places on to have read its source: the share it was lent comes back. -/
theorem swait_rule (K : Dev nD × CellIx → ℕ) (c : Dev nD) (k : ℕ) (hk : 1 ≤ k ∧ k ≤ 15) {sS : DmaSem sig} (hsS : sS = sendSem (peer c k))
    {src dst : Memref sig .tc .vmem S8x128 .f32} {hsrc : src.view.WordExact} {hdst : dst.view.WordExact} (hcr : dst.view.dmaCredit = N)
    {α : Type} {Q : α → sProp 𝕄} {kont : PUnit → Prog (TpuEff nD τ sig (Elt F) Λ₀ .tc) α} :
    iprop(records m K ∗ cred (tallyAt (sendCell c (peer c k)) () N) ∗ OwesE c 0 ∗ atPos ER (sendCell c (peer c k)) 0 ∅ 0)
      ⊢ iprop(((OwesE c 0 ∗ atPos ER (sendCell c (peer c k)) (0 + 1) ∅ 0
                ∗ ((slotM c).view.loc (c : Thread nD τ) ↦[(slotM c).view.set]{Transfers.shareTokN fullShare (k - 1)} Gall m c))
              -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sS src dst hsrc hdst) kont) Q) := by
  subst hsS
  iintro ⟨#Hrec, Hc, ⟨%W, HO⟩, Hat⟩ Hk
  ihave Hc' := (Entails.of_eq (show (cred (tallyAt (sendCell c (peer c k)) () N) : sProp 𝕄) = cred (tallyAt (sendCell c (peer c k)) () dst.view.dmaCredit) by rw [hcr])) $$ Hc
  iapply (Rounds.wp_wait_rest_token 𝒱₀ ER (Rd m) (c : Thread nD τ) none (κ := K (c, some (false, peer c k)))
      (wpE_waitDma2_eq 𝒱₀ (c : Thread nD τ) none Set.univ) (Set.mem_univ _) () (O := 0) (W := W) (R := 0) (m := 0) (T := ∅)
      (by rw [Nat.zero_add, expect_send m c _ (peer_ne c k hk), hcr])) $$ [Hc' HO Hat]
  · isplitr; · iapply (inv_at m K (c, some (false, peer c k))); iexact Hrec
    isplitl [Hc']; · iexact Hc'
    isplitl [HO]; · iexact HO
    isplitr; · rw [MayWait_zero]; iempintro
    iexact Hat
  iintro ⟨HO, Hat, -, Hpay⟩
  ihave Hp := (Entails.of_eq ((rest_send m c (peer c k) (peer_ne c k hk)).trans (by unfold sendPay; rw [tokIx_peer c k hk]))) $$ Hpay
  iapply Hk
  isplitl [HO]; · iexists _; iexact HO
  isplitl [Hat]; · iexact Hat
  iexact Hp

end Cert.Kernel.Hand

end
-- ==== Proof.Kernel.Slots.lean ====
/-
  The gather buffer held slot by slot and share by share.

  A device's gather buffer `[16, 8, 128]` is the disjoint union of its sixteen slots, slot `i` the rows
  `(i, ·, ·)`; the devices are `c` and the fifteen devices `1 … 15` places on. A device keeps its own slot,
  writes its statistics there, lends fifteen read shares of it to its copies and keeps the rest; the other
  fifteen slots come back from the receive cells holding the other devices' statistics. For the one load of
  the whole buffer the sixteen slots are joined at the kept share; at the end all shares are joined again
  and the buffer is whole. The result block is filled by four stores of 128 rows each.
-/
import proofs.«900603_g7700000000000604_dist_softmax_colshard_i_m512_n256_v7x_i16_bf16_1_alg».proof.Proof.Kernel.Data

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The devices and the slots, enumerated -/

/-- The sixteen devices are `c` and the fifteen devices `1 … 15` places on. -/
theorem dev_split (c : Dev nD) (Ψ : Dev nD → sProp 𝕄) :
    bigSep Finset.univ Ψ = iprop(Ψ c ∗ Ψ (peer c 1) ∗ Ψ (peer c 2) ∗ Ψ (peer c 3) ∗ Ψ (peer c 4) ∗ Ψ (peer c 5) ∗ Ψ (peer c 6) ∗ Ψ (peer c 7) ∗ Ψ (peer c 8) ∗ Ψ (peer c 9) ∗ Ψ (peer c 10) ∗ Ψ (peer c 11) ∗ Ψ (peer c 12) ∗ Ψ (peer c 13) ∗ Ψ (peer c 14) ∗ Ψ (peer c 15)) :=
  bigSep_univ_eq_bigSepL [c, peer c 1, peer c 2, peer c 3, peer c 4, peer c 5, peer c 6, peer c 7, peer c 8, peer c 9, peer c 10, peer c 11, peer c 12, peer c 13, peer c 14, peer c 15] (by revert c; decide) (by revert c; decide) Ψ

theorem dev_erase_split (c : Dev nD) (Ψ : Dev nD → sProp 𝕄) :
    bigSep (Finset.univ.erase c) Ψ = iprop(Ψ (peer c 1) ∗ Ψ (peer c 2) ∗ Ψ (peer c 3) ∗ Ψ (peer c 4) ∗ Ψ (peer c 5) ∗ Ψ (peer c 6) ∗ Ψ (peer c 7) ∗ Ψ (peer c 8) ∗ Ψ (peer c 9) ∗ Ψ (peer c 10) ∗ Ψ (peer c 11) ∗ Ψ (peer c 12) ∗ Ψ (peer c 13) ∗ Ψ (peer c 14) ∗ Ψ (peer c 15)) :=
  bigSep_eq_bigSepL_of_eq [peer c 1, peer c 2, peer c 3, peer c 4, peer c 5, peer c 6, peer c 7, peer c 8, peer c 9, peer c 10, peer c 11, peer c 12, peer c 13, peer c 14, peer c 15] (by revert c; decide) (by revert c; decide) Ψ

/-- A product over an option type: the summand at none, and the product over the rest. -/
private theorem bigSep_univ_option {α : Type} [Fintype α] [DecidableEq α] (Φ : Option α → sProp 𝕄) :
    bigSep Finset.univ Φ = iprop(Φ none ∗ bigSep Finset.univ fun a : α => Φ (some a)) := by
  have h : (Finset.univ : Finset (Option α)).erase none = Finset.univ.map Function.Embedding.some := by
    ext x
    cases x <;> simp
  rw [bigSep_univ_split none, h, bigSep_map]
  rfl

private theorem bigSep_univ_bool (Φ : Bool → sProp 𝕄) : bigSep Finset.univ Φ = iprop(Φ false ∗ Φ true) :=
  bigSep_univ_eq_bigSepL [false, true] (by decide) (by decide) Φ

/-- A device's cells: its barrier cell, its sixteen send cells, its sixteen receive cells. -/
theorem cell_split (Ψ : CellIx → sProp 𝕄) :
    bigSep Finset.univ Ψ = iprop(Ψ none ∗ (bigSep Finset.univ fun i : Dev nD => Ψ (some (false, i))) ∗ bigSep Finset.univ fun i : Dev nD => Ψ (some (true, i))) := by
  rw [bigSep_univ_option, bigSep_univ_prod, bigSep_univ_bool]

/-- The thirty-two scoped cells: the sixteen send cells, then the sixteen receive cells, each from `c` round. -/
theorem bool_dev_split (c : Dev nD) (Ψ : Bool × Dev nD → sProp 𝕄) :
    bigSep Finset.univ Ψ = iprop((Ψ (false, c) ∗ Ψ (false, peer c 1) ∗ Ψ (false, peer c 2) ∗ Ψ (false, peer c 3) ∗ Ψ (false, peer c 4) ∗ Ψ (false, peer c 5) ∗ Ψ (false, peer c 6) ∗ Ψ (false, peer c 7) ∗ Ψ (false, peer c 8) ∗ Ψ (false, peer c 9) ∗ Ψ (false, peer c 10) ∗ Ψ (false, peer c 11) ∗ Ψ (false, peer c 12) ∗ Ψ (false, peer c 13) ∗ Ψ (false, peer c 14) ∗ Ψ (false, peer c 15)) ∗ (Ψ (true, c) ∗ Ψ (true, peer c 1) ∗ Ψ (true, peer c 2) ∗ Ψ (true, peer c 3) ∗ Ψ (true, peer c 4) ∗ Ψ (true, peer c 5) ∗ Ψ (true, peer c 6) ∗ Ψ (true, peer c 7) ∗ Ψ (true, peer c 8) ∗ Ψ (true, peer c 9) ∗ Ψ (true, peer c 10) ∗ Ψ (true, peer c 11) ∗ Ψ (true, peer c 12) ∗ Ψ (true, peer c 13) ∗ Ψ (true, peer c 14) ∗ Ψ (true, peer c 15))) := by
  rw [bigSep_univ_prod, bigSep_univ_bool, dev_split c, dev_split c]

/-- Slot i of the gather buffer is the unit rectangle at row i. -/
theorem slot_set (i : Dev nD) : (slotM i).view.set = (slotR i).set := by
  simp only [Memref.view_squeeze, View.set_reshape, Memref.view_slice, Memref.view_whole, View.set_slice_whole]

/-- Different slots share no element; -/
theorem slot_disjoint (b b' : Dev nD) (h : b ≠ b') : Disjoint (slotR b).set (slotR b').set :=
  Ring.lead_disjoint (s := S16x8x128) (NB := 16) 0 1 k0_off4 S1x8x128.size k0_off4_inb
    (fun b => by rw [k0_off4_eq]; show b.val = 1 * b.val; omega) rfl b b' h

/-- and the sixteen slots are the whole buffer. -/
theorem slot_cover : Finset.univ.biUnion (fun b : Dev nD => (slotR b).set) = Finset.univ :=
  Ring.lead_cover (s := S16x8x128) (NB := 16) 0 1 k0_off4 S1x8x128.size k0_off4_inb
    (fun b => by rw [k0_off4_eq]; show b.val = 1 * b.val; omega)
    (fun b a ha => by
      rw [k0_off4_eq]
      fin_cases a
      · exact absurd rfl ha
      · rfl
      · rfl)
    rfl
    (fun a ha => by
      fin_cases a
      · exact absurd rfl ha
      · rfl
      · rfl)
    rfl

/-- The elements of slot i, as elements of device c's gather buffer. -/
def slotI (c i : Dev nD) : Finset (Idx ((c : Thread nD τ).loc cc0_scratch0)) := (slotR i).set

theorem slotI_disjoint (c b b' : Dev nD) (h : b ≠ b') : Disjoint (slotI c b) (slotI c b') := slot_disjoint b b' h

theorem slotI_cover (c : Dev nD) : Finset.univ.biUnion (fun b : Dev nD => slotI c b) = Finset.univ := slot_cover

/-- The gather buffer held whole is held slot by slot, at any share. -/
theorem scr_split (c : Dev nD) (q : PosShare TreeShare) (f : Buf (Elt F) ((c : Thread nD τ).loc cc0_scratch0)) :
    ((((c : Thread nD τ).loc cc0_scratch0) ↦{q} f) : sProp 𝕄)
      = bigSep Finset.univ fun i : Dev nD => ((slotM i).view.loc (c : Thread nD τ) ↦[(slotM i).view.set]{q} f) := by
  have h : ((((c : Thread nD τ).loc cc0_scratch0) ↦{q} f) : sProp 𝕄)
      = bigSep Finset.univ fun i : Dev nD => (((c : Thread nD τ).loc cc0_scratch0) ↦[slotI c i]{q} f) :=
    Ring.pointsTo_blocks (slotI c) (slotI_disjoint c) (slotI_cover c) f
  exact h.trans (bigSep_congr fun i _ => by rw [slot_set]; rfl)

/-! ## The own slot lent -/

/-- The own slot at the full share is the kept share and the fifteen read shares the copies are lent. -/
theorem own_lend (c : Dev nD) :
    ((slotM c).view.loc (c : Thread nD τ) ↦[(slotM c).view.set]{fullShare} Gall m c : sProp 𝕄)
      ⊣⊢ iprop(((slotM c).view.loc (c : Thread nD τ) ↦[(slotM c).view.set]{Transfers.shareDrop fullShare 15} Gall m c)
          ∗ ((slotM c).view.loc (c : Thread nD τ) ↦[(slotM c).view.set]{Transfers.shareTokN fullShare 0} Gall m c) ∗ ((slotM c).view.loc (c : Thread nD τ) ↦[(slotM c).view.set]{Transfers.shareTokN fullShare 1} Gall m c) ∗ ((slotM c).view.loc (c : Thread nD τ) ↦[(slotM c).view.set]{Transfers.shareTokN fullShare 2} Gall m c) ∗ ((slotM c).view.loc (c : Thread nD τ) ↦[(slotM c).view.set]{Transfers.shareTokN fullShare 3} Gall m c) ∗ ((slotM c).view.loc (c : Thread nD τ) ↦[(slotM c).view.set]{Transfers.shareTokN fullShare 4} Gall m c) ∗ ((slotM c).view.loc (c : Thread nD τ) ↦[(slotM c).view.set]{Transfers.shareTokN fullShare 5} Gall m c) ∗ ((slotM c).view.loc (c : Thread nD τ) ↦[(slotM c).view.set]{Transfers.shareTokN fullShare 6} Gall m c) ∗ ((slotM c).view.loc (c : Thread nD τ) ↦[(slotM c).view.set]{Transfers.shareTokN fullShare 7} Gall m c) ∗ ((slotM c).view.loc (c : Thread nD τ) ↦[(slotM c).view.set]{Transfers.shareTokN fullShare 8} Gall m c) ∗ ((slotM c).view.loc (c : Thread nD τ) ↦[(slotM c).view.set]{Transfers.shareTokN fullShare 9} Gall m c) ∗ ((slotM c).view.loc (c : Thread nD τ) ↦[(slotM c).view.set]{Transfers.shareTokN fullShare 10} Gall m c) ∗ ((slotM c).view.loc (c : Thread nD τ) ↦[(slotM c).view.set]{Transfers.shareTokN fullShare 11} Gall m c) ∗ ((slotM c).view.loc (c : Thread nD τ) ↦[(slotM c).view.set]{Transfers.shareTokN fullShare 12} Gall m c) ∗ ((slotM c).view.loc (c : Thread nD τ) ↦[(slotM c).view.set]{Transfers.shareTokN fullShare 13} Gall m c) ∗ ((slotM c).view.loc (c : Thread nD τ) ↦[(slotM c).view.set]{Transfers.shareTokN fullShare 14} Gall m c)) := by
  have h : ((slotM c).view.loc (c : Thread nD τ) ↦[(slotM c).view.set]{fullShare} Gall m c : sProp 𝕄)
      ⊣⊢ iprop(((slotM c).view.loc (c : Thread nD τ) ↦[(slotM c).view.set]{Transfers.shareDrop fullShare 15} Gall m c)
          ∗ bigSep Finset.univ fun i : Fin 15 => ((slotM c).view.loc (c : Thread nD τ) ↦[(slotM c).view.set]{Transfers.shareTok fullShare 15 i} Gall m c)) :=
    Transfers.pointsTo_toks fullShare 15
  rw [bigSep_fin15] at h
  exact h

/-! ## The whole buffer for the one load, and whole again at the end -/

/-- With the fifteen received slots and the kept share of the own slot, the whole buffer can be read at the kept
    share, and is given back for what it was made of. -/
theorem gathered_access (c : Dev nD) :
    iprop(((slotM c).view.loc (c : Thread nD τ) ↦[(slotM c).view.set]{Transfers.shareDrop fullShare 15} Gall m c)
        ∗ recvPay m c (peer c 1) ∗ recvPay m c (peer c 2) ∗ recvPay m c (peer c 3) ∗ recvPay m c (peer c 4) ∗ recvPay m c (peer c 5) ∗ recvPay m c (peer c 6) ∗ recvPay m c (peer c 7) ∗ recvPay m c (peer c 8) ∗ recvPay m c (peer c 9) ∗ recvPay m c (peer c 10) ∗ recvPay m c (peer c 11) ∗ recvPay m c (peer c 12) ∗ recvPay m c (peer c 13) ∗ recvPay m c (peer c 14) ∗ recvPay m c (peer c 15))
      ⊢ iprop(((((c : Thread nD τ).loc cc0_scratch0) ↦{Transfers.shareDrop fullShare 15} Gall m c) : sProp 𝕄)
          ∗ (((((c : Thread nD τ).loc cc0_scratch0) ↦{Transfers.shareDrop fullShare 15} Gall m c) : sProp 𝕄)
              -∗ iprop(((slotM c).view.loc (c : Thread nD τ) ↦[(slotM c).view.set]{Transfers.shareDrop fullShare 15} Gall m c)
                  ∗ recvPay m c (peer c 1) ∗ recvPay m c (peer c 2) ∗ recvPay m c (peer c 3) ∗ recvPay m c (peer c 4) ∗ recvPay m c (peer c 5) ∗ recvPay m c (peer c 6) ∗ recvPay m c (peer c 7) ∗ recvPay m c (peer c 8) ∗ recvPay m c (peer c 9) ∗ recvPay m c (peer c 10) ∗ recvPay m c (peer c 11) ∗ recvPay m c (peer c 12) ∗ recvPay m c (peer c 13) ∗ recvPay m c (peer c 14) ∗ recvPay m c (peer c 15)))) := by
  unfold recvPay
  rw [← dev_erase_split c (fun i : Dev nD => ((slotM i).view.loc (c : Thread nD τ) ↦[(slotM i).view.set]{fullShare} Gall m c : sProp 𝕄)),
    scr_split c (Transfers.shareDrop fullShare 15) (Gall m c),
    bigSep_univ_at (fun i : Dev nD => ((slotM i).view.loc (c : Thread nD τ) ↦[(slotM i).view.set]{Transfers.shareDrop fullShare 15} Gall m c : sProp 𝕄)) c]
  -- each received slot at the full share is its kept share and its fifteen read shares
  have hs1 : (bigSep (Finset.univ.erase c) fun i : Dev nD => ((slotM i).view.loc (c : Thread nD τ) ↦[(slotM i).view.set]{fullShare} Gall m c : sProp 𝕄))
      ⊢ iprop((bigSep (Finset.univ.erase c) fun i : Dev nD => ((slotM i).view.loc (c : Thread nD τ) ↦[(slotM i).view.set]{Transfers.shareDrop fullShare 15} Gall m c : sProp 𝕄))
          ∗ bigSep (Finset.univ.erase c) fun i : Dev nD => bigSep Finset.univ fun j : Fin 15 =>
              ((slotM i).view.loc (c : Thread nD τ) ↦[(slotM i).view.set]{Transfers.shareTok fullShare 15 j} Gall m c : sProp 𝕄)) :=
    (bigSep_mono fun i _ => Transfers.pointsTo_toks_split fullShare 15).trans (Entails.of_eq (bigSep_sep' _ _ _))
  have hs2 : iprop((bigSep (Finset.univ.erase c) fun i : Dev nD => ((slotM i).view.loc (c : Thread nD τ) ↦[(slotM i).view.set]{Transfers.shareDrop fullShare 15} Gall m c : sProp 𝕄))
          ∗ bigSep (Finset.univ.erase c) fun i : Dev nD => bigSep Finset.univ fun j : Fin 15 =>
              ((slotM i).view.loc (c : Thread nD τ) ↦[(slotM i).view.set]{Transfers.shareTok fullShare 15 j} Gall m c : sProp 𝕄))
      ⊢ (bigSep (Finset.univ.erase c) fun i : Dev nD => ((slotM i).view.loc (c : Thread nD τ) ↦[(slotM i).view.set]{fullShare} Gall m c : sProp 𝕄)) :=
    (Entails.of_eq (bigSep_sep' _ _ _).symm).trans (bigSep_mono fun i _ => Transfers.pointsTo_toks_join fullShare 15)
  iintro ⟨HK, HA⟩
  ihave HA' := hs1 $$ HA
  icases HA' with ⟨HB, HT⟩
  isplitl [HK HB]
  · isplitl [HK] <;> iassumption
  · iintro ⟨HK, HB⟩
    isplitl [HK]; · iexact HK
    iapply hs2
    isplitl [HB] <;> iassumption

/-- The own slot whole again and the fifteen received slots are the buffer whole. -/
theorem scratch_whole (c : Dev nD) :
    iprop(((slotM c).view.loc (c : Thread nD τ) ↦[(slotM c).view.set]{fullShare} Gall m c)
        ∗ recvPay m c (peer c 1) ∗ recvPay m c (peer c 2) ∗ recvPay m c (peer c 3) ∗ recvPay m c (peer c 4) ∗ recvPay m c (peer c 5) ∗ recvPay m c (peer c 6) ∗ recvPay m c (peer c 7) ∗ recvPay m c (peer c 8) ∗ recvPay m c (peer c 9) ∗ recvPay m c (peer c 10) ∗ recvPay m c (peer c 11) ∗ recvPay m c (peer c 12) ∗ recvPay m c (peer c 13) ∗ recvPay m c (peer c 14) ∗ recvPay m c (peer c 15))
      ⊢ (iprop(∃ f : Buf (Elt F) ((c : Thread nD τ).loc cc0_scratch0), ((c : Thread nD τ).loc cc0_scratch0) ↦{fullShare} f) : sProp 𝕄) := by
  unfold recvPay
  rw [← dev_split c (fun i : Dev nD => ((slotM i).view.loc (c : Thread nD τ) ↦[(slotM i).view.set]{fullShare} Gall m c : sProp 𝕄)),
    ← scr_split c fullShare (Gall m c)]
  iintro H
  iexists Gall m c
  iexact H

end Cert.Kernel.Hand

end
-- ==== Proof.Kernel.SlotVals.lean ====
/-
  What the body's loads read and what its stores leave: the own slot after the store of the statistics, the
  whole-buffer loads, and the result block after the four stores of 128 rows each.
-/
import proofs.«900603_g7700000000000604_dist_softmax_colshard_i_m512_n256_v7x_i16_bf16_1_alg».proof.Proof.Kernel.Data

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-! ## The own slot: loaded, stored, lent -/

abbrev ownR (c : Dev nD) : Rect S16x8x128 := Rect.unit (s := S16x8x128) (k0_off1 c) S1x8x128.size (k0_off1_inb c)

/-- The rectangle the statistics are stored through is the own slot's. -/
theorem ownR_eq (c : Dev nD) : ownR c = slotR c :=
  Rect.unit_congr ((k0_off1_eq c).trans (k0_off4_eq c).symm) _ _

theorem own_load_sub (c : Dev nD) : (scrM : Memref sig .tc .vmem S16x8x128 .f32).view.setOn (ownR c).toLoadRect.set ⊆ (slotM c).view.set := by
  rw [ownR_eq]
  show (scrM : Memref sig .tc .vmem S16x8x128 .f32).view.setOn (slotR c).set
      ⊆ (((scrM : Memref sig .tc .vmem S16x8x128 .f32).view.slice (slotR c)).reshape S8x128 squeezes_S1x8x128_S8x128.numel_eq).set
  rw [View.set_reshape, View.set_slice]
  exact Finset.Subset.refl _
theorem own_store_sub (c : Dev nD) : ((scrM : Memref sig .tc .vmem S16x8x128 .f32).access (ownR c)).setOn Finset.univ ⊆ (slotM c).view.set := by
  rw [ownR_eq]
  show ((scrM : Memref sig .tc .vmem S16x8x128 .f32).view.slice (slotR c)).set
      ⊆ (((scrM : Memref sig .tc .vmem S16x8x128 .f32).view.slice (slotR c)).reshape S8x128 squeezes_S1x8x128_S8x128.numel_eq).set
  rw [View.set_reshape]

/-- The own slot after the store of the statistics is the own slot of the gathered array. -/
theorem own_stored (c : Dev nD) (f : Buf (Elt F) ((c : Thread nD τ).loc cc0_scratch0)) :
    (((slotM c).view.loc (c : Thread nD τ) ↦[(slotM c).view.set]{fullShare}
        (((scrM : Memref sig .tc .vmem S16x8x128 .f32).access (ownR c)).write (Elt F) f (stats (xin m c)) Finset.univ)) : sProp 𝕄)
      = ((slotM c).view.loc (c : Thread nD τ) ↦[(slotM c).view.set]{fullShare} Gall m c) := by
  refine pointsTo_congr fun i hi => ?_
  -- an element of the own slot is an element of the rectangle stored through
  have hi' : i ∈ ((scrM : Memref sig .tc .vmem S16x8x128 .f32).access (ownR c)).set := by
    rw [ownR_eq]
    have h := hi
    rw [show (slotM c).view.set = ((scrM : Memref sig .tc .vmem S16x8x128 .f32).view.slice (slotR c)).set from
      View.set_reshape _ _] at h
    exact h
  obtain ⟨y, -, rfl⟩ := Finset.mem_map.mp hi'
  refine (View.write_emb_of_mem (v := (scrM : Memref sig .tc .vmem S16x8x128 .f32).access (ownR c)) f
    (stats (xin m c)) (Finset.mem_univ y)).trans ?_
  -- there the gathered array reads the statistics of the device named by the leading coordinate: this one
  have hoff : k0_off1 c = ![c.val, 0, 0] := k0_off1_eq c
  have hy0 : (y (0 : Fin 3)).val = 0 := by
    have h1 : (y (0 : Fin 3)).val < 1 := (y (0 : Fin 3)).isLt
    omega
  have e0 : ((ownR c).emb y (0 : Fin 3)).val = c.val := by
    show k0_off1 c 0 + 1 * (y (0 : Fin 3)).val = c.val
    rw [hoff, hy0]; rfl
  have e1 : ((ownR c).emb y (1 : Fin 3)).val = (y (1 : Fin 3)).val := by
    show k0_off1 c 1 + 1 * (y (1 : Fin 3)).val = _
    rw [hoff]; show 0 + 1 * (y (1 : Fin 3)).val = _; omega
  have e2 : ((ownR c).emb y (2 : Fin 3)).val = (y (2 : Fin 3)).val := by
    show k0_off1 c 2 + 1 * (y (2 : Fin 3)).val = _
    rw [hoff]; show 0 + 1 * (y (2 : Fin 3)).val = _; omega
  show stats (xin m c) y
      = stats (xin m (⟨((ownR c).emb y (0 : Fin 3)).val, ((ownR c).emb y (0 : Fin 3)).isLt⟩ : Dev nD))
          (ValueIdx.ix3 (0 : Fin 1) ((ownR c).emb y (1 : Fin 3)) ((ownR c).emb y (2 : Fin 3)))
  have hc : (⟨((ownR c).emb y (0 : Fin 3)).val, ((ownR c).emb y (0 : Fin 3)).isLt⟩ : Dev nD) = c := Fin.ext e0
  have hy : ValueIdx.ix3 (0 : Fin 1) ((ownR c).emb y (1 : Fin 3)) ((ownR c).emb y (2 : Fin 3)) = y := by
    funext a
    match a with
    | ⟨0, _⟩ => exact Fin.ext hy0.symm
    | ⟨1, _⟩ => exact Fin.ext e1
    | ⟨2, _⟩ => exact Fin.ext e2
  rw [hc]
  exact (congrArg (stats (xin m c)) hy).symm

/-! ## What the loads read, what the four stores leave -/

theorem read_x (f : (cc0_stg0_0 : Ref sig .tc).ty.Contents (Elt F)) :
    (Memref.whole cc0_stg0_0 : Memref sig .tc .vmem S512x256 .f32).view.readAt (Elt F)
      (Rect.unit (s := S512x256) ![0, 0] S512x256.size inb_S512x256_S512x256_0_0).toLoadRect f = f := by
  refine Memref.readAt_unit_zero (Elt F) cc0_stg0_0 (funext fun a => ?_) inb_S512x256_S512x256_0_0 f
  match a with
  | ⟨0, _⟩ => rfl
  | ⟨1, _⟩ => rfl
theorem read_scr (f : (cc0_scratch0 : Ref sig .tc).ty.Contents (Elt F)) :
    (scrM : Memref sig .tc .vmem S16x8x128 .f32).view.readAt (Elt F)
      (Rect.unit (s := S16x8x128) ![0, 0, 0] S16x8x128.size inb_S16x8x128_S16x8x128_0_0_0).toLoadRect f = f := by
  refine Memref.readAt_unit_zero (Elt F) cc0_scratch0 (funext fun a => ?_) inb_S16x8x128_S16x8x128_0_0_0 f
  match a with
  | ⟨0, _⟩ => rfl
  | ⟨1, _⟩ => rfl
  | ⟨2, _⟩ => rfl

abbrev oM : Memref sig .tc .vmem S512x256 .f32 := Memref.whole cc0_stg1_0
abbrev oR0 : Rect S512x256 := Rect.unit (s := S512x256) ![0, 0] S128x256.size inb_S512x256_S128x256_0_0
abbrev oR1 : Rect S512x256 := Rect.unit (s := S512x256) ![128, 0] S128x256.size inb_S512x256_S128x256_128_0
abbrev oR2 : Rect S512x256 := Rect.unit (s := S512x256) ![256, 0] S128x256.size inb_S512x256_S128x256_256_0
abbrev oR3 : Rect S512x256 := Rect.unit (s := S512x256) ![384, 0] S128x256.size inb_S512x256_S128x256_384_0

/-- A store of 128 rows from row `o` leaves an element of another row as it was. -/
theorem out_write_of_not (o : Nat) (inb : ∀ a, (![o, 0] : Fin 2 → Nat) a + S128x256.size a ≤ S512x256.size a)
    (f : (cc0_stg1_0 : Ref sig .tc).ty.Contents (Elt F)) (w : FVec F S128x256 .f32) (i : S512x256.Idx)
    (h : (i 0).val < o ∨ o + 128 ≤ (i 0).val) :
    ((oM.access (Rect.unit (s := S512x256) ![o, 0] S128x256.size inb)).write (Elt F) f w Finset.univ) i = f i := by
  refine View.write_of_not_mem (v := oM.access (Rect.unit (s := S512x256) ![o, 0] S128x256.size inb)) (Val := Elt F)
    f w Finset.univ (i := i) fun hi => ?_
  have hm : i ∈ (Rect.unit (s := S512x256) ![o, 0] S128x256.size inb).set := by
    have h' : i ∈ ((View.whole (cc0_stg1_0 : Ref sig .tc)).slice
        (Rect.unit (s := S512x256) ![o, 0] S128x256.size inb)).set := hi
    rw [View.set_slice_whole] at h'
    exact h'
  have h0 := (Rect.mem_set_unit.mp hm) (0 : Fin 2)
  have hlo : o ≤ (i 0).val := h0.1
  have hhi : (i 0).val < o + 128 := h0.2
  omega

/-- A store of 128 rows from row `o` leaves, at an element of those rows, the stored vector's entry. -/
theorem out_write_of_mem (o : Nat) (inb : ∀ a, (![o, 0] : Fin 2 → Nat) a + S128x256.size a ≤ S512x256.size a)
    (f : (cc0_stg1_0 : Ref sig .tc).ty.Contents (Elt F)) (w : FVec F S128x256 .f32) (i : S512x256.Idx)
    (hlo : o ≤ (i 0).val) (hhi : (i 0).val < o + 128) :
    ((oM.access (Rect.unit (s := S512x256) ![o, 0] S128x256.size inb)).write (Elt F) f w Finset.univ) i
      = w (ValueIdx.ix2 (⟨(i 0).val - o, by omega⟩ : Fin 128) (i 1)) := by
  have e : (oM.access (Rect.unit (s := S512x256) ![o, 0] S128x256.size inb)).emb
      (ValueIdx.ix2 (⟨(i 0).val - o, by omega⟩ : Fin 128) (i 1)) = i := by
    funext a
    match a with
    | ⟨0, _⟩ => exact Fin.ext (by show o + 1 * ((i 0).val - o) = (i 0).val; omega)
    | ⟨1, _⟩ => exact Fin.ext (by show 0 + 1 * (i 1).val = (i 1).val; omega)
  have hw := View.write_emb_of_mem (v := oM.access (Rect.unit (s := S512x256) ![o, 0] S128x256.size inb))
    (Val := Elt F) f w (M := Finset.univ) (x := ValueIdx.ix2 (⟨(i 0).val - o, by omega⟩ : Fin 128) (i 1))
    (Finset.mem_univ _)
  rw [e] at hw
  exact hw

/-- Four stores of 128 rows each fill the block: whatever it held, it holds `outBlk`. -/
theorem out_writes (x : Vec F S512x256 .f32) (g : Vec F S16x8x128 .f32) (f : (cc0_stg1_0 : Ref sig .tc).ty.Contents (Elt F)) :
    ((oM.access oR3).write (Elt F) ((oM.access oR2).write (Elt F) ((oM.access oR1).write (Elt F) ((oM.access oR0).write (Elt F) f
      (piece0 x g) Finset.univ) (piece1 x g) Finset.univ) (piece2 x g) Finset.univ) (piece3 x g) Finset.univ) = outBlk x g := by
  funext i
  have key : ∀ i : S512x256.Idx,
      ((oM.access oR3).write (Elt F) ((oM.access oR2).write (Elt F) ((oM.access oR1).write (Elt F)
        ((oM.access oR0).write (Elt F) f (piece0 x g) Finset.univ) (piece1 x g) Finset.univ) (piece2 x g) Finset.univ)
        (piece3 x g) Finset.univ) i = outBlk x g i := fun i => by
    have hr : (i 0).val < 512 := ValueIdx.idx2_lt0 i
    unfold outBlk
    by_cases h0 : (i 0).val < 128
    · rw [dif_pos h0]
      refine (out_write_of_not 384 _ _ _ i (Or.inl (by omega))).trans ?_
      refine (out_write_of_not 256 _ _ _ i (Or.inl (by omega))).trans ?_
      refine (out_write_of_not 128 _ _ _ i (Or.inl (by omega))).trans ?_
      exact out_write_of_mem 0 _ _ _ i (by omega) (by omega)
    · rw [dif_neg h0]
      by_cases h1 : (i 0).val < 256
      · rw [dif_pos h1]
        refine (out_write_of_not 384 _ _ _ i (Or.inl (by omega))).trans ?_
        refine (out_write_of_not 256 _ _ _ i (Or.inl (by omega))).trans ?_
        exact out_write_of_mem 128 _ _ _ i (by omega) (by omega)
      · rw [dif_neg h1]
        by_cases h2 : (i 0).val < 384
        · rw [dif_pos h2]
          refine (out_write_of_not 384 _ _ _ i (Or.inl (by omega))).trans ?_
          exact out_write_of_mem 256 _ _ _ i (by omega) (by omega)
        · rw [dif_neg h2]
          exact out_write_of_mem 384 _ _ _ i (by omega) (by omega)
  exact key i

end Cert.Kernel.Hand

end
-- ==== Proof.Kernel.Body.lean ====
/-
  One device's body, stepped from its starting state to its final one.

  In program order: a unit to each of the other fifteen devices' barrier cells, each handing over this device's
  slot for that device's statistics; the input block read, and the own slot overwritten with the device's
  statistics; the wait for the fifteen units, which brings the other devices' slots for THIS device's
  statistics; the own slot copied to each of them, each copy lent one read share of it; the fifteen waits for
  the other devices' copies, each bringing back a slot with that device's statistics; the whole gather buffer
  read at the share the device kept; the result block written, 128 rows at a time; the fifteen waits for the
  own copies' sources to be read, which bring the lent shares back; every own cell closed, its counter at
  zero. The device never waits while owing anything at or below the awaited cell's level.
-/
import proofs.«900603_g7700000000000604_dist_softmax_colshard_i_m512_n256_v7x_i16_bf16_1_alg».proof.Proof.Kernel.Steps
import proofs.«900603_g7700000000000604_dist_softmax_colshard_i_m512_n256_v7x_i16_bf16_1_alg».proof.Proof.Kernel.Slots
import proofs.«900603_g7700000000000604_dist_softmax_colshard_i_m512_n256_v7x_i16_bf16_1_alg».proof.Proof.Kernel.SlotVals
import proofs.«900603_g7700000000000604_dist_softmax_colshard_i_m512_n256_v7x_i16_bf16_1_alg».proof.Proof.Gen.Kernel.Skeleton

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre (K : Dev nD × CellIx → ℕ) (c : Dev nD) : sProp 𝕄 :=
  iprop((ghost m K c ∗ startCred c ∗ levAts L lv ∗ ∃ f : Buf (Elt F) ((c : Thread nD τ).loc cc0_scratch0), ((c : Thread nD τ).loc cc0_scratch0) ↦{fullShare} f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m c))

/-! ## The barrier wait -/

/-- The wait for the fifteen units: each comes with the signalling device's slot for this device's statistics. At this wait
    the device owes the fifteen copies' credit, on receive cells, which lie above its barrier cell. -/
theorem bar_rule (K : Dev nD × CellIx → ℕ) (c : Dev nD)
    {α : Type} {Q : α → sProp 𝕄} {kont : PUnit → Prog (TpuEff nD τ sig (Elt F) Λ₀ .tc) α} :
    iprop(records m K ∗ levAts L lv ∗ cred (tallyAt (barCell c) () 15) ∗ OwesE c (owedR c 15) ∗ atPos ER (barCell c) 0 ∅ 0)
      ⊢ iprop(((OwesE c (owedR c 15) ∗ atPos ER (barCell c) (0 + 1) ∅ 0 ∗ (barPay c (peer c 1) ∗ barPay c (peer c 2) ∗ barPay c (peer c 3) ∗ barPay c (peer c 4) ∗ barPay c (peer c 5) ∗ barPay c (peer c 6) ∗ barPay c (peer c 7) ∗ barPay c (peer c 8) ∗ barPay c (peer c 9) ∗ barPay c (peer c 10) ∗ barPay c (peer c 11) ∗ barPay c (peer c 12) ∗ barPay c (peer c 13) ∗ barPay c (peer c 14) ∗ barPay c (peer c 15)))
              -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS 15) kont) Q) := by
  iintro ⟨#Hrec, #Hlev, Hc, ⟨%W, HO⟩, Hat⟩ Hk
  iapply (Rounds.wp_wait_rest_token 𝒱₀ ER (Rd m) (c : Thread nD τ) none (κ := K (c, none))
      (wpE_semWait_eq 𝒱₀ (c : Thread nD τ) none Set.univ) (Set.mem_univ _) () (O := owedR c 15) (W := W) (R := 0) (m := 0) (T := ∅)
      (by rw [expect_bar])) $$ [Hc HO Hat]
  · isplitr; · iapply (inv_at m K (c, none)); iexact Hrec
    isplitl [Hc]; · iexact Hc
    isplitl [HO]; · iexact HO
    isplitr; · iapply (mayWait_bar c); iexact Hlev
    iexact Hat
  iintro ⟨HO, Hat, -, Hpay⟩
  ihave Hp := (Entails.of_eq (show bigSep ((Rd (F := F) m).duties (barCell c) 0 \ ∅) (fun d => (Rd (F := F) m).payload (barCell c) 0 d)
      = iprop(barPay c (peer c 1) ∗ barPay c (peer c 2) ∗ barPay c (peer c 3) ∗ barPay c (peer c 4) ∗ barPay c (peer c 5) ∗ barPay c (peer c 6) ∗ barPay c (peer c 7) ∗ barPay c (peer c 8) ∗ barPay c (peer c 9) ∗ barPay c (peer c 10) ∗ barPay c (peer c 11) ∗ barPay c (peer c 12) ∗ barPay c (peer c 13) ∗ barPay c (peer c 14) ∗ barPay c (peer c 15)) from by
        rw [Finset.sdiff_empty, duties_bar, dev_erase_split c]; rfl)) $$ Hpay
  iapply Hk
  isplitl [HO]; · iexists _; iexact HO
  isplitl [Hat]; · iexact Hat
  iexact Hp

/-! ## Closing a cell -/

/-- A cell at a round from which no duty remains, nothing of it taken: its owner closes it and keeps the counter at zero. -/
theorem close_rule (K : Dev nD × CellIx → ℕ) (c : Dev nD) (j : CellIx) (R : ℕ)
    (hR : ∀ r, R ≤ r → (Rd (F := F) m).duties (kcell (c, j)) r = ∅) :
    iprop(records m K ∗ atPos ER (kcell (c, j)) R ∅ 0) ⊢ (|={Set.univ}=> semVal (kcell (c, j)) 0 : sProp 𝕄) := by
  iintro ⟨#Hrec, Hat⟩
  iapply (Rounds.cell_close ER (Rd m) (Set.mem_univ (K (c, j))) (fun h => h) hR)
  isplitr; · iapply (inv_at m K (c, j)); iexact Hrec
  iexact Hat

/-- Every slot of the gather buffer, wherever it sits, credits the same amount. -/
theorem slot_credit (off : Fin 3 → ℕ) (h : ∀ a, off a + S1x8x128.size a ≤ S16x8x128.size a) :
    ((scrM.slice (Rect.unit (s := S16x8x128) off S1x8x128.size h) (fun _ => rfl)).squeeze S8x128 squeezes_S1x8x128_S8x128 : Memref sig .tc .vmem S8x128 .f32).view.dmaCredit = N := rfl

open Lean in
set_option hygiene false in
/-- the unit to the device `k` places on -/
local macro "sig_step" k:num : tactic => do
  let n := k.getNat
  let tok := mkIdent (Name.mkSimple s!"HtB{n}")
  let sl := mkIdent (Name.mkSimple s!"Hsl{n}")
  let dv := mkIdent (Name.mkSimple s!"dev{n}_eq")
  let j := Syntax.mkNumLit (toString (15 - n))
  let tokF ← `(frameIdent| $tok:ident)
  let slF ← `(frameIdent| $sl:ident)
  `(tactic| (
    iapply (sig_rule m K c $j (by omega) ($dv c)) $$ [HO $tokF $slF]
    · isplitr; · iexact Hrec
      isplitl [HO]; · iexact HO
      isplitl [$tok]; · iexact $tok
      unfold barPay; iexists f0; iexact $sl
    iintro HO))

open Lean in
set_option hygiene false in
/-- the copy to the device `k` places on -/
local macro "send_step" k:num : tactic => do
  let n := k.getNat
  let tk := mkIdent (Name.mkSimple s!"Htk{n}")
  let hd := mkIdent (Name.mkSimple s!"Hd{n}")
  let fd := mkIdent (Name.mkSimple s!"fd{n}")
  let ts := mkIdent (Name.mkSimple s!"HtS{n}")
  let tr := mkIdent (Name.mkSimple s!"HtR{n}")
  let cs := mkIdent (Name.mkSimple s!"HcS{n}")
  let dv := mkIdent (Name.mkSimple s!"dev{15 + n}_eq")
  let j := Syntax.mkNumLit (toString (15 - n))
  let r := Syntax.mkNumLit (toString (n - 1))
  let tkF ← `(frameIdent| $tk:ident)
  let hdF ← `(frameIdent| $hd:ident)
  let tsF ← `(frameIdent| $ts:ident)
  let trF ← `(frameIdent| $tr:ident)
  let csP ← `(Idealize.SL.ProofMode.icasesPatAlts| $cs:ident)
  `(tactic| (
    iapply (send_rule m K c $j (by omega) ($dv c) (sendSem_spell c ($r : Fin 15)) (recvSem_own c) $fd) $$ [$tkF $hdF HO $tsF $trF]
    · isplitr; · iexact Hrec
      isplitl [$tk]; · iexact $tk
      isplitl [$hd]; · iexact $hd
      isplitl [HO]; · iexact HO
      isplitl [$ts]; · iexact $ts
      iexact $tr
    iintro Hnew
    icases Hnew with ⟨$csP, HO⟩))

open Lean in
set_option hygiene false in
/-- the wait for the copy from the device `k` places on -/
local macro "rwait_step" k:num : tactic => do
  let n := k.getNat
  let cr := mkIdent (Name.mkSimple s!"HcR{n}")
  let at_ := mkIdent (Name.mkSimple s!"HatR{n}")
  let rs := mkIdent (Name.mkSimple s!"Hrs{n}")
  let kk := Syntax.mkNumLit (toString n)
  let r := Syntax.mkNumLit (toString (n - 1))
  let crF ← `(frameIdent| $cr:ident)
  let atF ← `(frameIdent| $at_:ident)
  let atP ← `(Idealize.SL.ProofMode.icasesPatAlts| $at_:ident)
  let rsP ← `(Idealize.SL.ProofMode.icasesPatAlts| $rs:ident)
  `(tactic| (
    iapply (rwait_rule m K c $kk (by decide) (recvSem_spell c ($r : Fin 15)) (slot_credit _ _)) $$ [$crF HO $atF]
    · isplitr; · iexact Hrec
      isplitl [$cr]; · iexact $cr
      isplitl [HO]; · iexact HO
      iexact $at_
    iintro Hnew
    icases Hnew with ⟨HO, $atP, $rsP⟩))

open Lean in
set_option hygiene false in
/-- the wait for the copy to the device `k` places on to have read its source -/
local macro "swait_step" k:num : tactic => do
  let n := k.getNat
  let cs := mkIdent (Name.mkSimple s!"HcS{n}")
  let at_ := mkIdent (Name.mkSimple s!"HatS{n}")
  let tk := mkIdent (Name.mkSimple s!"Htk{n}")
  let kk := Syntax.mkNumLit (toString n)
  let r := Syntax.mkNumLit (toString (n - 1))
  let csF ← `(frameIdent| $cs:ident)
  let atF ← `(frameIdent| $at_:ident)
  let atP ← `(Idealize.SL.ProofMode.icasesPatAlts| $at_:ident)
  let tkP ← `(Idealize.SL.ProofMode.icasesPatAlts| $tk:ident)
  `(tactic| (
    iapply (swait_rule m K c $kk (by decide) (sendSem_spell c ($r : Fin 15)) (slot_credit _ _)) $$ [$csF HO $atF]
    · isplitr; · iexact Hrec
      isplitl [$cs]; · iexact $cs
      isplitl [HO]; · iexact HO
      iexact $at_
    iintro Hnew
    icases Hnew with ⟨HO, $atP, $tkP⟩))

open Lean in
set_option hygiene false in
/-- closing the send cell for the device `k` places on -/
local macro "close_s" k:num : tactic => do
  let n := k.getNat
  let at_ := mkIdent (Name.mkSimple s!"HatS{n}")
  let hz := mkIdent (Name.mkSimple s!"HzS{n}")
  let kk := Syntax.mkNumLit (toString n)
  let atF ← `(frameIdent| $at_:ident)
  let hzP ← `(icasesPat| $hz:ident)
  `(tactic| (
    imod (close_rule m K c (some (false, peer c $kk)) (0 + 1) (duties_later m _)) $$ [$atF] with $hzP
    · isplitr; · iexact Hrec
      iexact $at_))

open Lean in
set_option hygiene false in
/-- closing the receive cell for the device `k` places on -/
local macro "close_r" k:num : tactic => do
  let n := k.getNat
  let at_ := mkIdent (Name.mkSimple s!"HatR{n}")
  let hz := mkIdent (Name.mkSimple s!"HzR{n}")
  let kk := Syntax.mkNumLit (toString n)
  let atF ← `(frameIdent| $at_:ident)
  let hzP ← `(icasesPat| $hz:ident)
  `(tactic| (
    imod (close_rule m K c (some (true, peer c $kk)) (0 + 1) (duties_later m _)) $$ [$atF] with $hzP
    · isplitr; · iexact Hrec
      iexact $at_))

set_option maxRecDepth 65536 in
set_option maxHeartbeats 4000000 in
/-- The body, stepped one rule per effect in program order from `bodyPre` to `bodyPost`. -/
theorem sound_body (K : Dev nD × CellIx → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part18_eq_skeleton]; unfold k0_part18_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel
  simp only [semSignalWord, semWaitWord, Prog.lift, Prog.bind_op, Prog.bind_ret, Prog.pure_eq_ret, wp_deviceId]
  unfold bodyPre ghost linear payToks startCred
  rw [bigSep_fin15, bigSep_fin15, cell_split, dev_split c (fun i => atPos ER (kcell (c, some (false, i))) 0 ∅ 0),
    dev_split c (fun i => atPos ER (kcell (c, some (true, i))) 0 ∅ 0)]
  iintro ⟨⟨⟨⟨#Hrec, ⟨HatB, ⟨HatSc, HatS1, HatS2, HatS3, HatS4, HatS5, HatS6, HatS7, HatS8, HatS9, HatS10, HatS11, HatS12, HatS13, HatS14, HatS15⟩, ⟨HatRc, HatR1, HatR2, HatR3, HatR4, HatR5, HatR6, HatR7, HatR8, HatR9, HatR10, HatR11, HatR12, HatR13, HatR14, HatR15⟩⟩,
      ⟨⟨HtB1, HtS1, HtR1⟩, ⟨HtB2, HtS2, HtR2⟩, ⟨HtB3, HtS3, HtR3⟩, ⟨HtB4, HtS4, HtR4⟩, ⟨HtB5, HtS5, HtR5⟩, ⟨HtB6, HtS6, HtR6⟩, ⟨HtB7, HtS7, HtR7⟩, ⟨HtB8, HtS8, HtR8⟩, ⟨HtB9, HtS9, HtR9⟩, ⟨HtB10, HtS10, HtR10⟩, ⟨HtB11, HtS11, HtR11⟩, ⟨HtB12, HtS12, HtR12⟩, ⟨HtB13, HtS13, HtR13⟩, ⟨HtB14, HtS14, HtR14⟩, ⟨HtB15, HtS15, HtR15⟩⟩⟩,
    ⟨HcB, ⟨HcR1, HcR2, HcR3, HcR4, HcR5, HcR6, HcR7, HcR8, HcR9, HcR10, HcR11, HcR12, HcR13, HcR14, HcR15⟩⟩, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = owedB c 15 from rfl]
  ihave HO := (show owes (c : Thread nD τ) (owedB c 15) W ⊢ (OwesE c (owedB c 15) : sProp 𝕄) from by iintro H; iexists W; iexact H) $$ HO
  -- the gather buffer slot by slot
  ihave Hs1 := (Entails.of_eq (scr_split c fullShare f0)) $$ Hscr
  ihave Hsls := (Entails.of_eq (dev_split c (fun i => ((slotM i).view.loc (c : Thread nD τ) ↦[(slotM i).view.set]{fullShare} f0 : sProp 𝕄)))) $$ Hs1
  icases Hsls with ⟨Hsl0, Hsl1, Hsl2, Hsl3, Hsl4, Hsl5, Hsl6, Hsl7, Hsl8, Hsl9, Hsl10, Hsl11, Hsl12, Hsl13, Hsl14, Hsl15⟩
  -- the fifteen units
  sig_step 1
  sig_step 2
  sig_step 3
  sig_step 4
  sig_step 5
  sig_step 6
  sig_step 7
  sig_step 8
  sig_step 9
  sig_step 10
  sig_step 11
  sig_step 12
  sig_step 13
  sig_step 14
  sig_step 15
  -- the input block, then the own slot: read, then overwritten with the device's statistics
  iapply (wp_load 𝒱₀ (c : Thread nD τ) none Set.univ (m := (Memref.whole cc0_stg0_0 : Memref sig .tc .vmem S512x256 .f32)) (Finset.subset_univ _)) $$ Hx; iintro Hx
  rw [read_x]
  iapply (wp_load 𝒱₀ (c : Thread nD τ) none Set.univ (m := scrM) (own_load_sub c)) $$ Hsl0; iintro Hsl0
  iapply (wp_store 𝒱₀ (c : Thread nD τ) none Set.univ (m := scrM) (r := ownR c) (Mk := Finset.univ) (own_store_sub c)) $$ Hsl0; iintro Hsl0
  ihave Hown := (show (((scrM : Memref sig .tc .vmem S16x8x128 .f32).access (ownR c)).loc (c : Thread nD τ) ↦[(slotM c).view.set]{fullShare}
        (((scrM : Memref sig .tc .vmem S16x8x128 .f32).access (ownR c)).write (Elt F) f0
          (k0_pay12 (k0_pay1 (xstg m ρ c)) (k0_pay3 (xstg m ρ c)) (k0_pay4 (xstg m ρ c)) (k0_pay6 (xstg m ρ c)) (k0_pay7 (xstg m ρ c))) Finset.univ) : sProp 𝕄)
      ⊢ ((slotM c).view.loc (c : Thread nD τ) ↦[(slotM c).view.set]{fullShare} Gall m c) from Entails.of_eq (own_stored m c f0)) $$ Hsl0
  ihave Hl := (own_lend m c).1 $$ Hown
  icases Hl with ⟨Hq0, Htk1, Htk2, Htk3, Htk4, Htk5, Htk6, Htk7, Htk8, Htk9, Htk10, Htk11, Htk12, Htk13, Htk14, Htk15⟩
  -- the barrier wait: each of the fifteen units hands over the signalling device's slot for this device
  iapply (bar_rule m K c) $$ [HcB HO HatB]
  · isplitr; · iexact Hrec
    isplitr; · iexact Hlev
    isplitl [HcB]; · iexact HcB
    isplitl [HO]; · iexact HO
    iexact HatB
  iintro ⟨HO, HatB, Hbp⟩
  unfold barPay
  icases Hbp with ⟨⟨%fd1, Hd1⟩, ⟨%fd2, Hd2⟩, ⟨%fd3, Hd3⟩, ⟨%fd4, Hd4⟩, ⟨%fd5, Hd5⟩, ⟨%fd6, Hd6⟩, ⟨%fd7, Hd7⟩, ⟨%fd8, Hd8⟩, ⟨%fd9, Hd9⟩, ⟨%fd10, Hd10⟩, ⟨%fd11, Hd11⟩, ⟨%fd12, Hd12⟩, ⟨%fd13, Hd13⟩, ⟨%fd14, Hd14⟩, ⟨%fd15, Hd15⟩⟩
  -- the fifteen copies
  send_step 1
  send_step 2
  send_step 3
  send_step 4
  send_step 5
  send_step 6
  send_step 7
  send_step 8
  send_step 9
  send_step 10
  send_step 11
  send_step 12
  send_step 13
  send_step 14
  send_step 15
  -- the fifteen landings
  rwait_step 1
  rwait_step 2
  rwait_step 3
  rwait_step 4
  rwait_step 5
  rwait_step 6
  rwait_step 7
  rwait_step 8
  rwait_step 9
  rwait_step 10
  rwait_step 11
  rwait_step 12
  rwait_step 13
  rwait_step 14
  rwait_step 15
  -- the whole gather buffer, read at the kept share
  ihave Hg := (gathered_access m c) $$ [Hq0 Hrs1 Hrs2 Hrs3 Hrs4 Hrs5 Hrs6 Hrs7 Hrs8 Hrs9 Hrs10 Hrs11 Hrs12 Hrs13 Hrs14 Hrs15]
  · isplitl [Hq0]; · iexact Hq0
    isplitl [Hrs1]; · iexact Hrs1
    isplitl [Hrs2]; · iexact Hrs2
    isplitl [Hrs3]; · iexact Hrs3
    isplitl [Hrs4]; · iexact Hrs4
    isplitl [Hrs5]; · iexact Hrs5
    isplitl [Hrs6]; · iexact Hrs6
    isplitl [Hrs7]; · iexact Hrs7
    isplitl [Hrs8]; · iexact Hrs8
    isplitl [Hrs9]; · iexact Hrs9
    isplitl [Hrs10]; · iexact Hrs10
    isplitl [Hrs11]; · iexact Hrs11
    isplitl [Hrs12]; · iexact Hrs12
    isplitl [Hrs13]; · iexact Hrs13
    isplitl [Hrs14]; · iexact Hrs14
    iexact Hrs15
  icases Hg with ⟨Hwhole, Hback⟩
  iapply (wp_load 𝒱₀ (c : Thread nD τ) none Set.univ (m := scrM) (Finset.subset_univ _)) $$ Hwhole; iintro Hwhole
  rw [read_scr]
  ihave Hg := Hback $$ Hwhole
  icases Hg with ⟨Hq0, Hrs1, Hrs2, Hrs3, Hrs4, Hrs5, Hrs6, Hrs7, Hrs8, Hrs9, Hrs10, Hrs11, Hrs12, Hrs13, Hrs14, Hrs15⟩
  -- the result block, 128 rows at a time
  iapply (wp_load 𝒱₀ (c : Thread nD τ) none Set.univ (m := oM) (Finset.subset_univ _)) $$ Hout; iintro Hout
  iapply (wp_store 𝒱₀ (c : Thread nD τ) none Set.univ (m := oM) (r := oR0) (Mk := Finset.univ) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := oR1) (Mk := Finset.univ) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := oR2) (Mk := Finset.univ) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := oR3) (Mk := Finset.univ) (Finset.subset_univ _)) $$ Hout; iintro Hout
  -- the fifteen sources read: the lent shares come back
  swait_step 1
  swait_step 2
  swait_step 3
  swait_step 4
  swait_step 5
  swait_step 6
  swait_step 7
  swait_step 8
  swait_step 9
  swait_step 10
  swait_step 11
  swait_step 12
  swait_step 13
  swait_step 14
  swait_step 15
  -- every own cell is spent: closed, its counter at zero
  imod (close_rule m K c (some (false, c)) 0 (duties_send_self m c)) $$ [HatSc] with HzSc
  · isplitr; · iexact Hrec
    iexact HatSc
  close_s 1
  close_s 2
  close_s 3
  close_s 4
  close_s 5
  close_s 6
  close_s 7
  close_s 8
  close_s 9
  close_s 10
  close_s 11
  close_s 12
  close_s 13
  close_s 14
  close_s 15
  imod (close_rule m K c (some (true, c)) 0 (duties_recv_self m c)) $$ [HatRc] with HzRc
  · isplitr; · iexact Hrec
    iexact HatRc
  close_r 1
  close_r 2
  close_r 3
  close_r 4
  close_r 5
  close_r 6
  close_r 7
  close_r 8
  close_r 9
  close_r 10
  close_r 11
  close_r 12
  close_r 13
  close_r 14
  close_r 15
  -- the own slot whole again, then the buffer
  ihave Hown := (own_lend m c).2 $$ [Hq0 Htk1 Htk2 Htk3 Htk4 Htk5 Htk6 Htk7 Htk8 Htk9 Htk10 Htk11 Htk12 Htk13 Htk14 Htk15]
  · isplitl [Hq0]; · iexact Hq0
    isplitl [Htk1]; · iexact Htk1
    isplitl [Htk2]; · iexact Htk2
    isplitl [Htk3]; · iexact Htk3
    isplitl [Htk4]; · iexact Htk4
    isplitl [Htk5]; · iexact Htk5
    isplitl [Htk6]; · iexact Htk6
    isplitl [Htk7]; · iexact Htk7
    isplitl [Htk8]; · iexact Htk8
    isplitl [Htk9]; · iexact Htk9
    isplitl [Htk10]; · iexact Htk10
    isplitl [Htk11]; · iexact Htk11
    isplitl [Htk12]; · iexact Htk12
    isplitl [Htk13]; · iexact Htk13
    isplitl [Htk14]; · iexact Htk14
    iexact Htk15
  ihave Hscr := (scratch_whole m c) $$ [Hown Hrs1 Hrs2 Hrs3 Hrs4 Hrs5 Hrs6 Hrs7 Hrs8 Hrs9 Hrs10 Hrs11 Hrs12 Hrs13 Hrs14 Hrs15]
  · isplitl [Hown]; · iexact Hown
    isplitl [Hrs1]; · iexact Hrs1
    isplitl [Hrs2]; · iexact Hrs2
    isplitl [Hrs3]; · iexact Hrs3
    isplitl [Hrs4]; · iexact Hrs4
    isplitl [Hrs5]; · iexact Hrs5
    isplitl [Hrs6]; · iexact Hrs6
    isplitl [Hrs7]; · iexact Hrs7
    isplitl [Hrs8]; · iexact Hrs8
    isplitl [Hrs9]; · iexact Hrs9
    isplitl [Hrs10]; · iexact Hrs10
    isplitl [Hrs11]; · iexact Hrs11
    isplitl [Hrs12]; · iexact Hrs12
    isplitl [Hrs13]; · iexact Hrs13
    isplitl [Hrs14]; · iexact Hrs14
    iexact Hrs15
  rw [wp_ret]; imodintro
  iapply Hk
  unfold bodyPost Φ₁ Dat.owesAt Pipeline.owesWithin
  rw [show (dats m ρ 0 c).owed t₀.succ = 0 from rfl]
  isplitl [Hscr HzSc HzS1 HzS2 HzS3 HzS4 HzS5 HzS6 HzS7 HzS8 HzS9 HzS10 HzS11 HzS12 HzS13 HzS14 HzS15 HzRc HzR1 HzR2 HzR3 HzR4 HzR5 HzR6 HzR7 HzR8 HzR9 HzR10 HzR11 HzR12 HzR13 HzR14 HzR15]
  · isplitl [Hscr]; · iexact Hscr
    rw [bool_dev_split c]
    isplitl [HzSc HzS1 HzS2 HzS3 HzS4 HzS5 HzS6 HzS7 HzS8 HzS9 HzS10 HzS11 HzS12 HzS13 HzS14 HzS15]
    · isplitl [HzSc]; · iexact HzSc
      isplitl [HzS1]; · iexact HzS1
      isplitl [HzS2]; · iexact HzS2
      isplitl [HzS3]; · iexact HzS3
      isplitl [HzS4]; · iexact HzS4
      isplitl [HzS5]; · iexact HzS5
      isplitl [HzS6]; · iexact HzS6
      isplitl [HzS7]; · iexact HzS7
      isplitl [HzS8]; · iexact HzS8
      isplitl [HzS9]; · iexact HzS9
      isplitl [HzS10]; · iexact HzS10
      isplitl [HzS11]; · iexact HzS11
      isplitl [HzS12]; · iexact HzS12
      isplitl [HzS13]; · iexact HzS13
      isplitl [HzS14]; · iexact HzS14
      iexact HzS15
    · isplitl [HzRc]; · iexact HzRc
      isplitl [HzR1]; · iexact HzR1
      isplitl [HzR2]; · iexact HzR2
      isplitl [HzR3]; · iexact HzR3
      isplitl [HzR4]; · iexact HzR4
      isplitl [HzR5]; · iexact HzR5
      isplitl [HzR6]; · iexact HzR6
      isplitl [HzR7]; · iexact HzR7
      isplitl [HzR8]; · iexact HzR8
      isplitl [HzR9]; · iexact HzR9
      isplitl [HzR10]; · iexact HzR10
      isplitl [HzR11]; · iexact HzR11
      isplitl [HzR12]; · iexact HzR12
      isplitl [HzR13]; · iexact HzR13
      isplitl [HzR14]; · iexact HzR14
      iexact HzR15
  isplitl [HO]
  · icases HO with ⟨%W', HO⟩
    iexists W'
    isplitr; · ipureintro; exact fun _ _ => Or.inl trivial
    iexact HO
  isplitl [Hx]
  · iexists _; isplitr; · (ipureintro; rfl)
    iexact Hx
  iexists _; isplitr; · (ipureintro; exact out_writes (xstg m ρ c) (Gall m c) g1)
  iexact Hout

set_option maxRecDepth 65536 in
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 65536 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2⟩
      isplitl [H1]; · iexact H1
      isplitl [H2]; · iexact H2
      iexact Hscr
    isplitl [Ho]; · iexact Ho
    isplitl [Hx] <;> iassumption
  · iintro H; iexact H

/-- info: 'Cert.Kernel.Hand.body_obligation' depends on axioms: [propext, Classical.choice, Quot.sound] -/
#guard_msgs in #print axioms body_obligation

end Cert.Kernel.Hand

end
-- ==== Proof.Kernel.Launch.lean ====
/-
  The launch of the exchange: from one device's body to the run of the sixteen.

  Each device owes, at launch, a unit on every other device's barrier cell and a slot's credit on the receive
  cell every other device has for it. Summed over the devices, a barrier cell is owed fifteen units and a
  receive cell one slot's credit: that is the credit its owner is dealt, and with it the body's starting state.
  The run then ends with each device's argument array as it was and its result array holding what the body
  left in the output staging buffer.
-/
import proofs.«900603_g7700000000000604_dist_softmax_colshard_i_m512_n256_v7x_i16_bf16_1_alg».proof.Proof.Kernel.Data
import proofs.«900603_g7700000000000604_dist_softmax_colshard_i_m512_n256_v7x_i16_bf16_1_alg».proof.Proof.Kernel.Alloc
import proofs.«900603_g7700000000000604_dist_softmax_colshard_i_m512_n256_v7x_i16_bf16_1_alg».proof.Proof.Kernel.Body
import proofs.«900603_g7700000000000604_dist_softmax_colshard_i_m512_n256_v7x_i16_bf16_1_alg».proof.Proof.Gen.Kernel.Frame

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The layout -/

/-- The thirty-two send and receive semaphores are scoped, distinct, and none of them a staging semaphore. -/
theorem ownSemFacts : Pipeline.OwnSemFacts cfg0.spec osem := by decide

theorem share_eq (c : Dev nD) (w : Fin cfg0.W) : (dats m ρ 0 c).share w = fullShare := by unfold Dat.share; split <;> rfl

/-! ### The launch credit -/

/-- Every device `d` owing a unit on the barrier cell of the device `k` places on, device `c` is dealt a unit on its own. -/
theorem launchCred_bar (k : ℕ) (hk : k ≤ 16) (c : Dev nD) :
    (Pipeline.launchCred (fun d => tallyAt (barCell (peer d k)) () 1) c : sProp 𝕄) ⊢ cred (tallyAt (barCell c) () 1) :=
  Pipeline.launchCred_tallyAt (.reg barS) (fun d => peer d k) (fun c => peer c (16 - k))
    (fun c => by rw [peer_peer, show 16 - k + k = 16 by omega, peer_16])
    (fun d => by rw [peer_peer, show k + (16 - k) = 16 by omega, peer_16]) () 1 c

/-- Every device `d` owing a slot's credit on the receive cell the device `k` places on has for `d`, device `c` is
    dealt that credit on its receive cell for the device `16 - k` places on: the one that owes it. -/
theorem launchCred_recv (k : ℕ) (hk : k ≤ 16) (c : Dev nD) :
    (Pipeline.launchCred (fun d => tallyAt (recvCell (peer d k) d) () N) c : sProp 𝕄)
      ⊢ cred (tallyAt (recvCell c (peer c (16 - k))) () N) := by
  refine (Pipeline.launchCred_elim _ c (.dma (recvSem (peer c (16 - k))))).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ peer c (16 - k) →
      tallyOn (nD := nD) (sig := sig) (recvCell (peer d k) d) (Finsupp.single () N) (recvCell c (peer c (16 - k))) = 0 := fun d _ hd => by
    refine tallyOn_ne (fun h => hd ?_) _
    exact (recvSem_inj (SemLoc.dma.inj (congrArg Prod.snd h))).symm
  rw [Finset.sum_eq_single (peer c (16 - k)) h0 (fun h => absurd (Finset.mem_univ _) h)]
  rw [peer_peer, show 16 - k + k = 16 by omega, peer_16]
  exact tallyOn_self _ _

/-- The receive credit: the summand for the device `15 - i` places on is dealt on the receive cell for the device `i + 1` places on. -/
theorem credR (c : Dev nD) : ∀ j, j ≤ 15 →
    (Pipeline.launchCred (fun d => owedR d j) c : sProp 𝕄)
      ⊢ bigSep (Finset.range j) fun i => cred (tallyAt (recvCell c (peer c (i + 1))) () N)
  | 0, _ => by
    rw [show (fun d : Dev nD => owedR d 0) = fun _ => 0 from rfl, Pipeline.launchCred_zero, Finset.range_zero, bigSep_empty]
    exact Entails.refl _
  | j + 1, hj => by
    have hr := launchCred_recv (F := F) (15 - j) (by omega) c
    rw [show 16 - (15 - j) = j + 1 by omega] at hr
    rw [show (fun d : Dev nD => owedR d (j + 1)) = fun d => owedR d j + tallyAt (recvCell (peer d (15 - j)) d) () N from rfl,
      Pipeline.launchCred_add, Ring.bigSep_range_succ]
    iintro ⟨H1, H2⟩
    isplitl [H2]
    · iapply hr; iexact H2
    · iapply (credR c j (by omega)); iexact H1

/-- The barrier credit, over the receive credit: `j` units once the summands for the last `j` devices are counted. -/
theorem credB (c : Dev nD) : ∀ j, j ≤ 15 →
    (Pipeline.launchCred (fun d => owedB d j) c : sProp 𝕄)
      ⊢ iprop(cred (tallyAt (barCell c) () j) ∗ Pipeline.launchCred (fun d => owedR d 15) c)
  | 0, _ => by
    rw [show (fun d : Dev nD => owedB d 0) = fun d => owedR d 15 from rfl, tallyAt_zero, cred_zero]
    iintro H
    isplitr
    · iempintro
    · iexact H
  | j + 1, hj => by
    rw [show (fun d : Dev nD => owedB d (j + 1)) = fun d => owedB d j + tallyAt (barCell (peer d (15 - j))) () 1 from rfl,
      Pipeline.launchCred_add, ← tallyAt_add]
    iintro ⟨H1, H2⟩
    ihave Hb := (launchCred_bar (F := F) (15 - j) (by omega) c) $$ H2
    ihave Hr := (credB c j (by omega)) $$ H1
    icases Hr with ⟨Hj, HR⟩
    isplitl [Hj Hb]
    · iapply (cred_add _ _).2
      isplitl [Hj]
      · iexact Hj
      · iexact Hb
    · iexact HR

/-- What the launch deals device `c`: fifteen units on its barrier cell, a slot's credit on each of its fifteen receive cells. -/
theorem creds (c : Dev nD) : (Pipeline.launchCred O₀ c : sProp 𝕄) ⊢ startCred c := by
  unfold startCred
  rw [Ring.bigSep_fin_eq_range 15 _ (fun i => cred (tallyAt (recvCell c (peer c (i + 1))) () N)) (fun t h => rfl)]
  exact (credB c 15 (le_refl _)).trans (sep_mono_right (credR c 15 (le_refl _)))

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq]
  unfold Φ₁ Pipeline.ownSems0
  iintro ⟨Hr, Hz⟩
  isplitr; · iempintro
  isplitl [Hz]; · iexact Hz
  iexact Hr

/-- The pipeline's own waits are on its two staging semaphores, which lie below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: every weakly fair
    execution of @main — the sixteen kernels meeting on the runtime's barrier semaphore, then copying their slots to
    one another — terminates, and every final state has each device's two arrays at the pipeline's final contents. -/
theorem run_main : θ_run defs (onTc (τ := τ) (main (F := F))) (st₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ### The two arrays after the run -/

/-- The argument array is an input window's: never written back. -/
theorem finalA_x (c : Dev nD) : finalA m ρ c (0 : Fin 2) = m ((c : Thread nD τ).loc main_arg0) :=
  (dats (F := F) m ρ 0 c).arrAt_in (0 : Fin 2) rfl _

/-- The result array is written back once, whole, at the one point: it ends holding what the body left in the
    output staging buffer. -/
theorem finalA_out (c : Dev nD) : finalA m ρ c (1 : Fin 2) = outAt m c := by
  show (dats m ρ 0 c).arrAt (1 : Fin 2) ((t₀ : Fin cfg0.N).val + 1) = _
  rw [(dats m ρ 0 c).arrAt_succ (1 : Fin 2) t₀, if_pos (flush0_1 t₀)]
  exact Memref.write_access_unit_zero_univ (Elt F) main_v1 (funext fun a => Nat.zero_mul _) _ _ _

/-- THE KERNEL'S RUN: on every device the result array ends at `outAt`, the argument array as it was. -/
theorem kernel_run : θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_x m ρ c)⟩)
    (run_main m ρ)

end Cert.Kernel.Hand

end

/-- info: 'Cert.Kernel.Hand.ownSemFacts' depends on axioms: [propext, Classical.choice, Quot.sound] -/
#guard_msgs in #print axioms Cert.Kernel.Hand.ownSemFacts
/-- info: 'Cert.Kernel.Hand.creds' depends on axioms: [propext, Classical.choice, Quot.sound] -/
#guard_msgs in #print axioms Cert.Kernel.Hand.creds
/-- info: 'Cert.Kernel.Hand.start_intro' depends on axioms: [propext, Classical.choice, Quot.sound] -/
#guard_msgs in #print axioms Cert.Kernel.Hand.start_intro
/-- info: 'Cert.Kernel.Hand.phi0_intro' depends on axioms: [propext, Classical.choice, Quot.sound] -/
#guard_msgs in #print axioms Cert.Kernel.Hand.phi0_intro
/-- info: 'Cert.Kernel.Hand.phi1_exit' depends on axioms: [propext, Classical.choice, Quot.sound] -/
#guard_msgs in #print axioms Cert.Kernel.Hand.phi1_exit
/-- info: 'Cert.Kernel.Hand.waits' depends on axioms: [propext, Classical.choice, Quot.sound] -/
#guard_msgs in #print axioms Cert.Kernel.Hand.waits
/-- info: 'Cert.Kernel.Hand.finalA_x' depends on axioms: [propext, Classical.choice, Quot.sound] -/
#guard_msgs in #print axioms Cert.Kernel.Hand.finalA_x
/-- info: 'Cert.Kernel.Hand.finalA_out' depends on axioms: [propext, Classical.choice, Quot.sound] -/
#guard_msgs in #print axioms Cert.Kernel.Hand.finalA_out
-- ==== Proof.Assemble.lean ====
/-
  The five conjuncts of the claim, assembled.

  The kernel's run (one for each float instance) ends with every device's argument block unchanged and its result
  block at `outBlk` of its own block and the sixteen gathered slots; dropping the value gives the two kernels'
  frames. The reference's run gives its frame and its result `val_main_v8` of the whole array. For the value:
  a device's staged input is its argument block, the blocks are the parts of the whole array and finite, so by
  the bridge each device's result block is its part of the reference's result.
-/
import proofs.«900603_g7700000000000604_dist_softmax_colshard_i_m512_n256_v7x_i16_bf16_1_alg».proof.Defs
import proofs.«900603_g7700000000000604_dist_softmax_colshard_i_m512_n256_v7x_i16_bf16_1_alg».proof.Proof.RefValue
import proofs.«900603_g7700000000000604_dist_softmax_colshard_i_m512_n256_v7x_i16_bf16_1_alg».proof.Proof.KernelIdeal.Launch
import proofs.«900603_g7700000000000604_dist_softmax_colshard_i_m512_n256_v7x_i16_bf16_1_alg».proof.Proof.KernelIdeal.KValue
import proofs.«900603_g7700000000000604_dist_softmax_colshard_i_m512_n256_v7x_i16_bf16_1_alg».proof.Proof.Kernel.Launch
import proofs.«900603_g7700000000000604_dist_softmax_colshard_i_m512_n256_v7x_i16_bf16_1_alg».proof.Proof.Gen.Kernel
import proofs.«900603_g7700000000000604_dist_softmax_colshard_i_m512_n256_v7x_i16_bf16_1_alg».proof.Proof.Gen.KernelIdeal
import proofs.«900603_g7700000000000604_dist_softmax_colshard_i_m512_n256_v7x_i16_bf16_1_alg».proof.Proof.Gen.ReferenceIdeal
import proofs.«900603_g7700000000000604_dist_softmax_colshard_i_m512_n256_v7x_i16_bf16_1_alg».proof.Proof.Gen.Pre_finite_inputs_Kernel
import proofs.«900603_g7700000000000604_dist_softmax_colshard_i_m512_n256_v7x_i16_bf16_1_alg».proof.Proof.Gen.Pre_finite_inputs_ReferenceIdeal

noncomputable section

namespace Cert.Assemble

open Idealize.ShloMosaic Idealize.ShloMosaic.TcCoe Idealize.SL.Sem
open Cert.KernelIdeal.Hand

/-- The word-level kernel runs and leaves its argument arrays unchanged: its run with the result dropped. -/
theorem frame_k : Cert.frame_Kernel (hKernel := Cert.Kernel.Gen.facts) (hPre_finite_inputs_Kernel := Cert.Pre_finite_inputs_Kernel.Gen.facts) :=
  fun m ρ _ => (θ_run Cert.Kernel.defs _ _).mono (fun _ h c => (h c).2) (Cert.Kernel.Hand.kernel_run (F := Bits) m ρ)

/-- A device's input block as its kernel's input window stages it is its argument array: the window is the whole array. -/
theorem xin_eq {F : FTy → Type} [FloatOps F]
    (m : (ℓ : Loc Cert.KernelIdeal.nD Cert.KernelIdeal.τ Cert.KernelIdeal.sig) → Buf (Elt F) ℓ) (c : Dev Cert.KernelIdeal.nD) :
    xin (F := F) m c = m ((c : Thread Cert.KernelIdeal.nD Cert.KernelIdeal.τ).loc Cert.KernelIdeal.main_arg0) := by
  unfold xin
  exact Memref.read_access_unit_zero (Elt F) Cert.KernelIdeal.main_arg0 (funext fun a => Nat.zero_mul _) _ _

/-- The idealized kernel runs and leaves its argument arrays unchanged: its run with the result dropped. -/
theorem frame_ki : Cert.frame_KernelIdeal (hKernelIdeal := Cert.KernelIdeal.Gen.facts) (hPre_finite_inputs_Kernel := Cert.Pre_finite_inputs_Kernel.Gen.facts) :=
  fun m ρ _ => (θ_run Cert.KernelIdeal.defs _ _).mono (fun _ h c => (h c).2) (kernel_run (F := Ideal) m ρ)

/-- The reference runs and leaves its argument array unchanged. -/
theorem frame_ri : Cert.frame_ReferenceIdeal (hReferenceIdeal := Cert.ReferenceIdeal.Gen.facts)
    (hPre_finite_inputs_ReferenceIdeal := Cert.Pre_finite_inputs_ReferenceIdeal.Gen.facts) :=
  Cert.RefValue.frame_ref

/-- The ideal pass rewrote nothing. -/
theorem preserves : Cert.preserves_Kernel_KernelIdeal := trivial

/-- At the ideal instance, from blocks that are the parts of the reference's array and are finite, each device's
    result block ends as its part of the reference's result — the softmax of the whole rows —, and the arguments
    of both programs end unchanged. -/
theorem algebraic : Cert.algebraic_KernelIdeal_ReferenceIdeal (hKernelIdeal := Cert.KernelIdeal.Gen.facts)
    (hReferenceIdeal := Cert.ReferenceIdeal.Gen.facts) (hPre_finite_inputs_Kernel := Cert.Pre_finite_inputs_Kernel.Gen.facts) := by
  intro m ρ m' ρ' hpre hagree
  refine ⟨Cert.ReferenceIdeal.Read.val_main_v8 (F := Ideal)
      (m' (((0 : Dev Cert.ReferenceIdeal.nD).tc : Thread Cert.ReferenceIdeal.nD Cert.ReferenceIdeal.τ).loc Cert.ReferenceIdeal.main_arg0)),
    ?_, Cert.RefValue.ref_run m' ρ'⟩
  refine (θ_run Cert.KernelIdeal.defs _ _).mono (fun _ h c => ⟨(h c).1.trans ?_, (h c).2⟩) (kernel_run (F := Ideal) m ρ)
  -- the result block is `outBlk` of the device's block and the sixteen gathered slots: the bridge
  show outBlk (F := Ideal) (xin m c) (gathered (xin m)) = _
  exact Cert.RefValue.bridge _ (xin m) (fun p => by rw [xin_eq]; exact hagree p) (fun p => by rw [xin_eq]; exact hpre p) c

end Cert.Assemble

end

/-- info: 'Cert.Assemble.frame_k' depends on axioms: [propext, Classical.choice, Quot.sound] -/
#guard_msgs in #print axioms Cert.Assemble.frame_k
/-- info: 'Cert.Assemble.frame_ki' depends on axioms: [propext, Classical.choice, Quot.sound] -/
#guard_msgs in #print axioms Cert.Assemble.frame_ki
/-- info: 'Cert.Assemble.frame_ri' depends on axioms: [propext, Classical.choice, Quot.sound] -/
#guard_msgs in #print axioms Cert.Assemble.frame_ri
/-- info: 'Cert.Assemble.algebraic' depends on axioms: [propext, Classical.choice, Quot.sound] -/
#guard_msgs in #print axioms Cert.Assemble.algebraic
-- ==== Proof.lean ====
/-
  A softmax over the rows of a `[512, 4096]` array whose columns are cut into sixteen blocks of 256, one per device.

  Each device forms its block's row maxima `m` and row sums `s = Σ exp (x - m)`, the sixteen devices exchange these
  statistics — every device copies its slot into every other device's gather buffer, after a handshake on the
  barrier semaphore —, and each then rescales its block: `exp (x - m) · (exp (m - M) / S)` with `M = max_p m_p` and
  `S = Σ_p s_p · exp (m_p - M)`. The reference computes `exp (X - RM) / Σ exp (X - RM)` over the whole rows. For
  finite entries the two agree (a maximum of maxima, `exp a · exp b = exp (a + b)`, a sum over 4096 columns as
  sixteen sums over 256), which is the value claim; the frames say that both kernels and the reference run to
  the end, whatever the interleaving of the sixteen devices, and leave their arguments unchanged.
-/
import proofs.«900603_g7700000000000604_dist_softmax_colshard_i_m512_n256_v7x_i16_bf16_1_alg».proof.Defs
import proofs.«900603_g7700000000000604_dist_softmax_colshard_i_m512_n256_v7x_i16_bf16_1_alg».proof.Proof.Gen.Kernel
import proofs.«900603_g7700000000000604_dist_softmax_colshard_i_m512_n256_v7x_i16_bf16_1_alg».proof.Proof.Gen.Kernel.Skeleton
import proofs.«900603_g7700000000000604_dist_softmax_colshard_i_m512_n256_v7x_i16_bf16_1_alg».proof.Proof.Gen.Kernel.Launch
import proofs.«900603_g7700000000000604_dist_softmax_colshard_i_m512_n256_v7x_i16_bf16_1_alg».proof.Proof.Gen.Kernel.Points
import proofs.«900603_g7700000000000604_dist_softmax_colshard_i_m512_n256_v7x_i16_bf16_1_alg».proof.Proof.Gen.Kernel.Frame
import proofs.«900603_g7700000000000604_dist_softmax_colshard_i_m512_n256_v7x_i16_bf16_1_alg».proof.Proof.Gen.KernelIdeal
import proofs.«900603_g7700000000000604_dist_softmax_colshard_i_m512_n256_v7x_i16_bf16_1_alg».proof.Proof.Gen.KernelIdeal.Skeleton
import proofs.«900603_g7700000000000604_dist_softmax_colshard_i_m512_n256_v7x_i16_bf16_1_alg».proof.Proof.Gen.KernelIdeal.Launch
import proofs.«900603_g7700000000000604_dist_softmax_colshard_i_m512_n256_v7x_i16_bf16_1_alg».proof.Proof.Gen.KernelIdeal.Points
import proofs.«900603_g7700000000000604_dist_softmax_colshard_i_m512_n256_v7x_i16_bf16_1_alg».proof.Proof.Gen.KernelIdeal.Frame
import proofs.«900603_g7700000000000604_dist_softmax_colshard_i_m512_n256_v7x_i16_bf16_1_alg».proof.Proof.Gen.ReferenceIdeal
import proofs.«900603_g7700000000000604_dist_softmax_colshard_i_m512_n256_v7x_i16_bf16_1_alg».proof.Proof.Gen.Pre_finite_inputs_Kernel
import proofs.«900603_g7700000000000604_dist_softmax_colshard_i_m512_n256_v7x_i16_bf16_1_alg».proof.Proof.Gen.Pre_finite_inputs_ReferenceIdeal
import Idealize.ShloMosaic.Adequacy
import Idealize.ShloMosaic.Init
import proofs.«900603_g7700000000000604_dist_softmax_colshard_i_m512_n256_v7x_i16_bf16_1_alg».proof.Proof.Assemble

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Cert.Assemble.frame_k, Cert.Assemble.frame_ki, Cert.Assemble.frame_ri, Cert.Assemble.preserves, Cert.Assemble.algebraic⟩

end Cert.Proof

end
